-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10944x2048 : S_.BroadcastsInDim S10944x2048 (![] : Fin 0 → Fin S10944x2048.rank)
  reducesTo_S10944x2048_S_d0_1 : S10944x2048.ReducesTo [0, 1] S_
  bcast_S_S2048x10944 : S_.BroadcastsInDim S2048x10944 (![] : Fin 0 → Fin S2048x10944.rank)
  reducesTo_S2048x10944_S_d0_1 : S2048x10944.ReducesTo [0, 1] S_

variable [Facts]

def fn_part2 {F : FTy → Type} [FloatOps F] (main_arg8 : FVec F S2048x10944 .f32) (main_v33 : IVec S_ 1) : IVec S_ 1 :=
  let main_v34 : FVec F S2048x10944 .f32 := Host.absf main_arg8
  let main_cst_12 : FVec F S_ .f32 := constant S_ .f32 0x7F800000#32
  let main_v35 : FVec F S2048x10944 .f32 := broadcastInDim S2048x10944 ![] bcast_S_S2048x10944 main_cst_12
  let main_v36 : IVec S2048x10944 1 := cmpf .olt main_v34 main_v35
  let main_c_13 : IVec S_ 1 := constantI S_ 1 1#1
  let main_v37 : IVec S_ 1 := (fun x v => Host.reduce IntOp.andi x v reducesTo_S2048x10944_S_d0_1 h_S_) main_v36 main_c_13
  let main_v38 : IVec S_ 1 := andi main_v33 main_v37
  main_v38

def fn_part1 {F : FTy → Type} [FloatOps F] (main_arg5 : FVec F S2048x2048 .f32) (main_arg6 : FVec F S10944x2048 .f32) (main_arg7 : FVec F S10944x2048 .f32) (main_arg8 : FVec F S2048x10944 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S10944x2048 .f32 := Host.absf main_arg6
  let main_cst_8 : FVec F S_ .f32 := constant S_ .f32 0x7F800000#32
  let main_v25 : FVec F S10944x2048 .f32 := broadcastInDim S10944x2048 ![] bcast_S_S10944x2048 main_cst_8
  let main_v26 : IVec S10944x2048 1 := cmpf .olt main_v24 main_v25
  let main_c_9 : IVec S_ 1 := constantI S_ 1 1#1
  let main_v27 : IVec S_ 1 := (fun x v => Host.reduce IntOp.andi x v reducesTo_S10944x2048_S_d0_1 h_S_) main_v26 main_c_9
  let main_v28 : IVec S_ 1 := andi main_v23 main_v27
  let main_v29 : FVec F S10944x2048 .f32 := Host.absf main_arg7
  let main_cst_10 : FVec F S_ .f32 := constant S_ .f32 0x7F800000#32
  let main_v30 : FVec F S10944x2048 .f32 := broadcastInDim S10944x2048 ![] bcast_S_S10944x2048 main_cst_10
  let main_v31 : IVec S10944x2048 1 := cmpf .olt main_v29 main_v30
  let main_c_11 : IVec S_ 1 := constantI S_ 1 1#1
  let main_v32 : IVec S_ 1 := (fun x v => Host.reduce IntOp.andi x v reducesTo_S10944x2048_S_d0_1 h_S_) main_v31 main_c_11
  let main_v33 : IVec S_ 1 := andi main_v28 main_v32
  fn_part2 (F := F) main_arg8 main_v33

def fn {F : FTy → Type} [FloatOps F] (main_arg0 : FVec F S2x2048x2048 .f32) (main_arg1 : IVec S2x2048 32) (main_arg2 : FVec F S2048 .f32) (main_arg3 : FVec F S2048 .f32) (main_arg4 : FVec F S2048x2048 .f32) (main_arg5 : FVec F S2048x2048 .f32) (main_arg6 : FVec F S10944x2048 .f32) (main_arg7 : FVec F S10944x2048 .f32) (main_arg8 : FVec F S2048x10944 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_arg7 main_arg8 main_v13 main_v16
-- ==== Kernel.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S4096x10944 : Shape := ⟨2, ![4096, 10944]⟩
abbrev S128x256 : Shape := ⟨2, ![128, 256]⟩
abbrev S10944x256 : Shape := ⟨2, ![10944, 256]⟩
abbrev S128x10944 : Shape := ⟨2, ![128, 10944]⟩
abbrev S256x10944 : Shape := ⟨2, ![256, 10944]⟩
abbrev S256x256 : Shape := ⟨2, ![256, 256]⟩

abbrev nBuf : Space → Nat
  | .hbm => 24
  | .vmem => 40
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S10944x2048, .f32⟩
  | .hbm, ⟨7, _⟩ => ⟨S10944x2048, .f32⟩
  | .hbm, ⟨8, _⟩ => ⟨S2048x10944, .f32⟩
  | .hbm, ⟨9, _⟩ => ⟨S4096x2048, .f32⟩
  | .hbm, ⟨10, _⟩ => ⟨S2048x2048, .bf16⟩
  | .hbm, ⟨11, _⟩ => ⟨S2048x2048, .bf16⟩
  | .hbm, ⟨12, _⟩ => ⟨S10944x2048, .bf16⟩
  | .hbm, ⟨13, _⟩ => ⟨S10944x2048, .bf16⟩
  | .hbm, ⟨14, _⟩ => ⟨S2048x10944, .bf16⟩
  | .hbm, ⟨15, _⟩ => ⟨S1x2048, .f32⟩
  | .hbm, ⟨16, _⟩ => ⟨S4096x2048, .bf16⟩
  | .hbm, ⟨17, _⟩ => ⟨S4096x2048, .bf16⟩
  | .hbm, ⟨18, _⟩ => ⟨S4096x2048, .f32⟩
  | .hbm, ⟨19, _⟩ => ⟨S1x2048, .f32⟩
  | .hbm, ⟨20, _⟩ => ⟨S4096x2048, .bf16⟩
  | .hbm, ⟨21, _⟩ => ⟨S4096x10944, .bf16⟩
  | .hbm, ⟨22, _⟩ => ⟨S4096x2048, .f32⟩
  | .hbm, ⟨23, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S2048x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .bf16⟩
  | .local _ .vmem, ⟨21, _⟩ => ⟨S256x2048, .bf16⟩
  | .local _ .vmem, ⟨22, _⟩ => ⟨S128x256, .bf16⟩
  | .local _ .vmem, ⟨23, _⟩ => ⟨S128x256, .bf16⟩
  | .local _ .vmem, ⟨24, _⟩ => ⟨S10944x256, .bf16⟩
  | .local _ .vmem, ⟨25, _⟩ => ⟨S10944x256, .bf16⟩
  | .local _ .vmem, ⟨26, _⟩ => ⟨S10944x256, .bf16⟩
  | .local _ .vmem, ⟨27, _⟩ => ⟨S10944x256, .bf16⟩
  | .local _ .vmem, ⟨28, _⟩ => ⟨S128x10944, .bf16⟩
  | .local _ .vmem, ⟨29, _⟩ => ⟨S128x10944, .bf16⟩
  | .local _ .vmem, ⟨30, _⟩ => ⟨S128x10944, .f32⟩
  | .local _ .vmem, ⟨31, _⟩ => ⟨S128x10944, .f32⟩
  | .local _ .vmem, ⟨32, _⟩ => ⟨S256x10944, .bf16⟩
  | .local _ .vmem, ⟨33, _⟩ => ⟨S256x10944, .bf16⟩
  | .local _ .vmem, ⟨34, _⟩ => ⟨S256x10944, .bf16⟩
  | .local _ .vmem, ⟨35, _⟩ => ⟨S256x10944, .bf16⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![32, 8], ![false, false]⟩

def k4_cond2 (i : grid4.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S128x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S10944x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S10944x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S128x10944 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![16, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x10944 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x10944 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S256x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

class Facts₀ : Prop where
  shapeCasts_S2x2048x2048_S4096x2048 : S2x2048x2048.ShapeCasts S4096x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x10944_S128x10944_0_0 : ∀ a, (![0, 0] : Fin 2 → Nat) a + S128x10944.size a ≤ S128x10944.size a
  h_S128x10944 : 0 < S128x10944.numel
  shapeCasts_S128x10944_S128x10944 : S128x10944.ShapeCasts S128x10944
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10944x256_S10944x256_0_0 : ∀ a, (![0, 0] : Fin 2 → Nat) a + S10944x256.size a ≤ S10944x256.size a
  h_S10944x256 : 0 < S10944x256.numel
  shapeCasts_S10944x256_S10944x256 : S10944x256.ShapeCasts S10944x256
  packedbf16_S128x10944_S128x10944_0_0 : (Rect.unit (s := S128x10944) ![0, 0] S128x10944.size inb_S128x10944_S128x10944_0_0).PackedRows (EltTy.packing .bf16)
  inb_S256x10944_S256x10944_0_0 : ∀ a, (![0, 0] : Fin 2 → Nat) a + S256x10944.size a ≤ S256x10944.size a
  h_S256x10944 : 0 < S256x10944.numel
  shapeCasts_S256x10944_S256x10944 : S256x10944.ShapeCasts S256x10944
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x2048_S2x2048x2048 : S4096x2048.ShapeCasts S2x2048x2048
  dot_S256x2048_S2048x2048_S256x2048_1_1_0_0_n_n_wf : DotDims.WF S256x2048 S2048x2048 S256x2048 [1] [1] [0] [0] [] []
  dot_S128x256_S10944x256_S128x10944_1_1_0_0_n_n_wf : DotDims.WF S128x256 S10944x256 S128x10944 [1] [1] [0] [0] [] []
  dot_S256x10944_S256x10944_S256x256_1_1_0_0_n_n_wf : DotDims.WF S256x10944 S256x10944 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .bf16 = 32 ∨ (Rect.block (s := S4096x2048) S256x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .bf16 = 32 ∨ (Rect.block (s := S4096x2048) S256x2048.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S4096x2048.size a
  hwx2_2 : ∀ i : grid2.Coords, EltTy.bits .f32 = 32 ∨ (Rect.block (s := S4096x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S4096x2048.size a
  hwx2_3 : ∀ i : grid2.Coords, EltTy.bits .f32 = 32 ∨ (Rect.block (s := S4096x2048) S256x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S4096x2048.size a
  hwx3_0 : ∀ i : grid3.Coords, EltTy.bits .f32 = 32 ∨ (Rect.block (s := S4096x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S4096x2048.size a
  hwx3_2 : ∀ i : grid3.Coords, EltTy.bits .bf16 = 32 ∨ (Rect.block (s := S4096x2048) S256x2048.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x256.size a ≤ S4096x2048.size a
  hwx4_0 : ∀ i : grid4.Coords, EltTy.bits .bf16 = 32 ∨ (Rect.block (s := S4096x2048) S128x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10944x256.size a ≤ S10944x2048.size a
  hwx4_1 : ∀ i : grid4.Coords, EltTy.bits .bf16 = 32 ∨ (Rect.block (s := S10944x2048) S10944x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10944x256.size a ≤ S10944x2048.size a
  hwx4_2 : ∀ i : grid4.Coords, EltTy.bits .bf16 = 32 ∨ (Rect.block (s := S10944x2048) S10944x256.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S128x10944.size a ≤ S4096x10944.size a
  hwx4_3 : ∀ i : grid4.Coords, EltTy.bits .bf16 = 32 ∨ (Rect.block (s := S4096x10944) S128x10944.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x10944.size a ≤ S4096x10944.size a
  hwx5_0 : ∀ i : grid5.Coords, EltTy.bits .bf16 = 32 ∨ (Rect.block (s := S4096x10944) S256x10944.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x10944.size a ≤ S2048x10944.size a
  hwx5_1 : ∀ i : grid5.Coords, EltTy.bits .bf16 = 32 ∨ (Rect.block (s := S2048x10944) S256x10944.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S4096x2048.size a
  hwx5_2 : ∀ i : grid5.Coords, EltTy.bits .f32 = 32 ∨ (Rect.block (s := S4096x2048) S256x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S4096x2048.size a
  hwx5_3 : ∀ i : grid5.Coords, EltTy.bits .f32 = 32 ∨ (Rect.block (s := S4096x2048) S256x256.size (cc5_transform_3 i) (hinb5_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S128x256_S10944x256_S128x10944_1_1_0_0_n_n : DotDims S128x256 S10944x256 S128x10944 where
  lhsContracting := [1]
  rhsContracting := [1]
  lhsNonContracting := [0]
  rhsNonContracting := [0]
  lhsBatch := []
  rhsBatch := []
  wf := dot_S128x256_S10944x256_S128x10944_1_1_0_0_n_n_wf
def dot_S256x10944_S256x10944_S256x256_1_1_0_0_n_n : DotDims S256x10944 S256x10944 S256x256 where
  lhsContracting := [1]
  rhsContracting := [1]
  lhsNonContracting := [0]
  rhsNonContracting := [0]
  lhsBatch := []
  rhsBatch := []
  wf := dot_S256x10944_S256x10944_S256x256_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x2048.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S256x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v11) S128x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10944x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S10944x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S128x10944.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v12) S256x10944.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S256x10944.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S256x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v13) S256x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S10944x2048 : Shape := ⟨2, ![10944, 2048]⟩
abbrev S2048x10944 : Shape := ⟨2, ![2048, 10944]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x10944 : Shape := ⟨2, ![4096, 10944]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S10944x2048, .f32⟩
  | .hbm, ⟨7, _⟩ => ⟨S10944x2048, .f32⟩
  | .hbm, ⟨8, _⟩ => ⟨S2048x10944, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x10944, .f32⟩
  | .hbm, ⟨46, _⟩ => ⟨S4096x10944, .f32⟩
  | .hbm, ⟨47, _⟩ => ⟨S4096x10944, .f32⟩
  | .hbm, ⟨48, _⟩ => ⟨S_, .f32⟩
  | .hbm, ⟨49, _⟩ => ⟨S4096x10944, .f32⟩
  | .hbm, ⟨50, _⟩ => ⟨S4096x10944, .f32⟩
  | .hbm, ⟨51, _⟩ => ⟨S_, .f32⟩
  | .hbm, ⟨52, _⟩ => ⟨S4096x10944, .f32⟩
  | .hbm, ⟨53, _⟩ => ⟨S4096x10944, .f32⟩
  | .hbm, ⟨54, _⟩ => ⟨S4096x10944, .f32⟩
  | .hbm, ⟨55, _⟩ => ⟨S4096x10944, .f32⟩
  | .hbm, ⟨56, _⟩ => ⟨S4096x10944, .f32⟩
  | .hbm, ⟨57, _⟩ => ⟨S4096x2048, .f32⟩
  | .hbm, ⟨58, _⟩ => ⟨S4096x2048, .f32⟩
  | .hbm, ⟨59, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  shapeCasts_S2x2048x2048_S4096x2048 : S2x2048x2048.ShapeCasts S4096x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x10944 : S_.BroadcastsInDim S4096x10944 (![] : Fin 0 → Fin S4096x10944.rank)
  shapeCasts_S4096x2048_S2x2048x2048 : S4096x2048.ShapeCasts S2x2048x2048
  dot_S4096x2048_S2048x2048_S4096x2048_1_1_0_0_n_n_wf : DotDims.WF S4096x2048 S2048x2048 S4096x2048 [1] [1] [0] [0] [] []
  dot_S4096x2048_S10944x2048_S4096x10944_1_1_0_0_n_n_wf : DotDims.WF S4096x2048 S10944x2048 S4096x10944 [1] [1] [0] [0] [] []
  dot_S4096x10944_S2048x10944_S4096x2048_1_1_0_0_n_n_wf : DotDims.WF S4096x10944 S2048x10944 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf
def dot_S4096x2048_S10944x2048_S4096x10944_1_1_0_0_n_n : DotDims S4096x2048 S10944x2048 S4096x10944 where
  lhsContracting := [1]
  rhsContracting := [1]
  lhsNonContracting := [0]
  rhsNonContracting := [0]
  lhsBatch := []
  rhsBatch := []
  wf := dot_S4096x2048_S10944x2048_S4096x10944_1_1_0_0_n_n_wf
def dot_S4096x10944_S2048x10944_S4096x2048_1_1_0_0_n_n : DotDims S4096x10944 S2048x10944 S4096x2048 where
  lhsContracting := [1]
  rhsContracting := [1]
  lhsNonContracting := [0]
  rhsNonContracting := [0]
  lhsBatch := []
  rhsBatch := []
  wf := dot_S4096x10944_S2048x10944_S4096x2048_1_1_0_0_n_n_wf

class Facts : Prop extends Facts₀ where

variable [Facts]
-- ==== Proof.K.Region0.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-normalisation launch 0: sixteen points, one block of 256 rows each

Window 0 carries the block of 256 rows of the point, window 1 the single weight row (the same at every
point), window 2 the block of 256 normalised rows the point writes. -/

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point: it is fetched at each of them, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row's window holds its block at every point although it is fetched at the first only: its block
    index never moves, and the body leaves the buffer as found, so the first point's block is every point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of its three buffers is read and written whole -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0

/-! ## What the body leaves in the output window's buffer -/

/-- The output buffer after the body, from the two input blocks: its one store, of the normalised rows, laid
    over the whole buffer. -/
def out0_2 (x0 : Vec F S256x2048 .f32) (x1 : Vec F S1x2048 .f32) : Vec F S256x2048 .bf16 :=
  View.canon [⟨r0_0, k0_pay1 (View.ld x0 r0_0) (View.ld x1 r0_1)⟩]

/-- The one store's rectangle is the whole buffer, so it covers it. -/
theorem cover0_2 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

/-! ## The body's triple -/

set_option maxHeartbeats 1000000 in
/-- The body on whole staging buffers, the inputs' reading `x0`, `x1` and the output's holding anything, ends with the
    inputs' as they were and the output's at `out0_2 x0 x1`. -/
theorem sound_kernel0 (c : Dev nD) (E : Set ℕ) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__rmsnorm_kernel i arg1 harg1 arg2 harg2 arg3 harg3) K := by
  simp only [cc0__rmsnorm_kernel_eq_skeleton]; unfold cc0__rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the launch on core `c`: the arrays as the launch finds them; after the body at point `t`
    each input's buffer at its block and the output's at `out0_2` of the two input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.K.Region1.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first projection: a block of 256 rows times the whole weight

At grid point `t` the region multiplies the block of rows `256·t … 256·t + 255` of the normalised
rows (2048 columns) by the whole 2048 × 2048 weight, contracting the last axis of both, and stores
the 256 × 2048 product as the block of the same rows of the result. The weight's block index never
moves, so its staging buffer keeps the whole weight from the first point on. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds that block at every point: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole weight at every point, although it is fetched at the
    first point only: where it is not fetched its block index has not moved, and the body leaves it
    in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S256x2048 := Rect.unit (s := S256x2048) ![0, 0] S256x2048.size inb_S256x2048_S256x2048_0_0
abbrev r1_1 : Rect S2048x2048 := Rect.unit (s := S2048x2048) ![0, 0] S2048x2048.size inb_S2048x2048_S2048x2048_0_0

/-! ## What the body leaves in the output buffer -/

/-- The output buffer after the body: its one store, of the product of the row block and the weight,
    over the whole buffer. -/
def out1_2 (x0 : Vec F S256x2048 .bf16) (x1 : Vec F S2048x2048 .bf16) : Vec F S256x2048 .bf16 :=
  View.canon [⟨r1_0, k1_pay1 (View.ld x0 r1_0) (View.ld x1 r1_1)⟩]

/-- The one store covers the buffer. -/
theorem cover1_2 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The body on whole staging buffers, the inputs' holding `x0`, `x1` and the output's anything, ends
    with the inputs' as they were and the output's at `out1_2 x0 x1`. -/
theorem sound_kernel1 (c : Dev nD) (E : Set ℕ) (i : grid1.Coords)
    (arg2 : Memref sig .tc .vmem S256x2048 .bf16) (harg2 : arg2.IsWhole)
    (arg3 : Memref sig .tc .vmem S2048x2048 .bf16) (harg3 : arg3.IsWhole)
    (arg4 : Memref sig .tc .vmem S256x2048 .bf16) (harg4 : arg4.IsWhole)
    (x0 : Vec F S256x2048 .bf16) (x1 : Vec F S2048x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data: the arrays as the region finds them; after the body at point `t` each input's
    buffer holds its block and the output's holds `out1_2` of the two input blocks; nothing owed,
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.K.Region2.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second projection with the residual: a block of 256 rows times the whole weight, plus the rows

At grid point `t` the region multiplies the block of rows `256·t … 256·t + 255` of the first
projection (2048 columns) by the whole 2048 × 2048 weight, contracting the last axis of both, adds
the block of the same rows of the residual stream, and stores the 256 × 2048 sum as the block of
the same rows of the result. The weight's block index never moves, so its staging buffer keeps the
whole weight from the first point on. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds that block at every point: the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds the whole weight at every point, although it is fetched at the
    first point only: where it is not fetched its block index has not moved, and the body leaves it
    in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The residual block's staging buffer holds that block at every point: the body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S256x2048 := Rect.unit (s := S256x2048) ![0, 0] S256x2048.size inb_S256x2048_S256x2048_0_0
abbrev r2_1 : Rect S2048x2048 := Rect.unit (s := S2048x2048) ![0, 0] S2048x2048.size inb_S2048x2048_S2048x2048_0_0

/-! ## What the body leaves in the output buffer -/

/-- The output buffer after the body: its one store, of the product of the row block and the weight
    plus the residual block, over the whole buffer. -/
def out2_3 (x0 : Vec F S256x2048 .bf16) (x1 : Vec F S2048x2048 .bf16) (x2 : Vec F S256x2048 .f32) : Vec F S256x2048 .f32 :=
  View.canon [⟨r2_0, k2_pay1 (View.ld x0 r2_0) (View.ld x1 r2_1) (View.ld x2 r2_0)⟩]

/-- The one store covers the buffer. -/
theorem cover2_3 (p0 : Vec F S256x2048 .f32) (y : S256x2048.Idx) :
    ∃ pc ∈ ([⟨r2_0, p0⟩] : List (View.Piece (Elt F) S256x2048 .f32)), y ∈ pc.1.set :=
  View.cover_of_tiled [⟨r2_0, p0⟩] S256x2048.size (by rfl) y

/-! ## The body's triple -/

set_option maxHeartbeats 1000000 in
/-- The body on whole staging buffers, the inputs' holding `x0`, `x1`, `x2` and the output's anything,
    ends with the inputs' as they were and the output's at `out2_3 x0 x1 x2`. -/
theorem sound_kernel2 (c : Dev nD) (E : Set ℕ) (i : grid2.Coords)
    (arg2 : Memref sig .tc .vmem S256x2048 .bf16) (harg2 : arg2.IsWhole)
    (arg3 : Memref sig .tc .vmem S2048x2048 .bf16) (harg3 : arg3.IsWhole)
    (arg4 : Memref sig .tc .vmem S256x2048 .f32) (harg4 : arg4.IsWhole)
    (arg5 : Memref sig .tc .vmem S256x2048 .f32) (harg5 : arg5.IsWhole)
    (x0 : Vec F S256x2048 .bf16) (x1 : Vec F S2048x2048 .bf16) (x2 : Vec F S256x2048 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out2_3 x0 x1 x2)) -∗ K ⟨⟩))
      ⊢ wp frame (wpE (defs₀ (F := F)) Variants.none c none) E (cc2__matmul_resid_kernel i arg2 harg2 arg3 harg3 arg4 harg4 arg5 harg5) K := by
  simp only [cc2__matmul_resid_kernel_eq_skeleton]; unfold cc2__matmul_resid_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data: the arrays as the region finds them; after the body at point `t` each input's
    buffer holds its block and the output's holds `out2_3` of the three input blocks; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the
    invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rgn

end
-- ==== Proof.K.Region3.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-normalisation launch 3: sixteen points, one block of 256 rows each

Window 0 carries the block of 256 rows of the point, window 1 the single weight row (the same at every
point), window 2 the block of 256 normalised rows the point writes. -/

/-! ## The windows' blocks -/

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows' window holds its block at every point: it is fetched at each of them, and the body leaves it as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight row's window holds its block at every point although it is fetched at the first only: its block
    index never moves, and the body leaves the buffer as found, so the first point's block is every point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each of its three buffers is read and written whole -/

abbrev r3_0 : Rect S256x2048 := Rect.unit (s := S256x2048) ![0, 0] S256x2048.size inb_S256x2048_S256x2048_0_0
abbrev r3_1 : Rect S1x2048 := Rect.unit (s := S1x2048) ![0, 0] S1x2048.size inb_S1x2048_S1x2048_0_0

/-! ## What the body leaves in the output window's buffer -/

/-- The output buffer after the body, from the two input blocks: its one store, of the normalised rows, laid
    over the whole buffer. -/
def out3_2 (x0 : Vec F S256x2048 .f32) (x1 : Vec F S1x2048 .f32) : Vec F S256x2048 .bf16 :=
  View.canon [⟨r3_0, k3_pay1 (View.ld x0 r3_0) (View.ld x1 r3_1)⟩]

/-- The one store's rectangle is the whole buffer, so it covers it. -/
theorem cover3_2 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

/-! ## The body's triple -/

set_option maxHeartbeats 1000000 in
/-- The body on whole staging buffers, the inputs' reading `x0`, `x1` and the output's holding anything, ends with the
    inputs' as they were and the output's at `out3_2 x0 x1`. -/
theorem sound_kernel3 (c : Dev nD) (E : Set ℕ) (i : grid3.Coords) (arg1 : Memref sig .tc .vmem S256x2048 .f32) (harg1 : arg1.IsWhole)
    (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__rmsnorm_kernel i arg1 harg1 arg2 harg2 arg3 harg3) K := by
  simp only [cc3__rmsnorm_kernel_eq_skeleton]; unfold cc3__rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the launch on core `c`: the arrays as the launch finds them; after the body at point `t`
    each input's buffer at its block and the output's at `out3_2` of the two input blocks; the invariant is the
    untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rgn

end
-- ==== Proof.K.Region4.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated pair of products: one block of rows, the contracted axis in eight blocks

Point `t` of the grid is the pair `(i, k)` with `t = 8 * i + k`: row block `i` of the normalised rows (128 rows)
against column block `k` (256 columns) of the two weight matrices. Two accumulators of shape `128 × 10944` live
across the eight points of a row block: at `k = 0` they are reset to zero, at every `k` each gains the product
of the row block's `k`-th column block with the transposed `k`-th column block of its weight matrix, and at
`k = 7` the gated product `g · σ(g) · u` of the two accumulators is stored as the row block of the result. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The three input blocks at their literal shapes: rows `128 i … 128 i + 127`, columns `256 k … 256 k + 255` of the
    normalised rows; all `10944` rows, the same columns, of each weight matrix. -/
abbrev xblk4 (c : Dev nD) (t : Fin cfg4.N) : Vec F S128x256 .bf16 := iblk4 V c 0 t
abbrev gblk4 (c : Dev nD) (t : Fin cfg4.N) : Vec F S10944x256 .bf16 := iblk4 V c 1 t
abbrev ublk4 (c : Dev nD) (t : Fin cfg4.N) : Vec F S10944x256 .bf16 := iblk4 V c 2 t

/-- An input window's current buffer holds its block at every point, fetched there or not: an unfetched point has the
    block index of the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two accumulators, point by point -/

/-- What the first accumulator holds after the points `0 … n - 1`: the product of the point's row block and weight
    block added to zero where the point opens a row block (`k = 0`), to the previous contents elsewhere. Before any
    point, and past the grid, nothing is claimed: the value there is a placeholder. -/
def accG (c : Dev nD) : ℕ → Vec F S128x10944 .f32
  | 0 => k4_pay1 (F := F)
  | n + 1 =>
    if h : n < cfg4.N then
      if n % 8 = 0 then k4_pay3 (k4_pay1 (F := F)) (xblk4 V c ⟨n, h⟩) (gblk4 V c ⟨n, h⟩)
      else k4_pay3 (accG c n) (xblk4 V c ⟨n, h⟩) (gblk4 V c ⟨n, h⟩)
    else accG c n

/-- The second accumulator likewise, against the other weight matrix. -/
def accU (c : Dev nD) : ℕ → Vec F S128x10944 .f32
  | 0 => k4_pay2 (F := F)
  | n + 1 =>
    if h : n < cfg4.N then
      if n % 8 = 0 then k4_pay4 (k4_pay2 (F := F)) (xblk4 V c ⟨n, h⟩) (ublk4 V c ⟨n, h⟩)
      else k4_pay4 (accU c n) (xblk4 V c ⟨n, h⟩) (ublk4 V c ⟨n, h⟩)
    else accU c n

/-- After a point that opens a row block the first accumulator is that point's product added to zero. -/
theorem accG_zero_case (c : Dev nD) (t : Fin cfg4.N) (h : t.val % 8 = 0) :
    accG V c (t.val + 1) = k4_pay3 (k4_pay1 (F := F)) (xblk4 V c t) (gblk4 V c t) := by
  obtain ⟨n, hn⟩ := t
  exact (dif_pos hn).trans (if_pos h)

/-- After any other point it is that point's product added to what the point before left. -/
theorem accG_succ_case (c : Dev nD) (t : Fin cfg4.N) (h : t.val % 8 ≠ 0) :
    accG V c (t.val + 1) = k4_pay3 (accG V c t.val) (xblk4 V c t) (gblk4 V c t) := by
  obtain ⟨n, hn⟩ := t
  exact (dif_pos hn).trans (if_neg h)

theorem accU_zero_case (c : Dev nD) (t : Fin cfg4.N) (h : t.val % 8 = 0) :
    accU V c (t.val + 1) = k4_pay4 (k4_pay2 (F := F)) (xblk4 V c t) (ublk4 V c t) := by
  obtain ⟨n, hn⟩ := t
  exact (dif_pos hn).trans (if_pos h)

theorem accU_succ_case (c : Dev nD) (t : Fin cfg4.N) (h : t.val % 8 ≠ 0) :
    accU V c (t.val + 1) = k4_pay4 (accU V c t.val) (xblk4 V c t) (ublk4 V c t) := by
  obtain ⟨n, hn⟩ := t
  exact (dif_pos hn).trans (if_neg h)

/-! ## What the last point of a row block stores -/

/-- The whole-buffer rectangle through which the body loads and stores a `128 × 10944` buffer. -/
abbrev r4_acc : Rect S128x10944 := Rect.unit (s := S128x10944) ![0, 0] S128x10944.size inb_S128x10944_S128x10944_0_0
abbrev r4_x : Rect S128x256 := Rect.unit (s := S128x256) ![0, 0] S128x256.size inb_S128x256_S128x256_0_0
abbrev r4_w : Rect S10944x256 := Rect.unit (s := S10944x256) ![0, 0] S10944x256.size inb_S10944x256_S10944x256_0_0

/-- The zero offsets, however spelt, are zero. -/
theorem hz4 : (![0, 0] : Fin 2 → Nat) = fun _ => 0 := by
  funext a; match a with | ⟨0, _⟩ => rfl | ⟨1, _⟩ => rfl

/-- The result window's buffer after the last point of a row block, from the two accumulators `g`, `u`: the one
    store of the gated product `g · σ(g) · u`, narrowed to the result's format. -/
def out4_3 (g u : Vec F S128x10944 .f32) : Vec F S128x10944 .bf16 :=
  View.canon [⟨r4_acc, k4_pay5 g u⟩]

/-! ## The two scratch buffers and the invariant between points -/

/-- The two accumulators' buffers: whole scoped buffers of the call's own, passed beside the windows. -/
abbrev scM4_0 : Memref sig .tc .vmem S128x10944 .f32 := Memref.whole cc4_scratch0
abbrev scM4_1 : Memref sig .tc .vmem S128x10944 .f32 := Memref.whole cc4_scratch1

/-- Between points: the two accumulators' buffers at contents which, inside a row block (`n` not a multiple of `8`),
    are `accG` and `accU` after the points below `n` — at the opening of a row block they are about to be reset, and
    nothing is said of them —; every other scoped buffer but this call's staging buffers at anything; the generator
    register at some state. -/
def Phi4 (c : Dev nD) (n : ℕ) : sProp 𝕄 :=
  iprop((∃ f g, ⌜n % 8 ≠ 0 → f = accG V c n ∧ g = accU V c n⌝
        ∗ owns (c : Thread nD τ) scM4_0 fullShare f ∗ owns (c : Thread nD τ) scM4_1 fullShare g)
      ∗ Pipeline.scopedRestBut (Ix := Unit) (Name := ℕ) (U := UR sig nD τ) (Lvl := ℕ) (Val := Elt F) spec4 c [cc4_scratch0, cc4_scratch1]
      ∗ ∃ r, prngReg c r)

/-! ## The proof data -/

/-- The call's proof data on core `c`: the arrays as the region finds them; after the body at point `t` each input's
    buffer at its block, the result's at the gated product of the accumulators after `t` (consulted only at the last
    point of a row block: elsewhere the window is idle); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accG V c (t.val + 1)) (accU V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (accG V c (t.val + 1)) (accU V c (t.val + 1)) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant at a point's start and end, at the point's number. -/
theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := by
  dsimp only [dat4]; simp only [Fin.val_succ]

/-! ## The body's two conditions, in closed form -/

/-- The point opens a row block (`k = 0`): the body's first conditional, as it computes it from the coordinates. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- The point closes a row block (`k = 7`): the body's second conditional. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- The result window is idle exactly at the points that do not close a row block, and is not written back there. -/
theorem idleAt4_3 : ∀ t : Fin cfg4.N, t.val % 8 ≠ 7 → cfg4.idle 3 (grid4.coords t) = true :=
  (by decide +kernel : ∀ t : Fin grid4.N, t.val % 8 ≠ 7 → idle4 3 (grid4.coords t) = true)
theorem liveAt4_3 : ∀ t : Fin cfg4.N, t.val % 8 = 7 → cfg4.idle 3 (grid4.coords t) = false :=
  (by decide +kernel : ∀ t : Fin grid4.N, t.val % 8 = 7 → idle4 3 (grid4.coords t) = false)
theorem noFlush4_3 (t : Fin cfg4.N) (h : t.val % 8 ≠ 7) : (cfg4.win 3).flush t = false :=
  Bool.eq_false_iff.mpr fun hf => h ((flush4_3 t).mp hf)

/-! ## The body's triple, case by case -/

/-- What any view of a buffer reads after a list of stores the last of which fills the whole buffer: that store's
    payload. -/
theorem read_writes_unit_zero {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- A load of the whole buffer after such a list of stores reads the last store's payload. -/
theorem readCov_unit_zero_cons {S : Shape} {e : EltTy} {κ : Kind} {sp : Space} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

set_option maxHeartbeats 1000000 in
/-- A point that opens a row block without closing it: both accumulators, whatever they held, are reset and gain the
    point's products; the inputs are left as they were; the result's buffer is not touched. -/
theorem sound_kernel4_A (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : cond4_0 i) (hc1 : ¬cond4_1 i)
    (x0 : Vec F S128x256 .bf16) (x1 x2 : Vec F S10944x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (k4_pay3 (k4_pay1 (F := F)) x0 x1)
            ∗ owns (c : Thread nD τ) arg7 fullShare (k4_pay4 (k4_pay2 (F := F)) x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%dg, %fg, -, HG⟩, ⟨%du, %fu, -, HU⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HG]
  · iexists _; isplitr
    swap; · iexact HG
    ipureintro
    (try sl_unfold_run_names)
    rw [read_writes_unit_zero (S := S128x10944) _ _ hz4]
    simp only [readCov_unit_zero_cons (S := S128x10944) _ hz4, View.readAt_eq_ld, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [readCov_unit_zero_cons (S := S128x10944) _ hz4, View.readAt_eq_ld, View.ld_unit_zero (S := S128x256) hz4, View.ld_unit_zero (S := S10944x256) hz4]

set_option maxHeartbeats 1000000 in
/-- A point inside a row block: each accumulator gains the point's product. -/
theorem sound_kernel4_B (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : ¬cond4_0 i) (hc1 : ¬cond4_1 i)
    (x0 : Vec F S128x256 .bf16) (x1 x2 : Vec F S10944x256 .bf16) (g u : Vec F S128x10944 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare g ∗ owns (c : Thread nD τ) arg7 fullShare u
        ∗ (iprop(owns (c : Thread nD τ) arg2 fullShare x0 ∗ owns (c : Thread nD τ) arg3 fullShare x1 ∗ owns (c : Thread nD τ) arg4 fullShare x2
            ∗ owns (c : Thread nD τ) arg6 fullShare (k4_pay3 g x0 x1) ∗ owns (c : Thread nD τ) arg7 fullShare (k4_pay4 u x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%fg, %hfg, HG⟩, ⟨%fu, %hfu, HU⟩, Hk⟩
  subst hf0; subst hf1; subst hf2; subst hfg; subst hfu
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HG]
  · iexists _; isplitr
    swap; · iexact HG
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]

set_option maxHeartbeats 1000000 in
/-- A point that closes a row block: each accumulator gains the point's product, and the gated product of the two is
    stored over whatever the result's buffer held. -/
theorem sound_kernel4_C (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : ¬cond4_0 i) (hc1 : cond4_1 i)
    (x0 : Vec F S128x256 .bf16) (x1 x2 : Vec F S10944x256 .bf16) (g u : Vec F S128x10944 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare g ∗ owns (c : Thread nD τ) arg7 fullShare u
        ∗ (iprop(owns (c : Thread nD τ) arg2 fullShare x0 ∗ owns (c : Thread nD τ) arg3 fullShare x1 ∗ owns (c : Thread nD τ) arg4 fullShare x2
            ∗ owns (c : Thread nD τ) arg5 fullShare (out4_3 (k4_pay3 g x0 x1) (k4_pay4 u x0 x2))
            ∗ owns (c : Thread nD τ) arg6 fullShare (k4_pay3 g x0 x1) ∗ owns (c : Thread nD τ) arg7 fullShare (k4_pay4 u x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%d5, %f5, -, H5⟩, ⟨%fg, %hfg, HG⟩, ⟨%fu, %hfu, HU⟩, Hk⟩
  subst hf0; subst hf1; subst hf2; subst hfg; subst hfu
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_run_names)
    unfold out4_3
    rw [read_writes_unit_zero (S := S128x10944) _ _ hz4, View.canon_unit_zero hz4]
    simp only [readCov_unit_zero_cons (S := S128x10944) _ hz4, View.readAt_eq_ld, View.ld_unit_zero (S := S128x10944) hz4, View.ld_unit_zero (S := S128x256) hz4, View.ld_unit_zero (S := S10944x256) hz4]
  isplitl [HG]
  · iexists _; isplitr
    swap; · iexact HG
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]

/-! ## The body obligation, at a generic point -/

/-- The input windows are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks; the point's place in its row block (`t mod 8`) says
    which case runs. Opening a row block, the accumulators are handed over at anything; elsewhere at what the point
    before left, which the invariant names. They come back at this point's contents. The result's buffer is handed over
    only at the close of a row block and comes back at the gated product; elsewhere it is left as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl, Phi4_castSucc, Phi4_succ]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  rw [show (dat4 V c).leavesExact 2 t = owns (c : Thread nD τ) (st4_2 t) fullShare ((dat4 V c).after 2 t) from by
      unfold Dat.leavesExact; rw [liveAt4_2 t], after4_2]
  unfold Phi4
  by_cases h0 : t.val % 8 = 0
  · have h7 : t.val % 8 ≠ 7 := by omega
    rw [Dat.leavesExact_idle (dat4 V c) 3 t (idleAt4_3 t h7) (noFlush4_3 t h7)]
    iintro ⟨⟨⟨%f, %g, -, HS0, HS1⟩, HR, Hg⟩, Ho, ⟨%d0, H0⟩, ⟨%d1, H1⟩, ⟨%d2, H2⟩, H3⟩
    iapply (sound_kernel4_A c Set.univ (grid4.coords t) _ _ _ _ _ _ _ _ _ _ _ _ ((hcond4_0 t).mpr h0) (fun h => h7 ((hcond4_1 t).mp h))
      (xblk4 V c t) (gblk4 V c t) (ublk4 V c t) _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 HR Hg]
    · isplitl [HS0 HS1]
      · iexists (k4_pay3 (k4_pay1 (F := F)) (xblk4 V c t) (gblk4 V c t)); iexists (k4_pay4 (k4_pay2 (F := F)) (xblk4 V c t) (ublk4 V c t))
        isplitr
        · ipureintro; intro _; exact ⟨(accG_zero_case V c t h0).symm, (accU_zero_case V c t h0).symm⟩
        isplitl [HS0]; · iexact HS0
        iexact HS1
      isplitl [HR]; · iexact HR
      iexact Hg
    isplitl [Ho]; · iexact Ho
    isplitl [H0]; · iexact H0
    isplitl [H1]; · iexact H1
    isplitl [H2]; · iexact H2
    iexact H3
  · by_cases h7 : t.val % 8 = 7
    · rw [show (dat4 V c).leavesExact 3 t = owns (c : Thread nD τ) (st4_3 t) fullShare ((dat4 V c).after 3 t) from by
          unfold Dat.leavesExact; rw [liveAt4_3 t h7], after4_3]
      rw [accG_succ_case V c t h0, accU_succ_case V c t h0]
      iintro ⟨⟨⟨%f, %g, %hfg, HS0, HS1⟩, HR, Hg⟩, Ho, ⟨%d0, H0⟩, ⟨%d1, H1⟩, ⟨%d2, H2⟩, ⟨%d3, H3⟩⟩
      obtain ⟨rfl, rfl⟩ := hfg h0
      iapply (sound_kernel4_C c Set.univ (grid4.coords t) _ _ _ _ _ _ _ _ _ _ _ _ (fun h => h0 ((hcond4_0 t).mp h)) ((hcond4_1 t).mpr h7)
        (xblk4 V c t) (gblk4 V c t) (ublk4 V c t) (accG V c t.val) (accU V c t.val) _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HR Hg]
      · isplitl [HS0 HS1]
        · iexists (k4_pay3 (accG V c t.val) (xblk4 V c t) (gblk4 V c t)); iexists (k4_pay4 (accU V c t.val) (xblk4 V c t) (ublk4 V c t))
          isplitr
          · ipureintro; intro _; exact ⟨rfl, rfl⟩
          isplitl [HS0]; · iexact HS0
          iexact HS1
        isplitl [HR]; · iexact HR
        iexact Hg
      isplitl [Ho]; · iexact Ho
      isplitl [H0]; · iexact H0
      isplitl [H1]; · iexact H1
      isplitl [H2]; · iexact H2
      iexact H3
    · rw [Dat.leavesExact_idle (dat4 V c) 3 t (idleAt4_3 t h7) (noFlush4_3 t h7)]
      rw [accG_succ_case V c t h0, accU_succ_case V c t h0]
      iintro ⟨⟨⟨%f, %g, %hfg, HS0, HS1⟩, HR, Hg⟩, Ho, ⟨%d0, H0⟩, ⟨%d1, H1⟩, ⟨%d2, H2⟩, H3⟩
      obtain ⟨rfl, rfl⟩ := hfg h0
      iapply (sound_kernel4_B c Set.univ (grid4.coords t) _ _ _ _ _ _ _ _ _ _ _ _ (fun h => h0 ((hcond4_0 t).mp h)) (fun h => h7 ((hcond4_1 t).mp h))
        (xblk4 V c t) (gblk4 V c t) (ublk4 V c t) (accG V c t.val) (accU V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists (k4_pay3 (accG V c t.val) (xblk4 V c t) (gblk4 V c t)); iexists (k4_pay4 (accU V c t.val) (xblk4 V c t) (ublk4 V c t))
          isplitr
          · ipureintro; intro _; exact ⟨rfl, rfl⟩
          isplitl [HS0]; · iexact HS0
          iexact HS1
        isplitl [HR]; · iexact HR
        iexact Hg
      isplitl [Ho]; · iexact Ho
      isplitl [H0]; · iexact H0
      isplitl [H1]; · iexact H1
      isplitl [H2]; · iexact H2
      iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region is entered with — the generator register and every scoped buffer but the staging buffers at
    anything — is the invariant before the first point: the first point opens a row block, so nothing is asked of the
    accumulators. -/
theorem hin4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [show (dat4 V c).Φ 0 = Phi4 V c 0 from rfl]
  unfold Phi4
  rw [scopedRest4_split]
  simp only [scM4_0, scM4_1, owns_whole]
  iintro ⟨Hg, ⟨⟨%f, HS0⟩, ⟨%g, HS1⟩⟩, HR⟩
  isplitl [HS0 HS1]
  · iexists f; iexists g
    isplitr
    · ipureintro; intro h; exact absurd rfl h
    isplitl [HS0]; · iexact HS0
    iexact HS1
  isplitl [HR]; · iexact HR
  iexact Hg

/-- After the last point the invariant gives the same back: what the accumulators hold is forgotten. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl]
  unfold Phi4
  rw [scopedRest4_split]
  simp only [scM4_0, scM4_1, owns_whole]
  iintro ⟨⟨%f, %g, -, HS0, HS1⟩, HR, Hg⟩
  isplitl [Hg]; · iexact Hg
  isplitl [HS0 HS1]
  · isplitl [HS0]
    · iexists f; iexact HS0
    iexists g; iexact HS1
  iexact HR

end Cert.Kernel.Rgn

end
-- ==== Proof.K.Region5.lean ====
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The last projection with its residual: the product of a row block of the gated activations with a row
block of the down weights, contracted over the whole inner axis, plus the matching block of the hidden rows.

The grid is 16 × 8; at the point (i, j) the body reads the 256 × 10944 block i of the activations, the
256 × 10944 block j of the weights and the 256 × 256 block (i, j) of the hidden rows, and stores the
256 × 256 block (i, j) of the result. -/

/-! ## The windows' blocks -/

/-- Window `w`'s block at the point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' block: its index is the first grid coordinate alone, so it is fetched only where that
    coordinate moves; at the other points the buffer still holds the same block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weights' block: its index is the second grid coordinate. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The residual's block: its index is the grid point itself. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_a : Rect S256x10944 := Rect.unit (s := S256x10944) ![0, 0] S256x10944.size inb_S256x10944_S256x10944_0_0
abbrev r5_o : Rect S256x256 := Rect.unit (s := S256x256) ![0, 0] S256x256.size inb_S256x256_S256x256_0_0

/-! ## What the body leaves in the output window's buffer -/

/-- The output buffer after the body: its one store, of the product plus the residual, over the whole buffer. -/
def out5_3 (x0 : Vec F S256x10944 .bf16) (x1 : Vec F S256x10944 .bf16) (x2 : Vec F S256x256 .f32) : Vec F S256x256 .f32 :=
  View.canon [⟨r5_o, k5_pay1 (View.ld x0 r5_a) (View.ld x1 r5_a) (View.ld x2 r5_o)⟩]

/-- The one store's rectangle is the whole buffer, so it covers it. -/
theorem cover5_3 (p0 : Vec F S256x256 .f32) (y : S256x256.Idx) :
    ∃ pc ∈ ([⟨r5_o, p0⟩] : List (View.Piece (Elt F) S256x256 .f32)), y ∈ pc.1.set :=
  View.cover_of_tiled [⟨r5_o, p0⟩] S256x256.size (by rfl) y

/-! ## The body's triple -/

set_option maxHeartbeats 1000000 in
/-- The body on whole buffers, the three inputs' at the contents read and the output's at anything, leaves the inputs'
    as they were and the output's at `out5_3` of them. -/
theorem sound_kernel5 (c : Dev nD) (E : Set ℕ) (i : grid5.Coords)
    (arg2 : Memref sig .tc .vmem S256x10944 .bf16) (harg2 : arg2.IsWhole) (arg3 : Memref sig .tc .vmem S256x10944 .bf16) (harg3 : arg3.IsWhole)
    (arg4 : Memref sig .tc .vmem S256x256 .f32) (harg4 : arg4.IsWhole) (arg5 : Memref sig .tc .vmem S256x256 .f32) (harg5 : arg5.IsWhole)
    (x0 : Vec F S256x10944 .bf16) (x1 : Vec F S256x10944 .bf16) (x2 : Vec F S256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out5_3 x0 x1 x2)) -∗ K ⟨⟩))
      ⊢ wp frame (wpE (defs₀ (F := F)) Variants.none c none) E (cc5__matmul_resid_kernel i arg2 harg2 arg3 harg3 arg4 harg4 arg5 harg5) K := by
  simp only [cc5__matmul_resid_kernel_eq_skeleton]; unfold cc5__matmul_resid_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data: the arrays as the region finds them; after the body each input's buffer at its block and the
    output's at `out5_3` of the three input blocks; the invariant is the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at the point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Rgn

end
-- ==== Proof.K.Run.lean ====
import proofs.«163206_j1571958030520_1_alg».proof.Proof.K.Region0
import proofs.«163206_j1571958030520_1_alg».proof.Proof.K.Region1
import proofs.«163206_j1571958030520_1_alg».proof.Proof.K.Region2
import proofs.«163206_j1571958030520_1_alg».proof.Proof.K.Region3
import proofs.«163206_j1571958030520_1_alg».proof.Proof.K.Region4
import proofs.«163206_j1571958030520_1_alg».proof.Proof.K.Region5
import proofs.«163206_j1571958030520_1_alg».proof.Proof.Gen.Kernel.Regions
import proofs.«163206_j1571958030520_1_alg».proof.Proof.Gen.Kernel.Launch
import proofs.«163206_j1571958030520_1_alg».proof.Proof.Gen.Kernel.Skeleton
import proofs.«163206_j1571958030520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The program's run, region by region.

@main is a stretch of host operations (the rows reshaped to a matrix, the five weights converted, the first weight
vector as a row), three kernel regions (the normalisation of the rows, the first projection, the second projection
plus the rows), a second stretch (the second weight vector as a row), three more regions (the second normalisation,
the gated pair of projections, the last projection plus the hidden rows) and a last stretch (the result reshaped to
three axes). The contents of a core's buffers at each of the ten boundaries are folded from the launch memory: a stretch
applies its operations, a region replaces its windows' arrays by what its write-backs leave. Each region is entered with
every unscoped buffer at the boundary's contents and returns them at the next boundary's; nothing is owed between cores
and no semaphore outlives a region. The run ends with every buffer at the last boundary's contents, so the result buffer
holds the fold's last value and an argument, which no stretch writes and no window names, holds what it held at launch.
-/

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- A core's buffers at launch. -/
abbrev W0 : Dev nD → Valuation τ sig (Elt F) := fun c b => m (c, b)
/-- After the first stretch of host operations (the reshape of the rows, the five weight conversions, the weight row). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- The contents when region 0 returns: its arrays at what its write-backs leave, every other buffer as it was entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- The contents when region 1 returns: its arrays at what its write-backs leave, every other buffer as it was entered. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same, read at the core's own references. -/
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The contents when region 2 returns: its arrays at what its write-backs leave, every other buffer as it was entered. -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same, read at the core's own references. -/
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

/-- After the second stretch (the second weight row). -/
abbrev W5 : Dev nD → Valuation τ sig (Elt F) := fun c => StableHlo.after hostOps3 (W4 m c)
abbrev U5 : (c : Dev nD) → (b : Ref sig .tc) → Buf (Elt F) ((c : Thread nD τ).loc b) := fun c b => W5 m c b

/-- The contents when region 3 returns: its arrays at what its write-backs leave, every other buffer as it was entered. -/
def W6 (c : Dev nD) : Valuation τ sig (Elt F) :=
  Pipeline.withArrays spec3 c (W5 m c) fun w => (dat3 (U5 m) c).arrAt w cfg3.N
theorem W6_arr (c : Dev nD) (w : Fin cfg3.W) :
    W6 m c (Proc.devRef .tc (Pipeline.arrRef spec3 w)) = (dat3 (U5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same, read at the core's own references. -/
abbrev U6 : (c : Dev nD) → (b : Ref sig .tc) → Buf (Elt F) ((c : Thread nD τ).loc b) := fun c b => W6 m c b
theorem hF3 (c : Dev nD) (w : Fin cfg3.W) : (dat3 (U5 m) c).arrAt w cfg3.N = U6 m c (Pipeline.arrRef spec3 w) :=
  (W6_arr m c w).symm
theorem hrest3 (c : Dev nD) : ∀ b, b ∉ Finset.univ.image (Pipeline.arrRef spec3) → U6 m c b = U5 m c b :=
  fun b hb => W6_of_ne m c b fun w e => hb (Finset.mem_image.mpr ⟨w, Finset.mem_univ _, e⟩)

/-- The contents when region 4 returns: its arrays at what its write-backs leave, every other buffer as it was entered. -/
def W7 (c : Dev nD) : Valuation τ sig (Elt F) :=
  Pipeline.withArrays spec4 c (W6 m c) fun w => (dat4 (U6 m) c).arrAt w cfg4.N
theorem W7_arr (c : Dev nD) (w : Fin cfg4.W) :
    W7 m c (Proc.devRef .tc (Pipeline.arrRef spec4 w)) = (dat4 (U6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- The same, read at the core's own references. -/
abbrev U7 : (c : Dev nD) → (b : Ref sig .tc) → Buf (Elt F) ((c : Thread nD τ).loc b) := fun c b => W7 m c b
theorem hF4 (c : Dev nD) (w : Fin cfg4.W) : (dat4 (U6 m) c).arrAt w cfg4.N = U7 m c (Pipeline.arrRef spec4 w) :=
  (W7_arr m c w).symm
theorem hrest4 (c : Dev nD) : ∀ b, b ∉ Finset.univ.image (Pipeline.arrRef spec4) → U7 m c b = U6 m c b :=
  fun b hb => W7_of_ne m c b fun w e => hb (Finset.mem_image.mpr ⟨w, Finset.mem_univ _, e⟩)

/-- The contents when region 5 returns: its arrays at what its write-backs leave, every other buffer as it was entered. -/
def W8 (c : Dev nD) : Valuation τ sig (Elt F) :=
  Pipeline.withArrays spec5 c (W7 m c) fun w => (dat5 (U7 m) c).arrAt w cfg5.N
theorem W8_arr (c : Dev nD) (w : Fin cfg5.W) :
    W8 m c (Proc.devRef .tc (Pipeline.arrRef spec5 w)) = (dat5 (U7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
/-- The same, read at the core's own references. -/
abbrev U8 : (c : Dev nD) → (b : Ref sig .tc) → Buf (Elt F) ((c : Thread nD τ).loc b) := fun c b => W8 m c b
theorem hF5 (c : Dev nD) (w : Fin cfg5.W) : (dat5 (U7 m) c).arrAt w cfg5.N = U8 m c (Pipeline.arrRef spec5 w) :=
  (W8_arr m c w).symm
theorem hrest5 (c : Dev nD) : ∀ b, b ∉ Finset.univ.image (Pipeline.arrRef spec5) → U8 m c b = U7 m c b :=
  fun b hb => W8_of_ne m c b fun w e => hb (Finset.mem_image.mpr ⟨w, Finset.mem_univ _, e⟩)

/-- After the last stretch (the result reshaped to three axes). -/
abbrev W9 : Dev nD → Valuation τ sig (Elt F) := fun c => StableHlo.after hostOps6 (W8 m c)

/-! ## A buffer that no stretch writes and no region's window names ends as launched -/

theorem W9_untouched (c : Dev nD) (b : Ref sig .tc) (h0 : b ∉ hostOps0_W) (h3 : b ∉ hostOps3_W) (h6 : b ∉ hostOps6_W)
    (n0 : ∀ w, Pipeline.arrRef spec0 w ≠ b) (n1 : ∀ w, Pipeline.arrRef spec1 w ≠ b) (n2 : ∀ w, Pipeline.arrRef spec2 w ≠ b)
    (n3 : ∀ w, Pipeline.arrRef spec3 w ≠ b) (n4 : ∀ w, Pipeline.arrRef spec4 w ≠ b) (n5 : ∀ w, Pipeline.arrRef spec5 w ≠ b) :
    W9 m c (Proc.devRef .tc b) = m ((c : Thread nD τ).loc b) :=
  calc W9 m c (Proc.devRef .tc b)
    _ = W8 m c (Proc.devRef .tc b) := StableHlo.after_of_writes_sub hostOps6 _ hostOps6_writes h6
    _ = W7 m c (Proc.devRef .tc b) := W8_of_ne m c b n5
    _ = W6 m c (Proc.devRef .tc b) := W7_of_ne m c b n4
    _ = W5 m c (Proc.devRef .tc b) := W6_of_ne m c b n3
    _ = W4 m c (Proc.devRef .tc b) := StableHlo.after_of_writes_sub hostOps3 _ hostOps3_writes h3
    _ = W3 m c (Proc.devRef .tc b) := W4_of_ne m c b n2
    _ = W2 m c (Proc.devRef .tc b) := W3_of_ne m c b n1
    _ = W1 m c (Proc.devRef .tc b) := W2_of_ne m c b n0
    _ = W0 m c (Proc.devRef .tc b) := StableHlo.after_of_writes_sub hostOps0 _ hostOps0_writes h0
    _ = m ((c : Thread nD τ).loc b) := rfl

/-! ## What each item leaves alone -/
theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W5_keep (c : Dev nD) (b : Ref sig .tc) (hb : b ∉ hostOps3_W) : W5 m c (Proc.devRef .tc b) = W4 m c (Proc.devRef .tc b) :=
  StableHlo.after_of_writes_sub hostOps3 _ hostOps3_writes hb
theorem W9_keep (c : Dev nD) (b : Ref sig .tc) (hb : b ∉ hostOps6_W) : W9 m c (Proc.devRef .tc b) = W8 m c (Proc.devRef .tc b) :=
  StableHlo.after_of_writes_sub hostOps6 _ hostOps6_writes hb

/-- Region 0 changes no buffer but its output's. -/
theorem W2_keep (c : Dev nD) (b : Ref sig .tc) (hb : b ≠ main_v7) : W2 m c (Proc.devRef .tc b) = W1 m c (Proc.devRef .tc b) := by
  by_cases h : ∃ w, Pipeline.arrRef spec0 w = b
  · obtain ⟨w, rfl⟩ := h
    have hin : (cfg0.win w).isOut = false := by
      rcases w with ⟨_ | _ | _ | n, hw⟩
      · rfl
      · rfl
      · exact absurd rfl hb
      · exact absurd hw (Nat.not_lt.2 (Nat.le_add_left _ _))
    exact (W2_arr m c w).trans (((dat0 (U1 m) c).arrAt_in w hin _).trans (A_eq0 (U1 m) c w))
  · exact W2_of_ne m c b fun w e => h ⟨w, e⟩

/-- Region 1 changes no buffer but its output's. -/
theorem W3_keep (c : Dev nD) (b : Ref sig .tc) (hb : b ≠ main_v8) : W3 m c (Proc.devRef .tc b) = W2 m c (Proc.devRef .tc b) := by
  by_cases h : ∃ w, Pipeline.arrRef spec1 w = b
  · obtain ⟨w, rfl⟩ := h
    have hin : (cfg1.win w).isOut = false := by
      rcases w with ⟨_ | _ | _ | n, hw⟩
      · rfl
      · rfl
      · exact absurd rfl hb
      · exact absurd hw (Nat.not_lt.2 (Nat.le_add_left _ _))
    exact (W3_arr m c w).trans (((dat1 (U2 m) c).arrAt_in w hin _).trans (A_eq1 (U2 m) c w))
  · exact W3_of_ne m c b fun w e => h ⟨w, e⟩

/-- Region 2 changes no buffer but its output's. -/
theorem W4_keep (c : Dev nD) (b : Ref sig .tc) (hb : b ≠ main_v9) : W4 m c (Proc.devRef .tc b) = W3 m c (Proc.devRef .tc b) := by
  by_cases h : ∃ w, Pipeline.arrRef spec2 w = b
  · obtain ⟨w, rfl⟩ := h
    have hin : (cfg2.win w).isOut = false := by
      rcases w with ⟨_ | _ | _ | _ | n, hw⟩
      · rfl
      · rfl
      · rfl
      · exact absurd rfl hb
      · exact absurd hw (Nat.not_lt.2 (Nat.le_add_left _ _))
    exact (W4_arr m c w).trans (((dat2 (U3 m) c).arrAt_in w hin _).trans (A_eq2 (U3 m) c w))
  · exact W4_of_ne m c b fun w e => h ⟨w, e⟩

/-- Region 3 changes no buffer but its output's. -/
theorem W6_keep (c : Dev nD) (b : Ref sig .tc) (hb : b ≠ main_v11) : W6 m c (Proc.devRef .tc b) = W5 m c (Proc.devRef .tc b) := by
  by_cases h : ∃ w, Pipeline.arrRef spec3 w = b
  · obtain ⟨w, rfl⟩ := h
    have hin : (cfg3.win w).isOut = false := by
      rcases w with ⟨_ | _ | _ | n, hw⟩
      · rfl
      · rfl
      · exact absurd rfl hb
      · exact absurd hw (Nat.not_lt.2 (Nat.le_add_left _ _))
    exact (W6_arr m c w).trans (((dat3 (U5 m) c).arrAt_in w hin _).trans (A_eq3 (U5 m) c w))
  · exact W6_of_ne m c b fun w e => h ⟨w, e⟩

/-- Region 4 changes no buffer but its output's. -/
theorem W7_keep (c : Dev nD) (b : Ref sig .tc) (hb : b ≠ main_v12) : W7 m c (Proc.devRef .tc b) = W6 m c (Proc.devRef .tc b) := by
  by_cases h : ∃ w, Pipeline.arrRef spec4 w = b
  · obtain ⟨w, rfl⟩ := h
    have hin : (cfg4.win w).isOut = false := by
      rcases w with ⟨_ | _ | _ | _ | n, hw⟩
      · rfl
      · rfl
      · rfl
      · exact absurd rfl hb
      · exact absurd hw (Nat.not_lt.2 (Nat.le_add_left _ _))
    exact (W7_arr m c w).trans (((dat4 (U6 m) c).arrAt_in w hin _).trans (A_eq4 (U6 m) c w))
  · exact W7_of_ne m c b fun w e => h ⟨w, e⟩

/-- Region 5 changes no buffer but its output's. -/
theorem W8_keep (c : Dev nD) (b : Ref sig .tc) (hb : b ≠ main_v13) : W8 m c (Proc.devRef .tc b) = W7 m c (Proc.devRef .tc b) := by
  by_cases h : ∃ w, Pipeline.arrRef spec5 w = b
  · obtain ⟨w, rfl⟩ := h
    have hin : (cfg5.win w).isOut = false := by
      rcases w with ⟨_ | _ | _ | _ | n, hw⟩
      · rfl
      · rfl
      · rfl
      · exact absurd rfl hb
      · exact absurd hw (Nat.not_lt.2 (Nat.le_add_left _ _))
    exact (W8_arr m c w).trans (((dat5 (U7 m) c).arrAt_in w hin _).trans (A_eq5 (U7 m) c w))
  · exact W8_of_ne m c b fun w e => h ⟨w, e⟩

/-! ## The proof data of the six pipelines, and what rides beside the buffers -/

/-- No pipeline has a prefetched table. -/
abbrev padm : (p : Fin 6) → (pcfgs (F := F) p).Adm := fun p => (cfgs p).toPCfg_adm
/-- Every pipeline's proof data, each at the contents its region is entered with. -/
def pdats : (p : Fin 6) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
  | ⟨2, _⟩ => fun c => dat2 (U3 m) c
  | ⟨3, _⟩ => fun c => dat3 (U5 m) c
  | ⟨4, _⟩ => fun c => dat4 (U6 m) c
  | ⟨5, _⟩ => fun c => dat5 (U7 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `W1`, left with them at `W2`. Its windows'
    arrays are taken out of the unscoped buffers on the way in and put back, at what the write-backs left, on the way
    out; the generator register rides through the region's invariant; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are taken out of the unscoped buffers on the way in and put back, at what the write-backs left, on the way
    out; the generator register rides through the region's invariant; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its windows'
    arrays are taken out of the unscoped buffers on the way in and put back, at what the write-backs left, on the way
    out; the generator register rides through the region's invariant; nothing is owed. -/
def reg2 : Pipeline.RegionSeg (pcfgs (F := F)) padm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W5`, left with them at `W6`. Its windows'
    arrays are taken out of the unscoped buffers on the way in and put back, at what the write-backs left, on the way
    out; the generator register rides through the region's invariant; nothing is owed. -/
def reg3 : Pipeline.RegionSeg (pcfgs (F := F)) padm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (U5 m c)
  hentry c := by
    rw [Pipeline.ownSems0_none]
    have hsplit := Pipeline.arrays_of_unscopedBufs (p := 3) (pcfgs (F := F)) padm (pdats m) launch3.win launch3.arr_whole c
      ((pdats m 3 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m) ((pdats m 3 c).share_full fun _ => rfl)
      (U5 m c) (U6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W6`, left with them at `W7`. Its windows'
    arrays are taken out of the unscoped buffers on the way in and put back, at what the write-backs left, on the way
    out; the generator register rides through the region's invariant; nothing is owed. -/
def reg4 : Pipeline.RegionSeg (pcfgs (F := F)) padm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (U6 m c)
  hentry c := by
    rw [Pipeline.ownSems0_none]
    have hsplit := Pipeline.arrays_of_unscopedBufs (p := 4) (pcfgs (F := F)) padm (pdats m) launch4.win launch4.arr_whole c
      ((pdats m 4 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (U6 m) c).Φ 0 from rfl]
    iintro ⟨Hp, -, Hr⟩
    iapply (hin4 (U6 m) c)
    isplitl [Hp]; · iexact Hp
    iexact Hr
  hout c := by
    rw [Pipeline.ownSems0_none, show (pdats m 4 c).Φ (Fin.last _) = (dat4 (U6 m) c).Φ (Fin.last cfg4.N) from rfl]
    iintro H
    ihave H' := (hout4 (U6 m) c) $$ H
    icases H' with ⟨Hp, Hr⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m) ((pdats m 4 c).share_full fun _ => rfl)
      (U6 m c) (U7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W7`, left with them at `W8`. Its windows'
    arrays are taken out of the unscoped buffers on the way in and put back, at what the write-backs left, on the way
    out; the generator register rides through the region's invariant; nothing is owed. -/
def reg5 : Pipeline.RegionSeg (pcfgs (F := F)) padm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U7 m) c).loose
  hwaits := Pipeline.hwaits_of_owed_zero _ _ _ _ L lv 5 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec5 c (U7 m c)
  hentry c := by
    rw [Pipeline.ownSems0_none]
    have hsplit := Pipeline.arrays_of_unscopedBufs (p := 5) (pcfgs (F := F)) padm (pdats m) launch5.win launch5.arr_whole c
      ((pdats m 5 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m) ((pdats m 5 c).share_full fun _ => rfl)
      (U7 m c) (U8 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (W0 m)),
    .region (reg0 m), .region (reg1 m), .region (reg2 m),
    .host (hseg hostOps3 hostOps3_sub hostOps3_fresh (W4 m)),
    .region (reg3 m), .region (reg4 m), .region (reg5 m),
    .host (hseg hostOps6 hostOps6_sub hostOps6_fresh (W8 m)) ]
theorem main_run (c : Dev nD) : main (F := F) c = Pipeline.Seg.run (segs m) := (main_chain c).trans (by chain_rfl)

set_option backward.isDefEq.respectTransparency.types false in
/-- The run: from any memory with zero counters every weakly fair execution of @main terminates without a fault, and in
    every final state each unscoped buffer of a core holds what the fold computes for it; in particular the result buffer holds
    `W9 … main_v14` and every argument what it held at launch. -/
theorem run_main : θ_run defs (onTc (τ := τ) (main (F := F))) ⟨m, fun _ => 0, ρ⟩ (fun r => ∀ c : Dev nD,
      r.2.mem ((c.tc : Thread nD τ).loc main_v14) = W9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v14 (by decide)),
       (h c _ (mem_uc main_arg0 (by decide))).trans (W9_untouched m c main_arg0 (by decide) (by decide) (by decide) (by decide) (by decide) (by decide) (by decide) (by decide) (by decide)),
       (h c _ (mem_uc main_arg1 (by decide))).trans (W9_untouched m c main_arg1 (by decide) (by decide) (by decide) (by decide) (by decide) (by decide) (by decide) (by decide) (by decide)),
       (h c _ (mem_uc main_arg2 (by decide))).trans (W9_untouched m c main_arg2 (by decide) (by decide) (by decide) (by decide) (by decide) (by decide) (by decide) (by decide) (by decide)),
       (h c _ (mem_uc main_arg3 (by decide))).trans (W9_untouched m c main_arg3 (by decide) (by decide) (by decide) (by decide) (by decide) (by decide) (by decide) (by decide) (by decide)),
       (h c _ (mem_uc main_arg4 (by decide))).trans (W9_untouched m c main_arg4 (by decide) (by decide) (by decide) (by decide) (by decide) (by decide) (by decide) (by decide) (by decide)),
       (h c _ (mem_uc main_arg5 (by decide))).trans (W9_untouched m c main_arg5 (by decide) (by decide) (by decide) (by decide) (by decide) (by decide) (by decide) (by decide) (by decide)),
       (h c _ (mem_uc main_arg6 (by decide))).trans (W9_untouched m c main_arg6 (by decide) (by decide) (by decide) (by decide) (by decide) (by decide) (by decide) (by decide) (by decide)),
       (h c _ (mem_uc main_arg7 (by decide))).trans (W9_untouched m c main_arg7 (by decide) (by decide) (by decide) (by decide) (by decide) (by decide) (by decide) (by decide) (by decide)),
       (h c _ (mem_uc main_arg8 (by decide))).trans (W9_untouched m c main_arg8 (by decide) (by decide) (by decide) (by decide) (by decide) (by decide) (by decide) (by decide) (by decide))⟩)

end Cert.Kernel.Rgn

end
-- ==== Proof.KI.Region0.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-normalisation launch 0: sixteen points, one block of 256 rows each

Window 0 carries the block of 256 rows of the point, window 1 the single weight row (the same at every
point), window 2 the block of 256 normalised rows the point writes. -/

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point: it is fetched at each of them, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row's window holds its block at every point although it is fetched at the first only: its block
    index never moves, and the body leaves the buffer as found, so the first point's block is every point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of its three buffers is read and written whole -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0

/-! ## What the body leaves in the output window's buffer -/

/-- The output buffer after the body, from the two input blocks: its one store, of the normalised rows, laid
    over the whole buffer. -/
def out0_2 (x0 : Vec F S256x2048 .f32) (x1 : Vec F S1x2048 .f32) : Vec F S256x2048 .bf16 :=
  View.canon [⟨r0_0, k0_pay1 (View.ld x0 r0_0) (View.ld x1 r0_1)⟩]

/-- The one store's rectangle is the whole buffer, so it covers it. -/
theorem cover0_2 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

/-! ## The body's triple -/

set_option maxHeartbeats 1000000 in
/-- The body on whole staging buffers, the inputs' reading `x0`, `x1` and the output's holding anything, ends with the
    inputs' as they were and the output's at `out0_2 x0 x1`. -/
theorem sound_kernel0 (c : Dev nD) (E : Set ℕ) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__rmsnorm_kernel i arg1 harg1 arg2 harg2 arg3 harg3) K := by
  simp only [cc0__rmsnorm_kernel_eq_skeleton]; unfold cc0__rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the launch on core `c`: the arrays as the launch finds them; after the body at point `t`
    each input's buffer at its block and the output's at `out0_2` of the two input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KI.Region1.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first projection: a block of 256 rows times the whole weight

At grid point `t` the region multiplies the block of rows `256·t … 256·t + 255` of the normalised
rows (2048 columns) by the whole 2048 × 2048 weight, contracting the last axis of both, and stores
the 256 × 2048 product as the block of the same rows of the result. The weight's block index never
moves, so its staging buffer keeps the whole weight from the first point on. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds that block at every point: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole weight at every point, although it is fetched at the
    first point only: where it is not fetched its block index has not moved, and the body leaves it
    in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S256x2048 := Rect.unit (s := S256x2048) ![0, 0] S256x2048.size inb_S256x2048_S256x2048_0_0
abbrev r1_1 : Rect S2048x2048 := Rect.unit (s := S2048x2048) ![0, 0] S2048x2048.size inb_S2048x2048_S2048x2048_0_0

/-! ## What the body leaves in the output buffer -/

/-- The output buffer after the body: its one store, of the product of the row block and the weight,
    over the whole buffer. -/
def out1_2 (x0 : Vec F S256x2048 .bf16) (x1 : Vec F S2048x2048 .bf16) : Vec F S256x2048 .bf16 :=
  View.canon [⟨r1_0, k1_pay1 (View.ld x0 r1_0) (View.ld x1 r1_1)⟩]

/-- The one store covers the buffer. -/
theorem cover1_2 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The body on whole staging buffers, the inputs' holding `x0`, `x1` and the output's anything, ends
    with the inputs' as they were and the output's at `out1_2 x0 x1`. -/
theorem sound_kernel1 (c : Dev nD) (E : Set ℕ) (i : grid1.Coords)
    (arg2 : Memref sig .tc .vmem S256x2048 .bf16) (harg2 : arg2.IsWhole)
    (arg3 : Memref sig .tc .vmem S2048x2048 .bf16) (harg3 : arg3.IsWhole)
    (arg4 : Memref sig .tc .vmem S256x2048 .bf16) (harg4 : arg4.IsWhole)
    (x0 : Vec F S256x2048 .bf16) (x1 : Vec F S2048x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data: the arrays as the region finds them; after the body at point `t` each input's
    buffer holds its block and the output's holds `out1_2` of the two input blocks; nothing owed,
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KI.Region2.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second projection with the residual: a block of 256 rows times the whole weight, plus the rows

At grid point `t` the region multiplies the block of rows `256·t … 256·t + 255` of the first
projection (2048 columns) by the whole 2048 × 2048 weight, contracting the last axis of both, adds
the block of the same rows of the residual stream, and stores the 256 × 2048 sum as the block of
the same rows of the result. The weight's block index never moves, so its staging buffer keeps the
whole weight from the first point on. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds that block at every point: the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds the whole weight at every point, although it is fetched at the
    first point only: where it is not fetched its block index has not moved, and the body leaves it
    in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The residual block's staging buffer holds that block at every point: the body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S256x2048 := Rect.unit (s := S256x2048) ![0, 0] S256x2048.size inb_S256x2048_S256x2048_0_0
abbrev r2_1 : Rect S2048x2048 := Rect.unit (s := S2048x2048) ![0, 0] S2048x2048.size inb_S2048x2048_S2048x2048_0_0

/-! ## What the body leaves in the output buffer -/

/-- The output buffer after the body: its one store, of the product of the row block and the weight
    plus the residual block, over the whole buffer. -/
def out2_3 (x0 : Vec F S256x2048 .bf16) (x1 : Vec F S2048x2048 .bf16) (x2 : Vec F S256x2048 .f32) : Vec F S256x2048 .f32 :=
  View.canon [⟨r2_0, k2_pay1 (View.ld x0 r2_0) (View.ld x1 r2_1) (View.ld x2 r2_0)⟩]

/-- The one store covers the buffer. -/
theorem cover2_3 (p0 : Vec F S256x2048 .f32) (y : S256x2048.Idx) :
    ∃ pc ∈ ([⟨r2_0, p0⟩] : List (View.Piece (Elt F) S256x2048 .f32)), y ∈ pc.1.set :=
  View.cover_of_tiled [⟨r2_0, p0⟩] S256x2048.size (by rfl) y

/-! ## The body's triple -/

set_option maxHeartbeats 1000000 in
/-- The body on whole staging buffers, the inputs' holding `x0`, `x1`, `x2` and the output's anything,
    ends with the inputs' as they were and the output's at `out2_3 x0 x1 x2`. -/
theorem sound_kernel2 (c : Dev nD) (E : Set ℕ) (i : grid2.Coords)
    (arg2 : Memref sig .tc .vmem S256x2048 .bf16) (harg2 : arg2.IsWhole)
    (arg3 : Memref sig .tc .vmem S2048x2048 .bf16) (harg3 : arg3.IsWhole)
    (arg4 : Memref sig .tc .vmem S256x2048 .f32) (harg4 : arg4.IsWhole)
    (arg5 : Memref sig .tc .vmem S256x2048 .f32) (harg5 : arg5.IsWhole)
    (x0 : Vec F S256x2048 .bf16) (x1 : Vec F S2048x2048 .bf16) (x2 : Vec F S256x2048 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out2_3 x0 x1 x2)) -∗ K ⟨⟩))
      ⊢ wp frame (wpE (defs₀ (F := F)) Variants.none c none) E (cc2__matmul_resid_kernel i arg2 harg2 arg3 harg3 arg4 harg4 arg5 harg5) K := by
  simp only [cc2__matmul_resid_kernel_eq_skeleton]; unfold cc2__matmul_resid_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data: the arrays as the region finds them; after the body at point `t` each input's
    buffer holds its block and the output's holds `out2_3` of the three input blocks; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the
    invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rgn

end
-- ==== Proof.KI.Region3.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-normalisation launch 3: sixteen points, one block of 256 rows each

Window 0 carries the block of 256 rows of the point, window 1 the single weight row (the same at every
point), window 2 the block of 256 normalised rows the point writes. -/

/-! ## The windows' blocks -/

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows' window holds its block at every point: it is fetched at each of them, and the body leaves it as found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight row's window holds its block at every point although it is fetched at the first only: its block
    index never moves, and the body leaves the buffer as found, so the first point's block is every point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each of its three buffers is read and written whole -/

abbrev r3_0 : Rect S256x2048 := Rect.unit (s := S256x2048) ![0, 0] S256x2048.size inb_S256x2048_S256x2048_0_0
abbrev r3_1 : Rect S1x2048 := Rect.unit (s := S1x2048) ![0, 0] S1x2048.size inb_S1x2048_S1x2048_0_0

/-! ## What the body leaves in the output window's buffer -/

/-- The output buffer after the body, from the two input blocks: its one store, of the normalised rows, laid
    over the whole buffer. -/
def out3_2 (x0 : Vec F S256x2048 .f32) (x1 : Vec F S1x2048 .f32) : Vec F S256x2048 .bf16 :=
  View.canon [⟨r3_0, k3_pay1 (View.ld x0 r3_0) (View.ld x1 r3_1)⟩]

/-- The one store's rectangle is the whole buffer, so it covers it. -/
theorem cover3_2 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

/-! ## The body's triple -/

set_option maxHeartbeats 1000000 in
/-- The body on whole staging buffers, the inputs' reading `x0`, `x1` and the output's holding anything, ends with the
    inputs' as they were and the output's at `out3_2 x0 x1`. -/
theorem sound_kernel3 (c : Dev nD) (E : Set ℕ) (i : grid3.Coords) (arg1 : Memref sig .tc .vmem S256x2048 .f32) (harg1 : arg1.IsWhole)
    (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__rmsnorm_kernel i arg1 harg1 arg2 harg2 arg3 harg3) K := by
  simp only [cc3__rmsnorm_kernel_eq_skeleton]; unfold cc3__rmsnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the launch on core `c`: the arrays as the launch finds them; after the body at point `t`
    each input's buffer at its block and the output's at `out3_2` of the two input blocks; the invariant is the
    untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rgn

end
-- ==== Proof.KI.Region4.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated pair of products: one block of rows, the contracted axis in eight blocks

Point `t` of the grid is the pair `(i, k)` with `t = 8 * i + k`: row block `i` of the normalised rows (128 rows)
against column block `k` (256 columns) of the two weight matrices. Two accumulators of shape `128 × 10944` live
across the eight points of a row block: at `k = 0` they are reset to zero, at every `k` each gains the product
of the row block's `k`-th column block with the transposed `k`-th column block of its weight matrix, and at
`k = 7` the gated product `g · σ(g) · u` of the two accumulators is stored as the row block of the result. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The three input blocks at their literal shapes: rows `128 i … 128 i + 127`, columns `256 k … 256 k + 255` of the
    normalised rows; all `10944` rows, the same columns, of each weight matrix. -/
abbrev xblk4 (c : Dev nD) (t : Fin cfg4.N) : Vec F S128x256 .bf16 := iblk4 V c 0 t
abbrev gblk4 (c : Dev nD) (t : Fin cfg4.N) : Vec F S10944x256 .bf16 := iblk4 V c 1 t
abbrev ublk4 (c : Dev nD) (t : Fin cfg4.N) : Vec F S10944x256 .bf16 := iblk4 V c 2 t

/-- An input window's current buffer holds its block at every point, fetched there or not: an unfetched point has the
    block index of the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two accumulators, point by point -/

/-- What the first accumulator holds after the points `0 … n - 1`: the product of the point's row block and weight
    block added to zero where the point opens a row block (`k = 0`), to the previous contents elsewhere. Before any
    point, and past the grid, nothing is claimed: the value there is a placeholder. -/
def accG (c : Dev nD) : ℕ → Vec F S128x10944 .f32
  | 0 => k4_pay1 (F := F)
  | n + 1 =>
    if h : n < cfg4.N then
      if n % 8 = 0 then k4_pay3 (k4_pay1 (F := F)) (xblk4 V c ⟨n, h⟩) (gblk4 V c ⟨n, h⟩)
      else k4_pay3 (accG c n) (xblk4 V c ⟨n, h⟩) (gblk4 V c ⟨n, h⟩)
    else accG c n

/-- The second accumulator likewise, against the other weight matrix. -/
def accU (c : Dev nD) : ℕ → Vec F S128x10944 .f32
  | 0 => k4_pay2 (F := F)
  | n + 1 =>
    if h : n < cfg4.N then
      if n % 8 = 0 then k4_pay4 (k4_pay2 (F := F)) (xblk4 V c ⟨n, h⟩) (ublk4 V c ⟨n, h⟩)
      else k4_pay4 (accU c n) (xblk4 V c ⟨n, h⟩) (ublk4 V c ⟨n, h⟩)
    else accU c n

/-- After a point that opens a row block the first accumulator is that point's product added to zero. -/
theorem accG_zero_case (c : Dev nD) (t : Fin cfg4.N) (h : t.val % 8 = 0) :
    accG V c (t.val + 1) = k4_pay3 (k4_pay1 (F := F)) (xblk4 V c t) (gblk4 V c t) := by
  obtain ⟨n, hn⟩ := t
  exact (dif_pos hn).trans (if_pos h)

/-- After any other point it is that point's product added to what the point before left. -/
theorem accG_succ_case (c : Dev nD) (t : Fin cfg4.N) (h : t.val % 8 ≠ 0) :
    accG V c (t.val + 1) = k4_pay3 (accG V c t.val) (xblk4 V c t) (gblk4 V c t) := by
  obtain ⟨n, hn⟩ := t
  exact (dif_pos hn).trans (if_neg h)

theorem accU_zero_case (c : Dev nD) (t : Fin cfg4.N) (h : t.val % 8 = 0) :
    accU V c (t.val + 1) = k4_pay4 (k4_pay2 (F := F)) (xblk4 V c t) (ublk4 V c t) := by
  obtain ⟨n, hn⟩ := t
  exact (dif_pos hn).trans (if_pos h)

theorem accU_succ_case (c : Dev nD) (t : Fin cfg4.N) (h : t.val % 8 ≠ 0) :
    accU V c (t.val + 1) = k4_pay4 (accU V c t.val) (xblk4 V c t) (ublk4 V c t) := by
  obtain ⟨n, hn⟩ := t
  exact (dif_pos hn).trans (if_neg h)

/-! ## What the last point of a row block stores -/

/-- The whole-buffer rectangle through which the body loads and stores a `128 × 10944` buffer. -/
abbrev r4_acc : Rect S128x10944 := Rect.unit (s := S128x10944) ![0, 0] S128x10944.size inb_S128x10944_S128x10944_0_0
abbrev r4_x : Rect S128x256 := Rect.unit (s := S128x256) ![0, 0] S128x256.size inb_S128x256_S128x256_0_0
abbrev r4_w : Rect S10944x256 := Rect.unit (s := S10944x256) ![0, 0] S10944x256.size inb_S10944x256_S10944x256_0_0

/-- The zero offsets, however spelt, are zero. -/
theorem hz4 : (![0, 0] : Fin 2 → Nat) = fun _ => 0 := by
  funext a; match a with | ⟨0, _⟩ => rfl | ⟨1, _⟩ => rfl

/-- The result window's buffer after the last point of a row block, from the two accumulators `g`, `u`: the one
    store of the gated product `g · σ(g) · u`, narrowed to the result's format. -/
def out4_3 (g u : Vec F S128x10944 .f32) : Vec F S128x10944 .bf16 :=
  View.canon [⟨r4_acc, k4_pay5 g u⟩]

/-! ## The two scratch buffers and the invariant between points -/

/-- The two accumulators' buffers: whole scoped buffers of the call's own, passed beside the windows. -/
abbrev scM4_0 : Memref sig .tc .vmem S128x10944 .f32 := Memref.whole cc4_scratch0
abbrev scM4_1 : Memref sig .tc .vmem S128x10944 .f32 := Memref.whole cc4_scratch1

/-- Between points: the two accumulators' buffers at contents which, inside a row block (`n` not a multiple of `8`),
    are `accG` and `accU` after the points below `n` — at the opening of a row block they are about to be reset, and
    nothing is said of them —; every other scoped buffer but this call's staging buffers at anything; the generator
    register at some state. -/
def Phi4 (c : Dev nD) (n : ℕ) : sProp 𝕄 :=
  iprop((∃ f g, ⌜n % 8 ≠ 0 → f = accG V c n ∧ g = accU V c n⌝
        ∗ owns (c : Thread nD τ) scM4_0 fullShare f ∗ owns (c : Thread nD τ) scM4_1 fullShare g)
      ∗ Pipeline.scopedRestBut (Ix := Unit) (Name := ℕ) (U := UR sig nD τ) (Lvl := ℕ) (Val := Elt F) spec4 c [cc4_scratch0, cc4_scratch1]
      ∗ ∃ r, prngReg c r)

/-! ## The proof data -/

/-- The call's proof data on core `c`: the arrays as the region finds them; after the body at point `t` each input's
    buffer at its block, the result's at the gated product of the accumulators after `t` (consulted only at the last
    point of a row block: elsewhere the window is idle); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accG V c (t.val + 1)) (accU V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (accG V c (t.val + 1)) (accU V c (t.val + 1)) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- The invariant at a point's start and end, at the point's number. -/
theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := by
  dsimp only [dat4]; simp only [Fin.val_succ]

/-! ## The body's two conditions, in closed form -/

/-- The point opens a row block (`k = 0`): the body's first conditional, as it computes it from the coordinates. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- The point closes a row block (`k = 7`): the body's second conditional. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- The result window is idle exactly at the points that do not close a row block, and is not written back there. -/
theorem idleAt4_3 : ∀ t : Fin cfg4.N, t.val % 8 ≠ 7 → cfg4.idle 3 (grid4.coords t) = true :=
  (by decide +kernel : ∀ t : Fin grid4.N, t.val % 8 ≠ 7 → idle4 3 (grid4.coords t) = true)
theorem liveAt4_3 : ∀ t : Fin cfg4.N, t.val % 8 = 7 → cfg4.idle 3 (grid4.coords t) = false :=
  (by decide +kernel : ∀ t : Fin grid4.N, t.val % 8 = 7 → idle4 3 (grid4.coords t) = false)
theorem noFlush4_3 (t : Fin cfg4.N) (h : t.val % 8 ≠ 7) : (cfg4.win 3).flush t = false :=
  Bool.eq_false_iff.mpr fun hf => h ((flush4_3 t).mp hf)

/-! ## The body's triple, case by case -/

/-- What any view of a buffer reads after a list of stores the last of which fills the whole buffer: that store's
    payload. -/
theorem read_writes_unit_zero {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- A load of the whole buffer after such a list of stores reads the last store's payload. -/
theorem readCov_unit_zero_cons {S : Shape} {e : EltTy} {κ : Kind} {sp : Space} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

set_option maxHeartbeats 1000000 in
/-- A point that opens a row block without closing it: both accumulators, whatever they held, are reset and gain the
    point's products; the inputs are left as they were; the result's buffer is not touched. -/
theorem sound_kernel4_A (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : cond4_0 i) (hc1 : ¬cond4_1 i)
    (x0 : Vec F S128x256 .bf16) (x1 x2 : Vec F S10944x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (k4_pay3 (k4_pay1 (F := F)) x0 x1)
            ∗ owns (c : Thread nD τ) arg7 fullShare (k4_pay4 (k4_pay2 (F := F)) x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%dg, %fg, -, HG⟩, ⟨%du, %fu, -, HU⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HG]
  · iexists _; isplitr
    swap; · iexact HG
    ipureintro
    (try sl_unfold_run_names)
    rw [read_writes_unit_zero (S := S128x10944) _ _ hz4]
    simp only [readCov_unit_zero_cons (S := S128x10944) _ hz4, View.readAt_eq_ld, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [readCov_unit_zero_cons (S := S128x10944) _ hz4, View.readAt_eq_ld, View.ld_unit_zero (S := S128x256) hz4, View.ld_unit_zero (S := S10944x256) hz4]

set_option maxHeartbeats 1000000 in
/-- A point inside a row block: each accumulator gains the point's product. -/
theorem sound_kernel4_B (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : ¬cond4_0 i) (hc1 : ¬cond4_1 i)
    (x0 : Vec F S128x256 .bf16) (x1 x2 : Vec F S10944x256 .bf16) (g u : Vec F S128x10944 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare g ∗ owns (c : Thread nD τ) arg7 fullShare u
        ∗ (iprop(owns (c : Thread nD τ) arg2 fullShare x0 ∗ owns (c : Thread nD τ) arg3 fullShare x1 ∗ owns (c : Thread nD τ) arg4 fullShare x2
            ∗ owns (c : Thread nD τ) arg6 fullShare (k4_pay3 g x0 x1) ∗ owns (c : Thread nD τ) arg7 fullShare (k4_pay4 u x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%fg, %hfg, HG⟩, ⟨%fu, %hfu, HU⟩, Hk⟩
  subst hf0; subst hf1; subst hf2; subst hfg; subst hfu
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HG]
  · iexists _; isplitr
    swap; · iexact HG
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]

set_option maxHeartbeats 1000000 in
/-- A point that closes a row block: each accumulator gains the point's product, and the gated product of the two is
    stored over whatever the result's buffer held. -/
theorem sound_kernel4_C (c : Dev nD) (E : Set ℕ) (i : grid4.Coords)
    (arg2 : Memref sig .tc .vmem S128x256 .bf16) (harg2 : arg2.IsWhole) (arg3 : Memref sig .tc .vmem S10944x256 .bf16) (harg3 : arg3.IsWhole)
    (arg4 : Memref sig .tc .vmem S10944x256 .bf16) (harg4 : arg4.IsWhole) (arg5 : Memref sig .tc .vmem S128x10944 .bf16) (harg5 : arg5.IsWhole)
    (arg6 : Memref sig .tc .vmem S128x10944 .f32) (harg6 : arg6.IsWhole) (arg7 : Memref sig .tc .vmem S128x10944 .f32) (harg7 : arg7.IsWhole)
    (hc0 : ¬cond4_0 i) (hc1 : cond4_1 i)
    (x0 : Vec F S128x256 .bf16) (x1 x2 : Vec F S10944x256 .bf16) (g u : Vec F S128x10944 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare g ∗ owns (c : Thread nD τ) arg7 fullShare u
        ∗ (iprop(owns (c : Thread nD τ) arg2 fullShare x0 ∗ owns (c : Thread nD τ) arg3 fullShare x1 ∗ owns (c : Thread nD τ) arg4 fullShare x2
            ∗ owns (c : Thread nD τ) arg5 fullShare (out4_3 (k4_pay3 g x0 x1) (k4_pay4 u x0 x2))
            ∗ owns (c : Thread nD τ) arg6 fullShare (k4_pay3 g x0 x1) ∗ owns (c : Thread nD τ) arg7 fullShare (k4_pay4 u x0 x2)) -∗ K ⟨⟩))
      ⊢ wp frame (wpE (defs₀ (F := F)) Variants.none c none) E (cc4__gate_up_kernel i arg2 harg2 arg3 harg3 arg4 harg4 arg5 harg5 arg6 harg6 arg7 harg7) K := by
  simp only [cc4__gate_up_kernel_eq_skeleton]; unfold cc4__gate_up_kernel_skel
  unfold owns
  iintro ⟨⟨%f0, %hf0, H0⟩, ⟨%f1, %hf1, H1⟩, ⟨%f2, %hf2, H2⟩, ⟨%d5, %f5, -, H5⟩, ⟨%fg, %hfg, HG⟩, ⟨%fu, %hfu, HU⟩, Hk⟩
  subst hf0; subst hf1; subst hf2; subst hfg; subst hfu
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_run_names)
    unfold out4_3
    rw [read_writes_unit_zero (S := S128x10944) _ _ hz4, View.canon_unit_zero hz4]
    simp only [readCov_unit_zero_cons (S := S128x10944) _ hz4, View.readAt_eq_ld, View.ld_unit_zero (S := S128x10944) hz4, View.ld_unit_zero (S := S128x256) hz4, View.ld_unit_zero (S := S10944x256) hz4]
  isplitl [HG]
  · iexists _; isplitr
    swap; · iexact HG
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]
  · iexists _; isplitr
    swap; · iexact HU
    ipureintro
    (try sl_unfold_run_names)
    rw [read_writes_unit_zero (S := S128x10944) _ _ hz4]
    simp only [View.readAt_eq_ld, View.ld_unit_zero (S := S128x10944) hz4, View.ld_unit_zero (S := S128x256) hz4, View.ld_unit_zero (S := S10944x256) hz4]

/-! ## The body obligation, at a generic point -/

/-- The input windows are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point. The inputs' buffers hold their blocks; the point's place in its row block (`t mod 8`) says
    which case runs. Opening a row block, the accumulators are handed over at anything; elsewhere at what the point
    before left, which the invariant names. They come back at this point's contents. The result's buffer is handed over
    only at the close of a row block and comes back at the gated product; elsewhere it is left as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl, Phi4_castSucc, Phi4_succ]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  rw [show (dat4 V c).leavesExact 2 t = owns (c : Thread nD τ) (st4_2 t) fullShare ((dat4 V c).after 2 t) from by
      unfold Dat.leavesExact; rw [liveAt4_2 t], after4_2]
  unfold Phi4
  by_cases h0 : t.val % 8 = 0
  · have h7 : t.val % 8 ≠ 7 := by omega
    rw [Dat.leavesExact_idle (dat4 V c) 3 t (idleAt4_3 t h7) (noFlush4_3 t h7)]
    iintro ⟨⟨⟨%f, %g, -, HS0, HS1⟩, HR, Hg⟩, Ho, ⟨%d0, H0⟩, ⟨%d1, H1⟩, ⟨%d2, H2⟩, H3⟩
    iapply (sound_kernel4_A c Set.univ (grid4.coords t) _ _ _ _ _ _ _ _ _ _ _ _ ((hcond4_0 t).mpr h0) (fun h => h7 ((hcond4_1 t).mp h))
      (xblk4 V c t) (gblk4 V c t) (ublk4 V c t) _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 HR Hg]
    · isplitl [HS0 HS1]
      · iexists (k4_pay3 (k4_pay1 (F := F)) (xblk4 V c t) (gblk4 V c t)); iexists (k4_pay4 (k4_pay2 (F := F)) (xblk4 V c t) (ublk4 V c t))
        isplitr
        · ipureintro; intro _; exact ⟨(accG_zero_case V c t h0).symm, (accU_zero_case V c t h0).symm⟩
        isplitl [HS0]; · iexact HS0
        iexact HS1
      isplitl [HR]; · iexact HR
      iexact Hg
    isplitl [Ho]; · iexact Ho
    isplitl [H0]; · iexact H0
    isplitl [H1]; · iexact H1
    isplitl [H2]; · iexact H2
    iexact H3
  · by_cases h7 : t.val % 8 = 7
    · rw [show (dat4 V c).leavesExact 3 t = owns (c : Thread nD τ) (st4_3 t) fullShare ((dat4 V c).after 3 t) from by
          unfold Dat.leavesExact; rw [liveAt4_3 t h7], after4_3]
      rw [accG_succ_case V c t h0, accU_succ_case V c t h0]
      iintro ⟨⟨⟨%f, %g, %hfg, HS0, HS1⟩, HR, Hg⟩, Ho, ⟨%d0, H0⟩, ⟨%d1, H1⟩, ⟨%d2, H2⟩, ⟨%d3, H3⟩⟩
      obtain ⟨rfl, rfl⟩ := hfg h0
      iapply (sound_kernel4_C c Set.univ (grid4.coords t) _ _ _ _ _ _ _ _ _ _ _ _ (fun h => h0 ((hcond4_0 t).mp h)) ((hcond4_1 t).mpr h7)
        (xblk4 V c t) (gblk4 V c t) (ublk4 V c t) (accG V c t.val) (accU V c t.val) _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HR Hg]
      · isplitl [HS0 HS1]
        · iexists (k4_pay3 (accG V c t.val) (xblk4 V c t) (gblk4 V c t)); iexists (k4_pay4 (accU V c t.val) (xblk4 V c t) (ublk4 V c t))
          isplitr
          · ipureintro; intro _; exact ⟨rfl, rfl⟩
          isplitl [HS0]; · iexact HS0
          iexact HS1
        isplitl [HR]; · iexact HR
        iexact Hg
      isplitl [Ho]; · iexact Ho
      isplitl [H0]; · iexact H0
      isplitl [H1]; · iexact H1
      isplitl [H2]; · iexact H2
      iexact H3
    · rw [Dat.leavesExact_idle (dat4 V c) 3 t (idleAt4_3 t h7) (noFlush4_3 t h7)]
      rw [accG_succ_case V c t h0, accU_succ_case V c t h0]
      iintro ⟨⟨⟨%f, %g, %hfg, HS0, HS1⟩, HR, Hg⟩, Ho, ⟨%d0, H0⟩, ⟨%d1, H1⟩, ⟨%d2, H2⟩, H3⟩
      obtain ⟨rfl, rfl⟩ := hfg h0
      iapply (sound_kernel4_B c Set.univ (grid4.coords t) _ _ _ _ _ _ _ _ _ _ _ _ (fun h => h0 ((hcond4_0 t).mp h)) (fun h => h7 ((hcond4_1 t).mp h))
        (xblk4 V c t) (gblk4 V c t) (ublk4 V c t) (accG V c t.val) (accU V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists (k4_pay3 (accG V c t.val) (xblk4 V c t) (gblk4 V c t)); iexists (k4_pay4 (accU V c t.val) (xblk4 V c t) (ublk4 V c t))
          isplitr
          · ipureintro; intro _; exact ⟨rfl, rfl⟩
          isplitl [HS0]; · iexact HS0
          iexact HS1
        isplitl [HR]; · iexact HR
        iexact Hg
      isplitl [Ho]; · iexact Ho
      isplitl [H0]; · iexact H0
      isplitl [H1]; · iexact H1
      isplitl [H2]; · iexact H2
      iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region is entered with — the generator register and every scoped buffer but the staging buffers at
    anything — is the invariant before the first point: the first point opens a row block, so nothing is asked of the
    accumulators. -/
theorem hin4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [show (dat4 V c).Φ 0 = Phi4 V c 0 from rfl]
  unfold Phi4
  rw [scopedRest4_split]
  simp only [scM4_0, scM4_1, owns_whole]
  iintro ⟨Hg, ⟨⟨%f, HS0⟩, ⟨%g, HS1⟩⟩, HR⟩
  isplitl [HS0 HS1]
  · iexists f; iexists g
    isplitr
    · ipureintro; intro h; exact absurd rfl h
    isplitl [HS0]; · iexact HS0
    iexact HS1
  isplitl [HR]; · iexact HR
  iexact Hg

/-- After the last point the invariant gives the same back: what the accumulators hold is forgotten. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl]
  unfold Phi4
  rw [scopedRest4_split]
  simp only [scM4_0, scM4_1, owns_whole]
  iintro ⟨⟨%f, %g, -, HS0, HS1⟩, HR, Hg⟩
  isplitl [Hg]; · iexact Hg
  isplitl [HS0 HS1]
  · isplitl [HS0]
    · iexists f; iexact HS0
    iexists g; iexact HS1
  iexact HR

end Cert.KernelIdeal.Rgn

end
-- ==== Proof.KI.Region5.lean ====
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The last projection with its residual: the product of a row block of the gated activations with a row
block of the down weights, contracted over the whole inner axis, plus the matching block of the hidden rows.

The grid is 16 × 8; at the point (i, j) the body reads the 256 × 10944 block i of the activations, the
256 × 10944 block j of the weights and the 256 × 256 block (i, j) of the hidden rows, and stores the
256 × 256 block (i, j) of the result. -/

/-! ## The windows' blocks -/

/-- Window `w`'s block at the point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' block: its index is the first grid coordinate alone, so it is fetched only where that
    coordinate moves; at the other points the buffer still holds the same block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weights' block: its index is the second grid coordinate. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The residual's block: its index is the grid point itself. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_a : Rect S256x10944 := Rect.unit (s := S256x10944) ![0, 0] S256x10944.size inb_S256x10944_S256x10944_0_0
abbrev r5_o : Rect S256x256 := Rect.unit (s := S256x256) ![0, 0] S256x256.size inb_S256x256_S256x256_0_0

/-! ## What the body leaves in the output window's buffer -/

/-- The output buffer after the body: its one store, of the product plus the residual, over the whole buffer. -/
def out5_3 (x0 : Vec F S256x10944 .bf16) (x1 : Vec F S256x10944 .bf16) (x2 : Vec F S256x256 .f32) : Vec F S256x256 .f32 :=
  View.canon [⟨r5_o, k5_pay1 (View.ld x0 r5_a) (View.ld x1 r5_a) (View.ld x2 r5_o)⟩]

/-- The one store's rectangle is the whole buffer, so it covers it. -/
theorem cover5_3 (p0 : Vec F S256x256 .f32) (y : S256x256.Idx) :
    ∃ pc ∈ ([⟨r5_o, p0⟩] : List (View.Piece (Elt F) S256x256 .f32)), y ∈ pc.1.set :=
  View.cover_of_tiled [⟨r5_o, p0⟩] S256x256.size (by rfl) y

/-! ## The body's triple -/

set_option maxHeartbeats 1000000 in
/-- The body on whole buffers, the three inputs' at the contents read and the output's at anything, leaves the inputs'
    as they were and the output's at `out5_3` of them. -/
theorem sound_kernel5 (c : Dev nD) (E : Set ℕ) (i : grid5.Coords)
    (arg2 : Memref sig .tc .vmem S256x10944 .bf16) (harg2 : arg2.IsWhole) (arg3 : Memref sig .tc .vmem S256x10944 .bf16) (harg3 : arg3.IsWhole)
    (arg4 : Memref sig .tc .vmem S256x256 .f32) (harg4 : arg4.IsWhole) (arg5 : Memref sig .tc .vmem S256x256 .f32) (harg5 : arg5.IsWhole)
    (x0 : Vec F S256x10944 .bf16) (x1 : Vec F S256x10944 .bf16) (x2 : Vec F S256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out5_3 x0 x1 x2)) -∗ K ⟨⟩))
      ⊢ wp frame (wpE (defs₀ (F := F)) Variants.none c none) E (cc5__matmul_resid_kernel i arg2 harg2 arg3 harg3 arg4 harg4 arg5 harg5) K := by
  simp only [cc5__matmul_resid_kernel_eq_skeleton]; unfold cc5__matmul_resid_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data: the arrays as the region finds them; after the body each input's buffer at its block and the
    output's at `out5_3` of the three input blocks; the invariant is the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at the point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Rgn

end
-- ==== Proof.KI.Run.lean ====
import proofs.«163206_j1571958030520_1_alg».proof.Proof.KI.Region0
import proofs.«163206_j1571958030520_1_alg».proof.Proof.KI.Region1
import proofs.«163206_j1571958030520_1_alg».proof.Proof.KI.Region2
import proofs.«163206_j1571958030520_1_alg».proof.Proof.KI.Region3
import proofs.«163206_j1571958030520_1_alg».proof.Proof.KI.Region4
import proofs.«163206_j1571958030520_1_alg».proof.Proof.KI.Region5
import proofs.«163206_j1571958030520_1_alg».proof.Proof.Gen.KernelIdeal.Regions
import proofs.«163206_j1571958030520_1_alg».proof.Proof.Gen.KernelIdeal.Launch
import proofs.«163206_j1571958030520_1_alg».proof.Proof.Gen.KernelIdeal.Skeleton
import proofs.«163206_j1571958030520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The program's run, region by region.

@main is a stretch of host operations (the rows reshaped to a matrix, the five weights converted, the first weight
vector as a row), three kernel regions (the normalisation of the rows, the first projection, the second projection
plus the rows), a second stretch (the second weight vector as a row), three more regions (the second normalisation,
the gated pair of projections, the last projection plus the hidden rows) and a last stretch (the result reshaped to
three axes). The contents of a core's buffers at each of the ten boundaries are folded from the launch memory: a stretch
applies its operations, a region replaces its windows' arrays by what its write-backs leave. Each region is entered with
every unscoped buffer at the boundary's contents and returns them at the next boundary's; nothing is owed between cores
and no semaphore outlives a region. The run ends with every buffer at the last boundary's contents, so the result buffer
holds the fold's last value and an argument, which no stretch writes and no window names, holds what it held at launch.
-/

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- A core's buffers at launch. -/
abbrev W0 : Dev nD → Valuation τ sig (Elt F) := fun c b => m (c, b)
/-- After the first stretch of host operations (the reshape of the rows, the five weight conversions, the weight row). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- The contents when region 0 returns: its arrays at what its write-backs leave, every other buffer as it was entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- The contents when region 1 returns: its arrays at what its write-backs leave, every other buffer as it was entered. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same, read at the core's own references. -/
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The contents when region 2 returns: its arrays at what its write-backs leave, every other buffer as it was entered. -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same, read at the core's own references. -/
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

/-- After the second stretch (the second weight row). -/
abbrev W5 : Dev nD → Valuation τ sig (Elt F) := fun c => StableHlo.after hostOps3 (W4 m c)
abbrev U5 : (c : Dev nD) → (b : Ref sig .tc) → Buf (Elt F) ((c : Thread nD τ).loc b) := fun c b => W5 m c b

/-- The contents when region 3 returns: its arrays at what its write-backs leave, every other buffer as it was entered. -/
def W6 (c : Dev nD) : Valuation τ sig (Elt F) :=
  Pipeline.withArrays spec3 c (W5 m c) fun w => (dat3 (U5 m) c).arrAt w cfg3.N
theorem W6_arr (c : Dev nD) (w : Fin cfg3.W) :
    W6 m c (Proc.devRef .tc (Pipeline.arrRef spec3 w)) = (dat3 (U5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same, read at the core's own references. -/
abbrev U6 : (c : Dev nD) → (b : Ref sig .tc) → Buf (Elt F) ((c : Thread nD τ).loc b) := fun c b => W6 m c b
theorem hF3 (c : Dev nD) (w : Fin cfg3.W) : (dat3 (U5 m) c).arrAt w cfg3.N = U6 m c (Pipeline.arrRef spec3 w) :=
  (W6_arr m c w).symm
theorem hrest3 (c : Dev nD) : ∀ b, b ∉ Finset.univ.image (Pipeline.arrRef spec3) → U6 m c b = U5 m c b :=
  fun b hb => W6_of_ne m c b fun w e => hb (Finset.mem_image.mpr ⟨w, Finset.mem_univ _, e⟩)

/-- The contents when region 4 returns: its arrays at what its write-backs leave, every other buffer as it was entered. -/
def W7 (c : Dev nD) : Valuation τ sig (Elt F) :=
  Pipeline.withArrays spec4 c (W6 m c) fun w => (dat4 (U6 m) c).arrAt w cfg4.N
theorem W7_arr (c : Dev nD) (w : Fin cfg4.W) :
    W7 m c (Proc.devRef .tc (Pipeline.arrRef spec4 w)) = (dat4 (U6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- The same, read at the core's own references. -/
abbrev U7 : (c : Dev nD) → (b : Ref sig .tc) → Buf (Elt F) ((c : Thread nD τ).loc b) := fun c b => W7 m c b
theorem hF4 (c : Dev nD) (w : Fin cfg4.W) : (dat4 (U6 m) c).arrAt w cfg4.N = U7 m c (Pipeline.arrRef spec4 w) :=
  (W7_arr m c w).symm
theorem hrest4 (c : Dev nD) : ∀ b, b ∉ Finset.univ.image (Pipeline.arrRef spec4) → U7 m c b = U6 m c b :=
  fun b hb => W7_of_ne m c b fun w e => hb (Finset.mem_image.mpr ⟨w, Finset.mem_univ _, e⟩)

/-- The contents when region 5 returns: its arrays at what its write-backs leave, every other buffer as it was entered. -/
def W8 (c : Dev nD) : Valuation τ sig (Elt F) :=
  Pipeline.withArrays spec5 c (W7 m c) fun w => (dat5 (U7 m) c).arrAt w cfg5.N
theorem W8_arr (c : Dev nD) (w : Fin cfg5.W) :
    W8 m c (Proc.devRef .tc (Pipeline.arrRef spec5 w)) = (dat5 (U7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
/-- The same, read at the core's own references. -/
abbrev U8 : (c : Dev nD) → (b : Ref sig .tc) → Buf (Elt F) ((c : Thread nD τ).loc b) := fun c b => W8 m c b
theorem hF5 (c : Dev nD) (w : Fin cfg5.W) : (dat5 (U7 m) c).arrAt w cfg5.N = U8 m c (Pipeline.arrRef spec5 w) :=
  (W8_arr m c w).symm
theorem hrest5 (c : Dev nD) : ∀ b, b ∉ Finset.univ.image (Pipeline.arrRef spec5) → U8 m c b = U7 m c b :=
  fun b hb => W8_of_ne m c b fun w e => hb (Finset.mem_image.mpr ⟨w, Finset.mem_univ _, e⟩)

/-- After the last stretch (the result reshaped to three axes). -/
abbrev W9 : Dev nD → Valuation τ sig (Elt F) := fun c => StableHlo.after hostOps6 (W8 m c)

/-! ## A buffer that no stretch writes and no region's window names ends as launched -/

theorem W9_untouched (c : Dev nD) (b : Ref sig .tc) (h0 : b ∉ hostOps0_W) (h3 : b ∉ hostOps3_W) (h6 : b ∉ hostOps6_W)
    (n0 : ∀ w, Pipeline.arrRef spec0 w ≠ b) (n1 : ∀ w, Pipeline.arrRef spec1 w ≠ b) (n2 : ∀ w, Pipeline.arrRef spec2 w ≠ b)
    (n3 : ∀ w, Pipeline.arrRef spec3 w ≠ b) (n4 : ∀ w, Pipeline.arrRef spec4 w ≠ b) (n5 : ∀ w, Pipeline.arrRef spec5 w ≠ b) :
    W9 m c (Proc.devRef .tc b) = m ((c : Thread nD τ).loc b) :=
  calc W9 m c (Proc.devRef .tc b)
    _ = W8 m c (Proc.devRef .tc b) := StableHlo.after_of_writes_sub hostOps6 _ hostOps6_writes h6
    _ = W7 m c (Proc.devRef .tc b) := W8_of_ne m c b n5
    _ = W6 m c (Proc.devRef .tc b) := W7_of_ne m c b n4
    _ = W5 m c (Proc.devRef .tc b) := W6_of_ne m c b n3
    _ = W4 m c (Proc.devRef .tc b) := StableHlo.after_of_writes_sub hostOps3 _ hostOps3_writes h3
    _ = W3 m c (Proc.devRef .tc b) := W4_of_ne m c b n2
    _ = W2 m c (Proc.devRef .tc b) := W3_of_ne m c b n1
    _ = W1 m c (Proc.devRef .tc b) := W2_of_ne m c b n0
    _ = W0 m c (Proc.devRef .tc b) := StableHlo.after_of_writes_sub hostOps0 _ hostOps0_writes h0
    _ = m ((c : Thread nD τ).loc b) := rfl

/-! ## What each item leaves alone -/
theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W5_keep (c : Dev nD) (b : Ref sig .tc) (hb : b ∉ hostOps3_W) : W5 m c (Proc.devRef .tc b) = W4 m c (Proc.devRef .tc b) :=
  StableHlo.after_of_writes_sub hostOps3 _ hostOps3_writes hb
theorem W9_keep (c : Dev nD) (b : Ref sig .tc) (hb : b ∉ hostOps6_W) : W9 m c (Proc.devRef .tc b) = W8 m c (Proc.devRef .tc b) :=
  StableHlo.after_of_writes_sub hostOps6 _ hostOps6_writes hb

/-- Region 0 changes no buffer but its output's. -/
theorem W2_keep (c : Dev nD) (b : Ref sig .tc) (hb : b ≠ main_v7) : W2 m c (Proc.devRef .tc b) = W1 m c (Proc.devRef .tc b) := by
  by_cases h : ∃ w, Pipeline.arrRef spec0 w = b
  · obtain ⟨w, rfl⟩ := h
    have hin : (cfg0.win w).isOut = false := by
      rcases w with ⟨_ | _ | _ | n, hw⟩
      · rfl
      · rfl
      · exact absurd rfl hb
      · exact absurd hw (Nat.not_lt.2 (Nat.le_add_left _ _))
    exact (W2_arr m c w).trans (((dat0 (U1 m) c).arrAt_in w hin _).trans (A_eq0 (U1 m) c w))
  · exact W2_of_ne m c b fun w e => h ⟨w, e⟩

/-- Region 1 changes no buffer but its output's. -/
theorem W3_keep (c : Dev nD) (b : Ref sig .tc) (hb : b ≠ main_v8) : W3 m c (Proc.devRef .tc b) = W2 m c (Proc.devRef .tc b) := by
  by_cases h : ∃ w, Pipeline.arrRef spec1 w = b
  · obtain ⟨w, rfl⟩ := h
    have hin : (cfg1.win w).isOut = false := by
      rcases w with ⟨_ | _ | _ | n, hw⟩
      · rfl
      · rfl
      · exact absurd rfl hb
      · exact absurd hw (Nat.not_lt.2 (Nat.le_add_left _ _))
    exact (W3_arr m c w).trans (((dat1 (U2 m) c).arrAt_in w hin _).trans (A_eq1 (U2 m) c w))
  · exact W3_of_ne m c b fun w e => h ⟨w, e⟩

/-- Region 2 changes no buffer but its output's. -/
theorem W4_keep (c : Dev nD) (b : Ref sig .tc) (hb : b ≠ main_v9) : W4 m c (Proc.devRef .tc b) = W3 m c (Proc.devRef .tc b) := by
  by_cases h : ∃ w, Pipeline.arrRef spec2 w = b
  · obtain ⟨w, rfl⟩ := h
    have hin : (cfg2.win w).isOut = false := by
      rcases w with ⟨_ | _ | _ | _ | n, hw⟩
      · rfl
      · rfl
      · rfl
      · exact absurd rfl hb
      · exact absurd hw (Nat.not_lt.2 (Nat.le_add_left _ _))
    exact (W4_arr m c w).trans (((dat2 (U3 m) c).arrAt_in w hin _).trans (A_eq2 (U3 m) c w))
  · exact W4_of_ne m c b fun w e => h ⟨w, e⟩

/-- Region 3 changes no buffer but its output's. -/
theorem W6_keep (c : Dev nD) (b : Ref sig .tc) (hb : b ≠ main_v11) : W6 m c (Proc.devRef .tc b) = W5 m c (Proc.devRef .tc b) := by
  by_cases h : ∃ w, Pipeline.arrRef spec3 w = b
  · obtain ⟨w, rfl⟩ := h
    have hin : (cfg3.win w).isOut = false := by
      rcases w with ⟨_ | _ | _ | n, hw⟩
      · rfl
      · rfl
      · exact absurd rfl hb
      · exact absurd hw (Nat.not_lt.2 (Nat.le_add_left _ _))
    exact (W6_arr m c w).trans (((dat3 (U5 m) c).arrAt_in w hin _).trans (A_eq3 (U5 m) c w))
  · exact W6_of_ne m c b fun w e => h ⟨w, e⟩

/-- Region 4 changes no buffer but its output's. -/
theorem W7_keep (c : Dev nD) (b : Ref sig .tc) (hb : b ≠ main_v12) : W7 m c (Proc.devRef .tc b) = W6 m c (Proc.devRef .tc b) := by
  by_cases h : ∃ w, Pipeline.arrRef spec4 w = b
  · obtain ⟨w, rfl⟩ := h
    have hin : (cfg4.win w).isOut = false := by
      rcases w with ⟨_ | _ | _ | _ | n, hw⟩
      · rfl
      · rfl
      · rfl
      · exact absurd rfl hb
      · exact absurd hw (Nat.not_lt.2 (Nat.le_add_left _ _))
    exact (W7_arr m c w).trans (((dat4 (U6 m) c).arrAt_in w hin _).trans (A_eq4 (U6 m) c w))
  · exact W7_of_ne m c b fun w e => h ⟨w, e⟩

/-- Region 5 changes no buffer but its output's. -/
theorem W8_keep (c : Dev nD) (b : Ref sig .tc) (hb : b ≠ main_v13) : W8 m c (Proc.devRef .tc b) = W7 m c (Proc.devRef .tc b) := by
  by_cases h : ∃ w, Pipeline.arrRef spec5 w = b
  · obtain ⟨w, rfl⟩ := h
    have hin : (cfg5.win w).isOut = false := by
      rcases w with ⟨_ | _ | _ | _ | n, hw⟩
      · rfl
      · rfl
      · rfl
      · exact absurd rfl hb
      · exact absurd hw (Nat.not_lt.2 (Nat.le_add_left _ _))
    exact (W8_arr m c w).trans (((dat5 (U7 m) c).arrAt_in w hin _).trans (A_eq5 (U7 m) c w))
  · exact W8_of_ne m c b fun w e => h ⟨w, e⟩

/-! ## The proof data of the six pipelines, and what rides beside the buffers -/

/-- No pipeline has a prefetched table. -/
abbrev padm : (p : Fin 6) → (pcfgs (F := F) p).Adm := fun p => (cfgs p).toPCfg_adm
/-- Every pipeline's proof data, each at the contents its region is entered with. -/
def pdats : (p : Fin 6) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
  | ⟨2, _⟩ => fun c => dat2 (U3 m) c
  | ⟨3, _⟩ => fun c => dat3 (U5 m) c
  | ⟨4, _⟩ => fun c => dat4 (U6 m) c
  | ⟨5, _⟩ => fun c => dat5 (U7 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `W1`, left with them at `W2`. Its windows'
    arrays are taken out of the unscoped buffers on the way in and put back, at what the write-backs left, on the way
    out; the generator register rides through the region's invariant; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are taken out of the unscoped buffers on the way in and put back, at what the write-backs left, on the way
    out; the generator register rides through the region's invariant; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W3`, left with them at `W4`. Its windows'
    arrays are taken out of the unscoped buffers on the way in and put back, at what the write-backs left, on the way
    out; the generator register rides through the region's invariant; nothing is owed. -/
def reg2 : Pipeline.RegionSeg (pcfgs (F := F)) padm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W5`, left with them at `W6`. Its windows'
    arrays are taken out of the unscoped buffers on the way in and put back, at what the write-backs left, on the way
    out; the generator register rides through the region's invariant; nothing is owed. -/
def reg3 : Pipeline.RegionSeg (pcfgs (F := F)) padm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (U5 m c)
  hentry c := by
    rw [Pipeline.ownSems0_none]
    have hsplit := Pipeline.arrays_of_unscopedBufs (p := 3) (pcfgs (F := F)) padm (pdats m) launch3.win launch3.arr_whole c
      ((pdats m 3 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m) ((pdats m 3 c).share_full fun _ => rfl)
      (U5 m c) (U6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W6`, left with them at `W7`. Its windows'
    arrays are taken out of the unscoped buffers on the way in and put back, at what the write-backs left, on the way
    out; the generator register rides through the region's invariant; nothing is owed. -/
def reg4 : Pipeline.RegionSeg (pcfgs (F := F)) padm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (U6 m c)
  hentry c := by
    rw [Pipeline.ownSems0_none]
    have hsplit := Pipeline.arrays_of_unscopedBufs (p := 4) (pcfgs (F := F)) padm (pdats m) launch4.win launch4.arr_whole c
      ((pdats m 4 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (U6 m) c).Φ 0 from rfl]
    iintro ⟨Hp, -, Hr⟩
    iapply (hin4 (U6 m) c)
    isplitl [Hp]; · iexact Hp
    iexact Hr
  hout c := by
    rw [Pipeline.ownSems0_none, show (pdats m 4 c).Φ (Fin.last _) = (dat4 (U6 m) c).Φ (Fin.last cfg4.N) from rfl]
    iintro H
    ihave H' := (hout4 (U6 m) c) $$ H
    icases H' with ⟨Hp, Hr⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m) ((pdats m 4 c).share_full fun _ => rfl)
      (U6 m c) (U7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W7`, left with them at `W8`. Its windows'
    arrays are taken out of the unscoped buffers on the way in and put back, at what the write-backs left, on the way
    out; the generator register rides through the region's invariant; nothing is owed. -/
def reg5 : Pipeline.RegionSeg (pcfgs (F := F)) padm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U7 m) c).loose
  hwaits := Pipeline.hwaits_of_owed_zero _ _ _ _ L lv 5 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec5 c (U7 m c)
  hentry c := by
    rw [Pipeline.ownSems0_none]
    have hsplit := Pipeline.arrays_of_unscopedBufs (p := 5) (pcfgs (F := F)) padm (pdats m) launch5.win launch5.arr_whole c
      ((pdats m 5 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m) ((pdats m 5 c).share_full fun _ => rfl)
      (U7 m c) (U8 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (W0 m)),
    .region (reg0 m), .region (reg1 m), .region (reg2 m),
    .host (hseg hostOps3 hostOps3_sub hostOps3_fresh (W4 m)),
    .region (reg3 m), .region (reg4 m), .region (reg5 m),
    .host (hseg hostOps6 hostOps6_sub hostOps6_fresh (W8 m)) ]
theorem main_run (c : Dev nD) : main (F := F) c = Pipeline.Seg.run (segs m) := (main_chain c).trans (by chain_rfl)

set_option backward.isDefEq.respectTransparency.types false in
/-- The run: from any memory with zero counters every weakly fair execution of @main terminates without a fault, and in
    every final state each unscoped buffer of a core holds what the fold computes for it; in particular the result buffer holds
    `W9 … main_v14` and every argument what it held at launch. -/
theorem run_main : θ_run defs (onTc (τ := τ) (main (F := F))) ⟨m, fun _ => 0, ρ⟩ (fun r => ∀ c : Dev nD,
      r.2.mem ((c.tc : Thread nD τ).loc main_v14) = W9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v14 (by decide)),
       (h c _ (mem_uc main_arg0 (by decide))).trans (W9_untouched m c main_arg0 (by decide) (by decide) (by decide) (by decide) (by decide) (by decide) (by decide) (by decide) (by decide)),
       (h c _ (mem_uc main_arg1 (by decide))).trans (W9_untouched m c main_arg1 (by decide) (by decide) (by decide) (by decide) (by decide) (by decide) (by decide) (by decide) (by decide)),
       (h c _ (mem_uc main_arg2 (by decide))).trans (W9_untouched m c main_arg2 (by decide) (by decide) (by decide) (by decide) (by decide) (by decide) (by decide) (by decide) (by decide)),
       (h c _ (mem_uc main_arg3 (by decide))).trans (W9_untouched m c main_arg3 (by decide) (by decide) (by decide) (by decide) (by decide) (by decide) (by decide) (by decide) (by decide)),
       (h c _ (mem_uc main_arg4 (by decide))).trans (W9_untouched m c main_arg4 (by decide) (by decide) (by decide) (by decide) (by decide) (by decide) (by decide) (by decide) (by decide)),
       (h c _ (mem_uc main_arg5 (by decide))).trans (W9_untouched m c main_arg5 (by decide) (by decide) (by decide) (by decide) (by decide) (by decide) (by decide) (by decide) (by decide)),
       (h c _ (mem_uc main_arg6 (by decide))).trans (W9_untouched m c main_arg6 (by decide) (by decide) (by decide) (by decide) (by decide) (by decide) (by decide) (by decide) (by decide)),
       (h c _ (mem_uc main_arg7 (by decide))).trans (W9_untouched m c main_arg7 (by decide) (by decide) (by decide) (by decide) (by decide) (by decide) (by decide) (by decide) (by decide)),
       (h c _ (mem_uc main_arg8 (by decide))).trans (W9_untouched m c main_arg8 (by decide) (by decide) (by decide) (by decide) (by decide) (by decide) (by decide) (by decide) (by decide))⟩)

end Cert.KernelIdeal.Rgn

end
-- ==== Proof.Spec.lean ====
import Idealize.ShloMosaic.PureOps.Ideal
import Idealize.ShloMosaic.Lib.ValueIdx

/-!
The decoder block as pure functions of whole arrays over the extended reals.

With `x` the `4096 × 2048` matrix of token rows, the block computes
`h = x + ((rms x w₁) · Wqᵀ) · Woᵀ` and then `h + (gate ((rms h w₂) · Wgᵀ) ((rms h w₂) · Wuᵀ)) · Wdᵀ`,
where `rms` scales every row by the reciprocal square root of its mean square plus a fixed small
number and then by a weight row, `A · Bᵀ` contracts the last axis of both factors, and
`gate g u = g · σ(g) · u` with `σ` the logistic function. The two float literals (the row length
`2048` and the small number) are kept as the words both programs print: they are never evaluated.
-/

noncomputable section

namespace Cert.Spec

open Idealize.ShloMosaic Idealize.ShloMosaic.ValueIdx

/-- A matrix of extended reals with `a` rows and `b` columns. -/
abbrev Arr2 (a b : Nat) : Type := (⟨2, ![a, b]⟩ : Shape).Idx → EReal

/-- The word of the row length `2048`. -/
abbrev rowLen : EReal := Ideal.ofBits .f32 0x45000000#32
/-- The word of the small number added to a row's mean square. -/
abbrev tiny : EReal := Ideal.ofBits .f32 0x358637BD#32

/-- A vector of length `2048` as a matrix of one row. -/
def row (w : (⟨1, ![2048]⟩ : Shape).Idx → EReal) : Arr2 1 2048 := fun j => w (ix1 (j 1))

/-- A row's sum of squares. -/
def sumSq (x : Arr2 4096 2048) (r : Fin 4096) : EReal := ∑ k : Fin 2048, x (ix2 r k) * x (ix2 r k)

/-- Every row scaled by the reciprocal square root of (its mean square plus `tiny`), then by the weight row. -/
def rms (x : Arr2 4096 2048) (w : Arr2 1 2048) : Arr2 4096 2048 :=
  fun j => x j * Ideal.rsqrt (Ideal.div (sumSq x (j 0)) rowLen + tiny) * w (ix2 0 (j 1))

/-- `A · Bᵀ`: entry `(r, n)` is the sum over `k` of `A r k · B n k`. -/
def mulT {T N K : Nat} (a : Arr2 T K) (b : Arr2 N K) : Arr2 T N :=
  fun j => ∑ k : Fin K, a (ix2 (j 0) k) * b (ix2 (j 1) k)

/-- The gated product `g · σ(g) · u`, entry by entry. -/
def gate (g u : Arr2 4096 10944) : Arr2 4096 10944 := fun j => g j * Ideal.logistic (g j) * u j

/-- The first half of the block: the rows plus the two projections of their normalisation. -/
def hidden (x : Arr2 4096 2048) (w₁ : Arr2 1 2048) (Wq Wo : Arr2 2048 2048) : Arr2 4096 2048 :=
  fun j => x j + mulT (mulT (rms x w₁) Wq) Wo j

/-- What the gated layer feeds to the last projection. -/
def act (h : Arr2 4096 2048) (w₂ : Arr2 1 2048) (Wg Wu : Arr2 10944 2048) : Arr2 4096 10944 :=
  gate (mulT (rms h w₂) Wg) (mulT (rms h w₂) Wu)

/-- The whole block. -/
def block (x : Arr2 4096 2048) (w₁ w₂ : Arr2 1 2048) (Wq Wo : Arr2 2048 2048) (Wg Wu : Arr2 10944 2048)
    (Wd : Arr2 2048 10944) : Arr2 4096 2048 :=
  fun j => hidden x w₁ Wq Wo j + mulT (act (hidden x w₁ Wq Wo) w₂ Wg Wu) Wd j

end Cert.Spec

end
-- ==== Proof.KI.Value0.lean ====
import proofs.«163206_j1571958030520_1_alg».proof.Proof.KI.Region0
import proofs.«163206_j1571958030520_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The first row-normalisation launch, read as values over the extended reals: after its sixteen points the output
array holds `Cert.Spec.rms` of the rows' array and the weight row as the launch finds them.

Point `t` works on rows `256 t … 256 t + 255`. Entry `(p, q)` of what it writes depends on entry `(p, q)` of its block
of rows, on the whole of row `p` of that block (through the row's sum of squares) and on entry `q` of the weight row;
these are entry `(256 t + p, q)`, row `256 t + p` and the weight row's entry `q` of the whole arrays, which is what
`Cert.Spec.rms` reads at `(256 t + p, q)`. The sixteen blocks of rows tile the array, so the array is `rms` everywhere.
Changing the float format at the end does nothing over the extended reals.
-/

set_option maxRecDepth 16384

noncomputable section

namespace Cert.KernelIdeal.Val

open Cert.KernelIdeal Cert.KernelIdeal.Gen Cert.KernelIdeal.Rgn Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The body's arithmetic at an entry -/

/-- A vector of length `a` cast to a column `[a, 1]` reads, at `(i, u)`, the vector at `i`. -/
theorem shapeCast0_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo0_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of the squares of a block's rows, at row `p`: the sum over the row's 2048 entries. -/
theorem laneSum0_sq_apply (x0 : FVec Ideal S256x2048 .f32) (p : Fin 256) :
    (multiReduction (F := Ideal) .add [1] S256 (mulf x0 x0) 0x00000000#32 reduces_S256x2048_S256 (.inl rfl) rfl : FVec Ideal S256 .f32) (ix1 p)
      = ∑ k : Fin 2048, x0 (ix2 p k) * x0 (ix2 p k) := by
  refine (Ideal.multiReduction_add_single (mulf x0 x0) 0x00000000#32 reduces_S256x2048_S256 (.inl rfl) rfl (ix1 p)).trans ?_
  show ∑ k : Fin 2048, mulf x0 x0 (reduces_S256x2048_S256.lift (ix1 p) k) = _
  refine Finset.sum_congr rfl fun k _ => ?_
  have e : reduces_S256x2048_S256.lift (ix1 p) k = ix2 p k := by
    funext a; apply Fin.ext
    match a with
    | ⟨0, _⟩ => rfl
    | ⟨1, _⟩ => rfl
  rw [e]; rfl

/-- The body's result at entry `(p, q)` of the block: the entry times the reciprocal root of (the row's mean
    square plus the small number), times the weight row's entry `q`. -/
theorem pay0_apply (x0 : Vec Ideal S256x2048 .f32) (x1 : Vec Ideal S1x2048 .f32) (p : Fin 256) (q : Fin 2048) :
    (k0_pay1 (F := Ideal) x0 x1) (ix2 p q)
      = x0 (ix2 p q) * Ideal.rsqrt (Ideal.div (∑ k : Fin 2048, x0 (ix2 p k) * x0 (ix2 p k)) Cert.Spec.rowLen + Cert.Spec.tiny) * x1 (ix2 (0 : Fin 1) q) := by
  unfold k0_pay1
  simp only [shapeCast_self]
  refine (truncf_apply (ψ := .bf16) _ bitsLt_bf16_f32 (ix2 p q)).trans ?_
  refine (mulf_apply _ _ (ix2 p q)).trans ?_
  refine congrArg₂ (· * ·) ?_ (broadcastTo_1b_ab_apply x1 broadcasts_S1x2048_S256x2048 p q)
  refine (mulf_apply _ _ (ix2 p q)).trans ?_
  refine congrArg (x0 (ix2 p q) * ·) ?_
  refine (broadcastTo0_a1_ab_apply _ broadcasts_S256x1_S256x2048 p q).trans ?_
  show Ideal.rsqrt (Ideal.div (shapeCast S256x1 _ shapeCasts_S256_S256x1 (ix2 p (0 : Fin 1))) Cert.Spec.rowLen + Cert.Spec.tiny) = _
  refine congrArg (fun s => Ideal.rsqrt (Ideal.div s Cert.Spec.rowLen + Cert.Spec.tiny)) ?_
  refine (shapeCast0_a_a1_apply _ shapeCasts_S256_S256x1 p (0 : Fin 1)).trans ?_
  exact laneSum0_sq_apply x0 p

/-- The body's result at an entry is the row normalisation of a whole array there, once the block's entry, its
    row and the weight row's entry are the array's. -/
theorem pay0_eq_rms (X : Cert.Spec.Arr2 4096 2048) (W : Cert.Spec.Arr2 1 2048) (x0 : Vec Ideal S256x2048 .f32) (x1 : Vec Ideal S1x2048 .f32)
    (p : Fin 256) (q : Fin 2048) (i : (⟨2, ![4096, 2048]⟩ : Shape).Idx)
    (hx : x0 (ix2 p q) = X i) (hrow : ∀ k : Fin 2048, x0 (ix2 p k) = X (ix2 (i 0) k)) (hw : x1 (ix2 (0 : Fin 1) q) = W (ix2 (0 : Fin 1) (i 1))) :
    (k0_pay1 (F := Ideal) x0 x1) (ix2 p q) = Cert.Spec.rms X W i := by
  rw [pay0_apply, hx, hw]
  unfold Cert.Spec.rms Cert.Spec.sumSq
  simp only [hrow]

/-! ## From the sixteen blocks to the array -/

theorem hz0 : (![0, 0] : Fin 2 → Nat) = fun _ => 0 := funext fun a => by fin_cases a <;> rfl

/-- The printed index maps over the sixteen points: the rows' window and the output's window are at block `(t, 0)`,
    the weight row's window stays at block `(0, 0)`. -/
theorem hidx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row normalisation of the two arrays as the launch finds them. -/
theorem flushed0_eq (c : Dev nD) (t : Fin cfg0.N) :
    (dat0 (F := Ideal) V c).flushed 2 t
      = ((cfg0.win 2).blk t).view.read (Elt Ideal) (Cert.Spec.rms (V c main_v0) (V c main_v6)) := by
  show (cfg0.win 2).cut (grid0.coords t) ((dat0 V c).after 2 t) = _
  rw [after0_2]
  unfold out0_2
  rw [View.canon_unit_zero hz0]
  simp only [View.ld_unit_zero (S := S256x2048) hz0, View.ld_unit_zero (S := S1x2048) hz0]
  obtain ⟨e0, e1, e2, e3, e4, e5⟩ := hidx0 t
  funext y
  obtain ⟨p, q, rfl⟩ : ∃ (p : Fin 256) (q : Fin 2048), y = ix2 p q := ⟨y 0, y 1, eq_ix2 y⟩
  show k0_pay1 (F := Ideal) (iblk0 V c 0 t) (iblk0 V c 1 t) (ix2 p q)
    = Cert.Spec.rms (V c main_v0) (V c main_v6) (((cfg0.win 2).blk t).view.emb (ix2 p q))
  refine pay0_eq_rms (V c main_v0) (V c main_v6) (iblk0 V c 0 t) (iblk0 V c 1 t) p q (((cfg0.win 2).blk t).view.emb (ix2 p q)) ?_ ?_ ?_
  · show V c main_v0 (((cfg0.win 0).blk t).view.emb (ix2 p q)) = V c main_v0 (((cfg0.win 2).blk t).view.emb (ix2 p q))
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 2048 + 1 * q.val = win0_2.index t (1 : Fin 2) * 2048 + 1 * q.val; omega
  · intro k
    show V c main_v0 (((cfg0.win 0).blk t).view.emb (ix2 p k)) = V c main_v0 (ix2 ((((cfg0.win 2).blk t).view.emb (ix2 p q)) 0) k)
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 2048 + 1 * k.val = k.val; omega
  · show V c main_v6 (((cfg0.win 1).blk t).view.emb (ix2 (0 : Fin 1) q)) = V c main_v6 (ix2 (0 : Fin 1) ((((cfg0.win 2).blk t).view.emb (ix2 p q)) 1))
    refine congrArg _ (funext fun a => Fin.ext ?_)
    match a with
    | ⟨0, _⟩ => show win0_1.index t (0 : Fin 2) * 1 + 1 * 0 = 0; omega
    | ⟨1, _⟩ => show win0_1.index t (1 : Fin 2) * 2048 + 1 * q.val = win0_2.index t (1 : Fin 2) * 2048 + 1 * q.val; omega

/-- An entry of the output array is in point `t`'s block iff each coordinate is in the block's range on its axis. -/
theorem mem_blk0 (t : Fin cfg0.N) (i : S4096x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v7).slice (win0_2.rect t)).set ↔ _
  rw [View.set_slice_whole, Rect.mem_set_unit]
  exact Iff.rfl

/-- Every entry of the output array is written back by some point: row `r` by point `r / 256`. -/
theorem covered0 (i : S4096x2048.Idx) : ∃ t : Fin cfg0.N, (cfg0.win 2).flush t = true ∧ i ∈ ((cfg0.win 2).blk t).view.set := by
  have hN : cfg0.N = 16 := N_0
  have h0 : (i 0).val < 4096 := (i 0).isLt
  have h1 : (i 1).val < 2048 := (i 1).isLt
  have ht : (i 0).val / 256 < cfg0.N := by rw [hN]; omega
  obtain ⟨-, -, -, -, e4, e5⟩ := hidx0 ⟨(i 0).val / 256, ht⟩
  refine ⟨⟨(i 0).val / 256, ht⟩, flush0_2 _, ?_⟩
  rw [mem_blk0]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 2048 ≤ (i 1).val ∧ (i 1).val < win0_2.index ⟨(i 0).val / 256, ht⟩ (1 : Fin 2) * 2048 + 2048
    rw [e5]; omega

/-- The output array after the launch is the row normalisation of the rows' array by the weight row. -/
theorem value0 (c : Dev nD) : ∀ j, (dat0 (F := Ideal) V c).arrAt 2 cfg0.N j = Cert.Spec.rms (V c main_v0) (V c main_v6) j :=
  fun j => congrFun ((dat0 (F := Ideal) V c).arrAt_eq_of_cover 2 (Cert.Spec.rms (V c main_v0) (V c main_v6))
    (fun t _ => flushed0_eq V c t) covered0) j

end Cert.KernelIdeal.Val

end
-- ==== Proof.KI.MatmulAt.lean ====
import proofs.«163206_j1571958030520_1_alg».proof.Proof.Gen.KernelIdeal.Skeleton
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx

/-! # A block of 256 rows times the whole 2048 × 2048 weight, at an entry

Both full-width projections multiply a 256 × 2048 block `a` by a 2048 × 2048 matrix `b`, contracting
the last axis of both, into a zero accumulator. At the extended reals entry `(p, n)` of the product
is the sum over `k` of `a p k · b n k`. -/

/-! ## The dot's operand indices

The matmul contracts axis 1 of both operands: at output index `(r, n)` and contraction index `k`
the left operand is read at `(r, k)` and the right at `(n, k)`. -/

theorem lhs_dot2048_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs_dot2048_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_dot2048_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs_dot2048_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The product of a 256 × 2048 block and a 2048 × 2048 matrix, contracting the last axis of both,
    accumulated into zero: entry `(p, n)` is the sum over `k` of `a p k · b n k`. -/
theorem matmul2048_zero_apply (a : FVec Ideal S256x2048 .bf16) (b : FVec Ideal S2048x2048 .bf16) (p : Fin 256) (n : Fin 2048) :
    matmul dot_S256x2048_S2048x2048_S256x2048_1_1_0_0_n_n none a b (constant (F := Ideal) S256x2048 .f32 0x00000000#32) (ix2 p n)
      = ∑ k : Fin 2048, a (ix2 p k) * b (ix2 n k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p n) ((ValueIdx.contrEquiv1 dot_S256x2048_S2048x2048_S256x2048_1_1_0_0_n_n 2048 rfl rfl).symm k) = ix2 p k := funext fun d => Fin.ext (by
    match d with
    | ⟨0, _⟩ => exact lhs_dot2048_0 _ _
    | ⟨1, _⟩ => exact (lhs_dot2048_1 _ _).trans hk)
  have er : dot_S256x2048_S2048x2048_S256x2048_1_1_0_0_n_n.rhsIdx (ix2 p n) ((ValueIdx.contrEquiv1 dot_S256x2048_S2048x2048_S256x2048_1_1_0_0_n_n 2048 rfl rfl).symm k) = ix2 n k := funext fun d => Fin.ext (by
    match d with
    | ⟨0, _⟩ => exact rhs_dot2048_0 _ _
    | ⟨1, _⟩ => exact (rhs_dot2048_1 _ _).trans hk)
  rw [el, er]

end Cert.KernelIdeal.Val

end
-- ==== Proof.KI.Value1.lean ====
import proofs.«163206_j1571958030520_1_alg».proof.Proof.KI.Region1
import proofs.«163206_j1571958030520_1_alg».proof.Proof.KI.MatmulAt
import proofs.«163206_j1571958030520_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rgn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The first projection's result array

After the region's sixteen points the result array holds, at entry `(r, n)`, the sum over `k` of
`A r k · B n k`, with `A` the normalised rows and `B` the weight as the region finds them: point
`t` writes rows `256·t … 256·t + 255`, row `r` is written by point `r / 256`, and the sixteen blocks
cover the 4096 rows. -/

/-- The first projection's payload at an entry: no rounding is left at the extended reals, so entry
    `(p, n)` is the sum over `k` of `x0 p k · x1 n k`. -/
theorem k1_pay1_apply (x0 : FVec Ideal S256x2048 .bf16) (x1 : FVec Ideal S2048x2048 .bf16) (p : Fin 256) (n : Fin 2048) :
    k1_pay1 (F := Ideal) x0 x1 (ix2 p n) = ∑ k : Fin 2048, x0 (ix2 p k) * x1 (ix2 n k) := by
  unfold k1_pay1
  refine (truncf_apply (φ := .f32) (ψ := .bf16) _ bitsLt_bf16_f32 (ix2 p n)).trans ?_
  rw [shapeCast_self, shapeCast_self]
  exact matmul2048_zero_apply x0 x1 p n

/-! ## The blocks' places in their arrays -/

theorem hz1 : (![0, 0] : Fin 2 → Nat) = fun _ => 0 := funext fun a => by fin_cases a <;> rfl

/-- The index maps over the grid: the row block and the result block sit at block row `t`, block
    column `0`; the weight's one block at `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, k)` of point `t`'s row block is entry `(256·t + p, k)` of the rows. -/
theorem emb1_0 (t : Fin cfg1.N) (p : Fin 256) (k : Fin 2048) (r : Fin 4096) (hr : r.val = t.val * 256 + p.val) :
    ((cfg1.win 0).blk t).view.emb (ix2 p k) = (ix2 r k : S4096x2048.Idx) := by
  obtain ⟨e0, e1, -, -, -, -⟩ := idx_facts1 t
  funext a; apply Fin.ext
  match a with
  | ⟨0, _⟩ => show win1_0.index t (0 : Fin 2) * 256 + 1 * p.val = r.val; omega
  | ⟨1, _⟩ => show win1_0.index t (1 : Fin 2) * 2048 + 1 * k.val = k.val; omega

/-- The weight's block is the whole weight. -/
theorem emb1_1 (t : Fin cfg1.N) (n : Fin 2048) (k : Fin 2048) :
    ((cfg1.win 1).blk t).view.emb (ix2 n k) = (ix2 n k : S2048x2048.Idx) := by
  obtain ⟨-, -, e2, e3, -, -⟩ := idx_facts1 t
  funext a; apply Fin.ext
  match a with
  | ⟨0, _⟩ => show win1_1.index t (0 : Fin 2) * 2048 + 1 * n.val = n.val; omega
  | ⟨1, _⟩ => show win1_1.index t (1 : Fin 2) * 2048 + 1 * k.val = k.val; omega

/-- Entry `(p, n)` of point `t`'s result block is entry `(256·t + p, n)` of the result. -/
theorem emb1_2 (t : Fin cfg1.N) (p : Fin 256) (n : Fin 2048) (r : Fin 4096) (hr : r.val = t.val * 256 + p.val) :
    ((cfg1.win 2).blk t).view.emb (ix2 p n) = (ix2 r n : S4096x2048.Idx) := by
  obtain ⟨-, -, -, -, e4, e5⟩ := idx_facts1 t
  funext a; apply Fin.ext
  match a with
  | ⟨0, _⟩ => show win1_2.index t (0 : Fin 2) * 256 + 1 * p.val = r.val; omega
  | ⟨1, _⟩ => show win1_2.index t (1 : Fin 2) * 2048 + 1 * n.val = n.val; omega

/-! ## What a point writes back -/

/-- Point `t` writes back block `t` of the product of the whole arrays. -/
theorem flushed1_eq (c : Dev nD) (t : Fin cfg1.N) :
    (dat1 V c).flushed 2 t = ((cfg1.win 2).blk t).view.read (Elt Ideal) (Cert.Spec.mulT (V c main_v7) (V c main_v1)) := by
  show (cfg1.win 2).cut (grid1.coords t) ((dat1 V c).after 2 t) = _
  rw [after1_2]
  unfold out1_2
  rw [View.canon_unit_zero hz1]
  simp only [View.ld_unit_zero (S := S256x2048) hz1, View.ld_unit_zero (S := S2048x2048) hz1]
  funext j
  obtain ⟨p, n, rfl⟩ : ∃ (p : Fin 256) (n : Fin 2048), j = ix2 p n := ⟨j 0, j 1, eq_ix2 j⟩
  have ht : t.val < 16 := lt_of_lt_of_eq t.isLt N_1
  have hr : t.val * 256 + p.val < 4096 := by have := p.isLt; omega
  refine (k1_pay1_apply (iblk1 V c 0 t) (iblk1 V c 1 t) p n).trans ?_
  show _ = Cert.Spec.mulT (V c main_v7) (V c main_v1) (((cfg1.win 2).blk t).view.emb (ix2 p n))
  rw [emb1_2 t p n ⟨t.val * 256 + p.val, hr⟩ rfl]
  unfold Cert.Spec.mulT
  refine Finset.sum_congr rfl fun k _ => ?_
  have h0 : (iblk1 V c 0 t (ix2 p k) : EReal) = (V c main_v7 (ix2 ⟨t.val * 256 + p.val, hr⟩ k) : EReal) := by
    show (V c main_v7 (((cfg1.win 0).blk t).view.emb (ix2 p k)) : EReal) = _
    rw [emb1_0 t p k ⟨t.val * 256 + p.val, hr⟩ rfl]
  have h1 : (iblk1 V c 1 t (ix2 n k) : EReal) = (V c main_v1 (ix2 n k) : EReal) := by
    show (V c main_v1 (((cfg1.win 1).blk t).view.emb (ix2 n k)) : EReal) = _
    rw [emb1_1 t n k]
  exact congrArg₂ (· * ·) h0 h1

/-! ## The blocks cover the result -/

/-- An entry is in point `t`'s block iff each coordinate is in the block's range on its axis. -/
theorem mem_blk1 (t : Fin cfg1.N) (i : S4096x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v8).slice (win1_2.rect t)).set ↔ _
  rw [View.set_slice_whole, Rect.mem_set_unit]
  exact Iff.rfl

/-- Row `r` lies in the block of point `r / 256`. -/
theorem cover1 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  have hN : (i 0).val / 256 < cfg1.N := lt_of_lt_of_eq (show (i 0).val / 256 < 16 by omega) N_1.symm
  refine ⟨⟨(i 0).val / 256, hN⟩, flush1_2 _, ?_⟩
  rw [mem_blk1]
  obtain ⟨-, -, -, -, e4, e5⟩ := idx_facts1 ⟨(i 0).val / 256, hN⟩
  have e4' : win1_2.index ⟨(i 0).val / 256, hN⟩ (0 : Fin 2) = (i 0).val / 256 := e4
  intro a
  match a with
  | ⟨0, _⟩ => show win1_2.index ⟨(i 0).val / 256, hN⟩ (0 : Fin 2) * 256 ≤ (i 0).val ∧ (i 0).val < win1_2.index ⟨(i 0).val / 256, hN⟩ (0 : Fin 2) * 256 + 256; omega
  | ⟨1, _⟩ => show win1_2.index ⟨(i 0).val / 256, hN⟩ (1 : Fin 2) * 2048 ≤ (i 1).val ∧ (i 1).val < win1_2.index ⟨(i 0).val / 256, hN⟩ (1 : Fin 2) * 2048 + 2048; omega

/-! ## The result array after the region -/

/-- After the region the result array is the product of the rows and the weight. -/
theorem value1 (c : Dev nD) : ∀ j, (dat1 (F := Ideal) V c).arrAt 2 cfg1.N j = Cert.Spec.mulT (V c main_v7) (V c main_v1) j :=
  fun j => congrFun ((dat1 V c).arrAt_eq_of_cover 2 (Cert.Spec.mulT (V c main_v7) (V c main_v1)) (fun t _ => flushed1_eq V c t) cover1) j

end Cert.KernelIdeal.Val

end
-- ==== Proof.KI.Value2.lean ====
import proofs.«163206_j1571958030520_1_alg».proof.Proof.KI.Region2
import proofs.«163206_j1571958030520_1_alg».proof.Proof.KI.MatmulAt
import proofs.«163206_j1571958030520_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rgn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The second projection's result array

After the region's sixteen points the result array holds, at entry `(r, n)`, the sum over `k` of
`A r k · B n k` plus `X r n`, with `A` the first projection, `B` the weight and `X` the residual
stream as the region finds them: point `t` writes rows `256·t … 256·t + 255`, row `r` is written by
point `r / 256`, and the sixteen blocks cover the 4096 rows. -/

/-- The second projection's payload at an entry: the sum over `k` of `x0 p k · x1 n k`, plus the
    residual's entry. -/
theorem k2_pay1_apply (x0 : FVec Ideal S256x2048 .bf16) (x1 : FVec Ideal S2048x2048 .bf16) (x2 : FVec Ideal S256x2048 .f32) (p : Fin 256) (n : Fin 2048) :
    k2_pay1 (F := Ideal) x0 x1 x2 (ix2 p n) = (∑ k : Fin 2048, x0 (ix2 p k) * x1 (ix2 n k)) + x2 (ix2 p n) := by
  unfold k2_pay1
  refine (addf_apply _ _ _).trans ?_
  rw [shapeCast_self, shapeCast_self, shapeCast_self]
  exact congrArg (· + x2 (ix2 p n)) (matmul2048_zero_apply x0 x1 p n)

/-! ## The blocks' places in their arrays -/

theorem hz2 : (![0, 0] : Fin 2 → Nat) = fun _ => 0 := funext fun a => by fin_cases a <;> rfl

/-- The index maps over the grid: the row block, the residual block and the result block sit at
    block row `t`, block column `0`; the weight's one block at `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `(p, k)` of point `t`'s row block is entry `(256·t + p, k)` of the first projection. -/
theorem emb2_0 (t : Fin cfg2.N) (p : Fin 256) (k : Fin 2048) (r : Fin 4096) (hr : r.val = t.val * 256 + p.val) :
    ((cfg2.win 0).blk t).view.emb (ix2 p k) = (ix2 r k : S4096x2048.Idx) := by
  obtain ⟨e0, e1, -, -, -, -, -, -⟩ := idx_facts2 t
  funext a; apply Fin.ext
  match a with
  | ⟨0, _⟩ => show win2_0.index t (0 : Fin 2) * 256 + 1 * p.val = r.val; omega
  | ⟨1, _⟩ => show win2_0.index t (1 : Fin 2) * 2048 + 1 * k.val = k.val; omega

/-- The weight's block is the whole weight. -/
theorem emb2_1 (t : Fin cfg2.N) (n : Fin 2048) (k : Fin 2048) :
    ((cfg2.win 1).blk t).view.emb (ix2 n k) = (ix2 n k : S2048x2048.Idx) := by
  obtain ⟨-, -, e2, e3, -, -, -, -⟩ := idx_facts2 t
  funext a; apply Fin.ext
  match a with
  | ⟨0, _⟩ => show win2_1.index t (0 : Fin 2) * 2048 + 1 * n.val = n.val; omega
  | ⟨1, _⟩ => show win2_1.index t (1 : Fin 2) * 2048 + 1 * k.val = k.val; omega

/-- Entry `(p, n)` of point `t`'s residual block is entry `(256·t + p, n)` of the residual stream. -/
theorem emb2_2 (t : Fin cfg2.N) (p : Fin 256) (n : Fin 2048) (r : Fin 4096) (hr : r.val = t.val * 256 + p.val) :
    ((cfg2.win 2).blk t).view.emb (ix2 p n) = (ix2 r n : S4096x2048.Idx) := by
  obtain ⟨-, -, -, -, e4, e5, -, -⟩ := idx_facts2 t
  funext a; apply Fin.ext
  match a with
  | ⟨0, _⟩ => show win2_2.index t (0 : Fin 2) * 256 + 1 * p.val = r.val; omega
  | ⟨1, _⟩ => show win2_2.index t (1 : Fin 2) * 2048 + 1 * n.val = n.val; omega

/-- Entry `(p, n)` of point `t`'s result block is entry `(256·t + p, n)` of the result. -/
theorem emb2_3 (t : Fin cfg2.N) (p : Fin 256) (n : Fin 2048) (r : Fin 4096) (hr : r.val = t.val * 256 + p.val) :
    ((cfg2.win 3).blk t).view.emb (ix2 p n) = (ix2 r n : S4096x2048.Idx) := by
  obtain ⟨-, -, -, -, -, -, e6, e7⟩ := idx_facts2 t
  funext a; apply Fin.ext
  match a with
  | ⟨0, _⟩ => show win2_3.index t (0 : Fin 2) * 256 + 1 * p.val = r.val; omega
  | ⟨1, _⟩ => show win2_3.index t (1 : Fin 2) * 2048 + 1 * n.val = n.val; omega

/-! ## What a point writes back -/

/-- Point `t` writes back block `t` of the product of the whole arrays plus the residual stream. -/
theorem flushed2_eq (c : Dev nD) (t : Fin cfg2.N) :
    (dat2 V c).flushed 3 t = ((cfg2.win 3).blk t).view.read (Elt Ideal)
      (fun j => Cert.Spec.mulT (V c main_v8) (V c main_v2) j + V c main_v0 j) := by
  show (cfg2.win 3).cut (grid2.coords t) ((dat2 V c).after 3 t) = _
  rw [after2_3]
  unfold out2_3
  rw [View.canon_unit_zero hz2]
  simp only [View.ld_unit_zero (S := S256x2048) hz2, View.ld_unit_zero (S := S2048x2048) hz2]
  funext j
  obtain ⟨p, n, rfl⟩ : ∃ (p : Fin 256) (n : Fin 2048), j = ix2 p n := ⟨j 0, j 1, eq_ix2 j⟩
  have ht : t.val < 16 := lt_of_lt_of_eq t.isLt N_2
  have hr : t.val * 256 + p.val < 4096 := by have := p.isLt; omega
  refine (k2_pay1_apply (iblk2 V c 0 t) (iblk2 V c 1 t) (iblk2 V c 2 t) p n).trans ?_
  show _ = Cert.Spec.mulT (V c main_v8) (V c main_v2) (((cfg2.win 3).blk t).view.emb (ix2 p n))
      + (V c main_v0 (((cfg2.win 3).blk t).view.emb (ix2 p n)) : EReal)
  rw [emb2_3 t p n ⟨t.val * 256 + p.val, hr⟩ rfl]
  have hx : (iblk2 V c 2 t (ix2 p n) : EReal) = (V c main_v0 (ix2 ⟨t.val * 256 + p.val, hr⟩ n) : EReal) := by
    show (V c main_v0 (((cfg2.win 2).blk t).view.emb (ix2 p n)) : EReal) = _
    rw [emb2_2 t p n ⟨t.val * 256 + p.val, hr⟩ rfl]
  refine congrArg₂ (· + ·) ?_ hx
  unfold Cert.Spec.mulT
  refine Finset.sum_congr rfl fun k _ => ?_
  have h0 : (iblk2 V c 0 t (ix2 p k) : EReal) = (V c main_v8 (ix2 ⟨t.val * 256 + p.val, hr⟩ k) : EReal) := by
    show (V c main_v8 (((cfg2.win 0).blk t).view.emb (ix2 p k)) : EReal) = _
    rw [emb2_0 t p k ⟨t.val * 256 + p.val, hr⟩ rfl]
  have h1 : (iblk2 V c 1 t (ix2 n k) : EReal) = (V c main_v2 (ix2 n k) : EReal) := by
    show (V c main_v2 (((cfg2.win 1).blk t).view.emb (ix2 n k)) : EReal) = _
    rw [emb2_1 t n k]
  exact congrArg₂ (· * ·) h0 h1

/-! ## The blocks cover the result -/

/-- An entry is in point `t`'s block iff each coordinate is in the block's range on its axis. -/
theorem mem_blk2 (t : Fin cfg2.N) (i : S4096x2048.Idx) :
    i ∈ ((cfg2.win 3).blk t).view.set ↔ ∀ a : Fin 2, win2_3.index t a * S256x2048.size a ≤ (i a).val ∧ (i a).val < win2_3.index t a * S256x2048.size a + S256x2048.size a := by
  show i ∈ ((View.whole main_v9).slice (win2_3.rect t)).set ↔ _
  rw [View.set_slice_whole, Rect.mem_set_unit]
  exact Iff.rfl

/-- Row `r` lies in the block of point `r / 256`. -/
theorem cover2 (i : S4096x2048.Idx) : ∃ t : Fin cfg2.N, (cfg2.win 3).flush t = true ∧ i ∈ ((cfg2.win 3).blk t).view.set := by
  have hi0 : (i 0).val < 4096 := (i 0).isLt
  have hi1 : (i 1).val < 2048 := (i 1).isLt
  have hN : (i 0).val / 256 < cfg2.N := lt_of_lt_of_eq (show (i 0).val / 256 < 16 by omega) N_2.symm
  refine ⟨⟨(i 0).val / 256, hN⟩, flush2_3 _, ?_⟩
  rw [mem_blk2]
  obtain ⟨-, -, -, -, -, -, e6, e7⟩ := idx_facts2 ⟨(i 0).val / 256, hN⟩
  have e6' : win2_3.index ⟨(i 0).val / 256, hN⟩ (0 : Fin 2) = (i 0).val / 256 := e6
  intro a
  match a with
  | ⟨0, _⟩ => show win2_3.index ⟨(i 0).val / 256, hN⟩ (0 : Fin 2) * 256 ≤ (i 0).val ∧ (i 0).val < win2_3.index ⟨(i 0).val / 256, hN⟩ (0 : Fin 2) * 256 + 256; omega
  | ⟨1, _⟩ => show win2_3.index ⟨(i 0).val / 256, hN⟩ (1 : Fin 2) * 2048 ≤ (i 1).val ∧ (i 1).val < win2_3.index ⟨(i 0).val / 256, hN⟩ (1 : Fin 2) * 2048 + 2048; omega

/-! ## The result array after the region -/

/-- After the region the result array is the product of the first projection and the weight, plus
    the residual stream. -/
theorem value2 (c : Dev nD) : ∀ j, (dat2 (F := Ideal) V c).arrAt 3 cfg2.N j
    = (fun j => Cert.Spec.mulT (V c main_v8) (V c main_v2) j + V c main_v0 j) j :=
  fun j => congrFun ((dat2 V c).arrAt_eq_of_cover 3 (fun j => Cert.Spec.mulT (V c main_v8) (V c main_v2) j + V c main_v0 j)
    (fun t _ => flushed2_eq V c t) cover2) j

end Cert.KernelIdeal.Val

end
-- ==== Proof.KI.Value3.lean ====
import proofs.«163206_j1571958030520_1_alg».proof.Proof.KI.Region3
import proofs.«163206_j1571958030520_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The second row-normalisation launch, read as values over the extended reals: after its sixteen points the output
array holds `Cert.Spec.rms` of the rows' array and the weight row as the launch finds them.

Point `t` works on rows `256 t … 256 t + 255`. Entry `(p, q)` of what it writes depends on entry `(p, q)` of its block
of rows, on the whole of row `p` of that block (through the row's sum of squares) and on entry `q` of the weight row;
these are entry `(256 t + p, q)`, row `256 t + p` and the weight row's entry `q` of the whole arrays, which is what
`Cert.Spec.rms` reads at `(256 t + p, q)`. The sixteen blocks of rows tile the array, so the array is `rms` everywhere.
Changing the float format at the end does nothing over the extended reals.
-/

set_option maxRecDepth 16384

noncomputable section

namespace Cert.KernelIdeal.Val

open Cert.KernelIdeal Cert.KernelIdeal.Gen Cert.KernelIdeal.Rgn Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The body's arithmetic at an entry -/

/-- A vector of length `a` cast to a column `[a, 1]` reads, at `(i, u)`, the vector at `i`. -/
theorem shapeCast3_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo3_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of the squares of a block's rows, at row `p`: the sum over the row's 2048 entries. -/
theorem laneSum3_sq_apply (x0 : FVec Ideal S256x2048 .f32) (p : Fin 256) :
    (multiReduction (F := Ideal) .add [1] S256 (mulf x0 x0) 0x00000000#32 reduces_S256x2048_S256 (.inl rfl) rfl : FVec Ideal S256 .f32) (ix1 p)
      = ∑ k : Fin 2048, x0 (ix2 p k) * x0 (ix2 p k) := by
  refine (Ideal.multiReduction_add_single (mulf x0 x0) 0x00000000#32 reduces_S256x2048_S256 (.inl rfl) rfl (ix1 p)).trans ?_
  show ∑ k : Fin 2048, mulf x0 x0 (reduces_S256x2048_S256.lift (ix1 p) k) = _
  refine Finset.sum_congr rfl fun k _ => ?_
  have e : reduces_S256x2048_S256.lift (ix1 p) k = ix2 p k := by
    funext a; apply Fin.ext
    match a with
    | ⟨0, _⟩ => rfl
    | ⟨1, _⟩ => rfl
  rw [e]; rfl

/-- The body's result at entry `(p, q)` of the block: the entry times the reciprocal root of (the row's mean
    square plus the small number), times the weight row's entry `q`. -/
theorem pay3_apply (x0 : Vec Ideal S256x2048 .f32) (x1 : Vec Ideal S1x2048 .f32) (p : Fin 256) (q : Fin 2048) :
    (k3_pay1 (F := Ideal) x0 x1) (ix2 p q)
      = x0 (ix2 p q) * Ideal.rsqrt (Ideal.div (∑ k : Fin 2048, x0 (ix2 p k) * x0 (ix2 p k)) Cert.Spec.rowLen + Cert.Spec.tiny) * x1 (ix2 (0 : Fin 1) q) := by
  unfold k3_pay1
  simp only [shapeCast_self]
  refine (truncf_apply (ψ := .bf16) _ bitsLt_bf16_f32 (ix2 p q)).trans ?_
  refine (mulf_apply _ _ (ix2 p q)).trans ?_
  refine congrArg₂ (· * ·) ?_ (broadcastTo_1b_ab_apply x1 broadcasts_S1x2048_S256x2048 p q)
  refine (mulf_apply _ _ (ix2 p q)).trans ?_
  refine congrArg (x0 (ix2 p q) * ·) ?_
  refine (broadcastTo3_a1_ab_apply _ broadcasts_S256x1_S256x2048 p q).trans ?_
  show Ideal.rsqrt (Ideal.div (shapeCast S256x1 _ shapeCasts_S256_S256x1 (ix2 p (0 : Fin 1))) Cert.Spec.rowLen + Cert.Spec.tiny) = _
  refine congrArg (fun s => Ideal.rsqrt (Ideal.div s Cert.Spec.rowLen + Cert.Spec.tiny)) ?_
  refine (shapeCast3_a_a1_apply _ shapeCasts_S256_S256x1 p (0 : Fin 1)).trans ?_
  exact laneSum3_sq_apply x0 p

/-- The body's result at an entry is the row normalisation of a whole array there, once the block's entry, its
    row and the weight row's entry are the array's. -/
theorem pay3_eq_rms (X : Cert.Spec.Arr2 4096 2048) (W : Cert.Spec.Arr2 1 2048) (x0 : Vec Ideal S256x2048 .f32) (x1 : Vec Ideal S1x2048 .f32)
    (p : Fin 256) (q : Fin 2048) (i : (⟨2, ![4096, 2048]⟩ : Shape).Idx)
    (hx : x0 (ix2 p q) = X i) (hrow : ∀ k : Fin 2048, x0 (ix2 p k) = X (ix2 (i 0) k)) (hw : x1 (ix2 (0 : Fin 1) q) = W (ix2 (0 : Fin 1) (i 1))) :
    (k3_pay1 (F := Ideal) x0 x1) (ix2 p q) = Cert.Spec.rms X W i := by
  rw [pay3_apply, hx, hw]
  unfold Cert.Spec.rms Cert.Spec.sumSq
  simp only [hrow]

/-! ## From the sixteen blocks to the array -/

theorem hz3 : (![0, 0] : Fin 2 → Nat) = fun _ => 0 := funext fun a => by fin_cases a <;> rfl

/-- The printed index maps over the sixteen points: the rows' window and the output's window are at block `(t, 0)`,
    the weight row's window stays at block `(0, 0)`. -/
theorem hidx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the row normalisation of the two arrays as the launch finds them. -/
theorem flushed3_eq (c : Dev nD) (t : Fin cfg3.N) :
    (dat3 (F := Ideal) V c).flushed 2 t
      = ((cfg3.win 2).blk t).view.read (Elt Ideal) (Cert.Spec.rms (V c main_v9) (V c main_v10)) := by
  show (cfg3.win 2).cut (grid3.coords t) ((dat3 V c).after 2 t) = _
  rw [after3_2]
  unfold out3_2
  rw [View.canon_unit_zero hz3]
  simp only [View.ld_unit_zero (S := S256x2048) hz3, View.ld_unit_zero (S := S1x2048) hz3]
  obtain ⟨e0, e1, e2, e3, e4, e5⟩ := hidx3 t
  funext y
  obtain ⟨p, q, rfl⟩ : ∃ (p : Fin 256) (q : Fin 2048), y = ix2 p q := ⟨y 0, y 1, eq_ix2 y⟩
  show k3_pay1 (F := Ideal) (iblk3 V c 0 t) (iblk3 V c 1 t) (ix2 p q)
    = Cert.Spec.rms (V c main_v9) (V c main_v10) (((cfg3.win 2).blk t).view.emb (ix2 p q))
  refine pay3_eq_rms (V c main_v9) (V c main_v10) (iblk3 V c 0 t) (iblk3 V c 1 t) p q (((cfg3.win 2).blk t).view.emb (ix2 p q)) ?_ ?_ ?_
  · show V c main_v9 (((cfg3.win 0).blk t).view.emb (ix2 p q)) = V c main_v9 (((cfg3.win 2).blk t).view.emb (ix2 p q))
    refine congrArg _ (funext fun a => Fin.ext ?_)
    match a with
    | ⟨0, _⟩ => show win3_0.index t (0 : Fin 2) * 256 + 1 * p.val = win3_2.index t (0 : Fin 2) * 256 + 1 * p.val; omega
    | ⟨1, _⟩ => show win3_0.index t (1 : Fin 2) * 2048 + 1 * q.val = win3_2.index t (1 : Fin 2) * 2048 + 1 * q.val; omega
  · intro k
    show V c main_v9 (((cfg3.win 0).blk t).view.emb (ix2 p k)) = V c main_v9 (ix2 ((((cfg3.win 2).blk t).view.emb (ix2 p q)) 0) k)
    refine congrArg _ (funext fun a => Fin.ext ?_)
    match a with
    | ⟨0, _⟩ => show win3_0.index t (0 : Fin 2) * 256 + 1 * p.val = win3_2.index t (0 : Fin 2) * 256 + 1 * p.val; omega
    | ⟨1, _⟩ => show win3_0.index t (1 : Fin 2) * 2048 + 1 * k.val = k.val; omega
  · show V c main_v10 (((cfg3.win 1).blk t).view.emb (ix2 (0 : Fin 1) q)) = V c main_v10 (ix2 (0 : Fin 1) ((((cfg3.win 2).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 2048 + 1 * q.val = win3_2.index t (1 : Fin 2) * 2048 + 1 * q.val; omega

/-- An entry of the output array is in point `t`'s block iff each coordinate is in the block's range on its axis. -/
theorem mem_blk3 (t : Fin cfg3.N) (i : S4096x2048.Idx) :
    i ∈ ((cfg3.win 2).blk t).view.set ↔ ∀ a : Fin 2, win3_2.index t a * S256x2048.size a ≤ (i a).val ∧ (i a).val < win3_2.index t a * S256x2048.size a + S256x2048.size a := by
  show i ∈ ((View.whole main_v11).slice (win3_2.rect t)).set ↔ _
  rw [View.set_slice_whole, Rect.mem_set_unit]
  exact Iff.rfl

/-- Every entry of the output array is written back by some point: row `r` by point `r / 256`. -/
theorem covered3 (i : S4096x2048.Idx) : ∃ t : Fin cfg3.N, (cfg3.win 2).flush t = true ∧ i ∈ ((cfg3.win 2).blk t).view.set := by
  have hN : cfg3.N = 16 := N_3
  have h0 : (i 0).val < 4096 := (i 0).isLt
  have h1 : (i 1).val < 2048 := (i 1).isLt
  have ht : (i 0).val / 256 < cfg3.N := by rw [hN]; omega
  obtain ⟨-, -, -, -, e4, e5⟩ := hidx3 ⟨(i 0).val / 256, ht⟩
  refine ⟨⟨(i 0).val / 256, ht⟩, flush3_2 _, ?_⟩
  rw [mem_blk3]
  intro a
  match a with
  | ⟨0, _⟩ =>
    show win3_2.index ⟨(i 0).val / 256, ht⟩ (0 : Fin 2) * 256 ≤ (i 0).val ∧ (i 0).val < win3_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win3_2.index ⟨(i 0).val / 256, ht⟩ (1 : Fin 2) * 2048 ≤ (i 1).val ∧ (i 1).val < win3_2.index ⟨(i 0).val / 256, ht⟩ (1 : Fin 2) * 2048 + 2048
    rw [e5]; omega

/-- The output array after the launch is the row normalisation of the rows' array by the weight row. -/
theorem value3 (c : Dev nD) : ∀ j, (dat3 (F := Ideal) V c).arrAt 2 cfg3.N j = Cert.Spec.rms (V c main_v9) (V c main_v10) j :=
  fun j => congrFun ((dat3 (F := Ideal) V c).arrAt_eq_of_cover 2 (Cert.Spec.rms (V c main_v9) (V c main_v10))
    (fun t _ => flushed3_eq V c t) covered3) j

end Cert.KernelIdeal.Val

end
-- ==== Proof.KI.Pay4.lean ====
import proofs.«163206_j1571958030520_1_alg».proof.Proof.Gen.KernelIdeal.Skeleton
import Idealize.ShloMosaic.Lib.Pipeline.Value
import Idealize.ShloMosaic.Lib.ValueIdx
import Idealize.ShloMosaic.PureOps.Ideal.Laws

/-!
The arithmetic of the gated pair of matrix products, read entry by entry over the extended reals.

One grid point multiplies a `128 × 256` block `a` of the left factor with a `10944 × 256` block `b`
of a right factor, both contracted along their second axis, and adds the product to a running
`128 × 10944` total: entry `(r, n)` of the new total is the old entry plus
`∑ k < 256, a (r, k) * b (n, k)`. The first of eight such points starts from the zero block. The
last one combines the two finished totals `g`, `u` into `g * σ(g) * u`, `σ` the logistic function.
A change of float format is the identity on extended reals, so none appears below.
-/

noncomputable section

namespace Cert.KernelIdeal.Val

open Cert.KernelIdeal Cert.KernelIdeal.Gen Idealize.ShloMosaic Idealize.ShloMosaic.ValueIdx

/-! ### The operand indices of the block product -/

/-- The left operand is read in the row of the output entry … -/
theorem lhs4_0 (i : S128x10944.Idx) (q : dot_S128x256_S10944x256_S128x10944_1_1_0_0_n_n.contr.Idx) :
    (dot_S128x256_S10944x256_S128x10944_1_1_0_0_n_n.lhsIdx i q 0).val = (i 0).val := by
  unfold DotDims.lhsIdx
  rw [dif_neg (show ¬(0 : Fin S128x256.rank) ∈ dot_S128x256_S10944x256_S128x10944_1_1_0_0_n_n.lhsBatch by decide), dif_pos (show (0 : Fin S128x256.rank) ∈ dot_S128x256_S10944x256_S128x10944_1_1_0_0_n_n.lhsNonContracting by decide)]
  rfl
/-- … at the contracted place; -/
theorem lhs4_1 (i : S128x10944.Idx) (q : dot_S128x256_S10944x256_S128x10944_1_1_0_0_n_n.contr.Idx) :
    (dot_S128x256_S10944x256_S128x10944_1_1_0_0_n_n.lhsIdx i q 1).val = (q ⟨0, by decide⟩).val :=
  dot_S128x256_S10944x256_S128x10944_1_1_0_0_n_n.lhsIdx_val_of_single rfl i q
/-- the right operand in the row numbered by the output entry's column … -/
theorem rhs4_0 (i : S128x10944.Idx) (q : dot_S128x256_S10944x256_S128x10944_1_1_0_0_n_n.contr.Idx) :
    (dot_S128x256_S10944x256_S128x10944_1_1_0_0_n_n.rhsIdx i q 0).val = (i 1).val := by
  unfold DotDims.rhsIdx
  rw [dif_neg (show ¬(0 : Fin S10944x256.rank) ∈ dot_S128x256_S10944x256_S128x10944_1_1_0_0_n_n.rhsBatch by decide), dif_pos (show (0 : Fin S10944x256.rank) ∈ dot_S128x256_S10944x256_S128x10944_1_1_0_0_n_n.rhsNonContracting by decide)]
  rfl
/-- … at the contracted place. -/
theorem rhs4_1 (i : S128x10944.Idx) (q : dot_S128x256_S10944x256_S128x10944_1_1_0_0_n_n.contr.Idx) :
    (dot_S128x256_S10944x256_S128x10944_1_1_0_0_n_n.rhsIdx i q 1).val = (q ⟨0, by decide⟩).val :=
  dot_S128x256_S10944x256_S128x10944_1_1_0_0_n_n.rhsIdx_val_of_single rfl i q

/-! ### One block product, and the step of the running total -/

/-- Entry `(r, n)` of `a · bᵀ` for one pair of blocks: the contraction over the block's `256` places. -/
def blockDot (a : FVec Ideal S128x256 .bf16) (b : FVec Ideal S10944x256 .bf16) (r : Fin 128) (n : Fin 10944) : EReal :=
  ∑ k : Fin 256, a (ix2 r k) * b (ix2 n k)

/-- The matrix unit's product into the zero block is that contraction. -/
theorem matmul4_apply (a : FVec Ideal S128x256 .bf16) (b : FVec Ideal S10944x256 .bf16) (r : Fin 128) (n : Fin 10944) :
    FloatOps.matmul dot_S128x256_S10944x256_S128x10944_1_1_0_0_n_n none a b (constant S128x10944 .f32 0x00000000#32) (ix2 r n) = blockDot a b r n := by
  rw [Ideal.matmul_constant_zero_apply, ← Equiv.sum_comp (ValueIdx.contrEquiv1 dot_S128x256_S10944x256_S128x10944_1_1_0_0_n_n 256 rfl rfl).symm]
  unfold blockDot
  refine Finset.sum_congr rfl fun k _ => ?_
  have hk := ValueIdx.contrEquiv1_symm_val dot_S128x256_S10944x256_S128x10944_1_1_0_0_n_n 256 rfl rfl k
  have el : dot_S128x256_S10944x256_S128x10944_1_1_0_0_n_n.lhsIdx (ix2 r n) ((ValueIdx.contrEquiv1 dot_S128x256_S10944x256_S128x10944_1_1_0_0_n_n 256 rfl rfl).symm k) = ix2 r k := funext fun a => Fin.ext (by
    match a with
    | ⟨0, _⟩ => exact lhs4_0 _ _
    | ⟨1, _⟩ => exact (lhs4_1 _ _).trans hk)
  have er : dot_S128x256_S10944x256_S128x10944_1_1_0_0_n_n.rhsIdx (ix2 r n) ((ValueIdx.contrEquiv1 dot_S128x256_S10944x256_S128x10944_1_1_0_0_n_n 256 rfl rfl).symm k) = ix2 n k := funext fun a => Fin.ext (by
    match a with
    | ⟨0, _⟩ => exact rhs4_0 _ _
    | ⟨1, _⟩ => exact (rhs4_1 _ _).trans hk)
  rw [el, er]

/-- The step of the first running total: the old entry plus the block product. -/
theorem pay4_3_apply (acc : FVec Ideal S128x10944 .f32) (a : FVec Ideal S128x256 .bf16) (b : FVec Ideal S10944x256 .bf16)
    (r : Fin 128) (n : Fin 10944) :
    k4_pay3 (F := Ideal) acc a b (ix2 r n) = acc (ix2 r n) + blockDot a b r n := by
  unfold k4_pay3
  simp only [shapeCast_self]
  exact congrArg (acc (ix2 r n) + ·) (matmul4_apply a b r n)

/-- The step of the second running total: the same. -/
theorem pay4_4_apply (acc : FVec Ideal S128x10944 .f32) (a : FVec Ideal S128x256 .bf16) (b : FVec Ideal S10944x256 .bf16)
    (r : Fin 128) (n : Fin 10944) :
    k4_pay4 (F := Ideal) acc a b (ix2 r n) = acc (ix2 r n) + blockDot a b r n := by
  unfold k4_pay4
  simp only [shapeCast_self]
  exact congrArg (acc (ix2 r n) + ·) (matmul4_apply a b r n)

/-- The block the first of the eight points starts the first total from is zero everywhere … -/
theorem pay4_1_apply (j : S128x10944.Idx) : k4_pay1 (F := Ideal) j = 0 := by
  unfold k4_pay1
  simp only [shapeCast_self]
  exact Ideal.ofBits_zero_f32
/-- … and so is the one it starts the second total from. -/
theorem pay4_2_apply (j : S128x10944.Idx) : k4_pay2 (F := Ideal) j = 0 := by
  unfold k4_pay2
  simp only [shapeCast_self]
  exact Ideal.ofBits_zero_f32

/-- What the last of the eight points stores: `g * σ(g) * u` entry by entry. -/
theorem pay4_5_apply (g u : FVec Ideal S128x10944 .f32) (j : S128x10944.Idx) :
    k4_pay5 (F := Ideal) g u j = g j * Ideal.logistic (g j) * u j := rfl

end Cert.KernelIdeal.Val

end
-- ==== Proof.KI.Sum8.lean ====
import Idealize.ShloMosaic.PureOps.Ideal
import Mathlib.Algebra.BigOperators.Fin
import Mathlib.Data.Fintype.BigOperators
import Mathlib.Logic.Equiv.Fin.Basic

/-!
Two laws of finite sums over the extended reals, used for a contraction of length `2048` that is
carried out as eight partial contractions of length `256`, added one after another into a running
total that is reset to zero at the first of the eight.

Both use only that addition on the extended reals is associative and commutative with unit `0`;
nothing here needs a summand to be finite.
-/

noncomputable section

namespace Cert.Sum8

/-- Regrouping: a sum over `k < 2048` is the sum over the eight blocks `b` of the sums over the
`256` places `j` of block `b`, place `j` of block `b` being `k = 256 * b + j`. -/
theorem sum_blocks (f : Fin 2048 → EReal) :
    ∑ b : Fin 8, ∑ j : Fin 256, f ⟨256 * b.val + j.val, by omega⟩ = ∑ k : Fin 2048, f k := by
  rw [← Equiv.sum_comp (finProdFinEquiv : Fin 8 × Fin 256 ≃ Fin 2048) f, Fintype.sum_prod_type]
  refine Finset.sum_congr rfl fun b _ => Finset.sum_congr rfl fun j _ => congrArg f (Fin.ext ?_)
  show 256 * b.val + j.val = j.val + 256 * b.val
  omega

/-- The running total over one group of eight steps. A sequence that at step `8 * i` restarts from its
summand, and at each of the seven steps after it adds the step's summand to what it had, holds after
the eight steps `8 * i, …, 8 * i + 7` the sum of their eight summands. Nothing is asked of any other
step. -/
theorem fold8 (s p : ℕ → EReal) (i : ℕ)
    (hfirst : s (8 * i + 1) = p (8 * i))
    (hnext : ∀ b, 0 < b → b < 8 → s (8 * i + b + 1) = s (8 * i + b) + p (8 * i + b)) :
    s (8 * i + 8) = ∑ b : Fin 8, p (8 * i + b.val) := by
  have e2 : s (8 * i + 2) = s (8 * i + 1) + p (8 * i + 1) := hnext 1 (by omega) (by omega)
  have e3 : s (8 * i + 3) = s (8 * i + 2) + p (8 * i + 2) := hnext 2 (by omega) (by omega)
  have e4 : s (8 * i + 4) = s (8 * i + 3) + p (8 * i + 3) := hnext 3 (by omega) (by omega)
  have e5 : s (8 * i + 5) = s (8 * i + 4) + p (8 * i + 4) := hnext 4 (by omega) (by omega)
  have e6 : s (8 * i + 6) = s (8 * i + 5) + p (8 * i + 5) := hnext 5 (by omega) (by omega)
  have e7 : s (8 * i + 7) = s (8 * i + 6) + p (8 * i + 6) := hnext 6 (by omega) (by omega)
  have e8 : s (8 * i + 8) = s (8 * i + 7) + p (8 * i + 7) := hnext 7 (by omega) (by omega)
  rw [e8, e7, e6, e5, e4, e3, e2, hfirst, Fin.sum_univ_eight]
  rfl

end Cert.Sum8

end
-- ==== Proof.KI.Value4.lean ====
import proofs.«163206_j1571958030520_1_alg».proof.Proof.KI.Region4
import proofs.«163206_j1571958030520_1_alg».proof.Proof.KI.Pay4
import proofs.«163206_j1571958030520_1_alg».proof.Proof.KI.Sum8
import proofs.«163206_j1571958030520_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The value of the gated pair of matrix products, over the extended reals.

The call runs on a grid of `32 × 8` points, point `t = 8 i + k`. It reads rows `128 i … 128 i + 127`,
columns `256 k … 256 k + 255` of the normalised rows `X` (`4096 × 2048`) and the same columns of all
`10944` rows of two weight matrices `Wg`, `Wu`, and adds the two block products to two running totals
that the first point of each row block (`k = 0`) starts from zero. So after the eight points of row
block `i` entry `(r, n)` of the first total is
`∑ b < 8, ∑ j < 256, X (128 i + r, 256 b + j) * Wg (n, 256 b + j)`, which regrouped is the contraction
over all `2048` columns, entry `(128 i + r, n)` of `X · Wgᵀ`; the second total likewise with `Wu`. The
last point (`k = 7`) stores `g * σ(g) * u` of the two totals as rows `128 i … 128 i + 127` of the result,
and only that point writes the result's block back. Every entry `(R, n)` of the result is therefore
written, by point `8 (R / 128) + 7`, with the gated product at `(R, n)`.

Only associativity and commutativity of addition are used to regroup: no entry need be finite.
-/

set_option maxRecDepth 16384

noncomputable section

namespace Cert.KernelIdeal.Val

open Cert.KernelIdeal Cert.KernelIdeal.Gen Cert.KernelIdeal.Rgn Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

/-! ## Where the windows sit -/

/-- The printed index maps over the grid: at point `t = 8 i + k` the row block of the normalised rows is block
`(i, k)`, each weight block is block `(0, k)`, and the result's block is block `(i, 0)`. -/
theorem idx4 : ∀ t : Fin cfg4.N, win4_0.index t (0 : Fin 2) = t.val / 8 ∧ win4_0.index t (1 : Fin 2) = t.val % 8
    ∧ win4_1.index t (0 : Fin 2) = 0 ∧ win4_1.index t (1 : Fin 2) = t.val % 8
    ∧ win4_2.index t (0 : Fin 2) = 0 ∧ win4_2.index t (1 : Fin 2) = t.val % 8
    ∧ win4_3.index t (0 : Fin 2) = t.val / 8 ∧ win4_3.index t (1 : Fin 2) = 0 :=
  (by decide +kernel : ∀ t : Fin grid4.N, _)

/-- The three arrays the call reads, at their literal shapes. -/
abbrev xarr (c : Dev nD) : FVec Ideal S4096x2048 .bf16 := V c main_v11
abbrev wgarr (c : Dev nD) : FVec Ideal S10944x2048 .bf16 := V c main_v3
abbrev wuarr (c : Dev nD) : FVec Ideal S10944x2048 .bf16 := V c main_v4

/-- Entry `(r, k)` of the row block at point `t` is entry `(128 (t / 8) + r, 256 (t % 8) + k)` of the rows. -/
theorem xblk4_apply (c : Dev nD) (t : Fin cfg4.N) (r : Fin 128) (k : Fin 256) (i : S4096x2048.Idx)
    (h0 : (i 0).val = 128 * (t.val / 8) + r.val) (h1 : (i 1).val = 256 * (t.val % 8) + k.val) :
    xblk4 V c t (ix2 r k) = xarr V c i := by
  show V c main_v11 (((cfg4.win 0).blk t).view.emb (ix2 r k)) = V c main_v11 i
  refine congrArg _ (funext fun a => Fin.ext ?_)
  obtain ⟨e0, e1, -⟩ := idx4 t
  match a with
  | ⟨0, _⟩ => show win4_0.index t (0 : Fin 2) * 128 + 1 * r.val = (i 0).val; omega
  | ⟨1, _⟩ => show win4_0.index t (1 : Fin 2) * 256 + 1 * k.val = (i 1).val; omega

/-- Entry `(n, k)` of the first weight block at point `t` is entry `(n, 256 (t % 8) + k)` of that weight matrix. -/
theorem gblk4_apply (c : Dev nD) (t : Fin cfg4.N) (n : Fin 10944) (k : Fin 256) (i : S10944x2048.Idx)
    (h0 : (i 0).val = n.val) (h1 : (i 1).val = 256 * (t.val % 8) + k.val) :
    gblk4 V c t (ix2 n k) = wgarr V c i := by
  show V c main_v3 (((cfg4.win 1).blk t).view.emb (ix2 n k)) = V c main_v3 i
  refine congrArg _ (funext fun a => Fin.ext ?_)
  obtain ⟨-, -, e0, e1, -⟩ := idx4 t
  match a with
  | ⟨0, _⟩ => show win4_1.index t (0 : Fin 2) * 10944 + 1 * n.val = (i 0).val; omega
  | ⟨1, _⟩ => show win4_1.index t (1 : Fin 2) * 256 + 1 * k.val = (i 1).val; omega

/-- The same for the second weight matrix. -/
theorem ublk4_apply (c : Dev nD) (t : Fin cfg4.N) (n : Fin 10944) (k : Fin 256) (i : S10944x2048.Idx)
    (h0 : (i 0).val = n.val) (h1 : (i 1).val = 256 * (t.val % 8) + k.val) :
    ublk4 V c t (ix2 n k) = wuarr V c i := by
  show V c main_v4 (((cfg4.win 2).blk t).view.emb (ix2 n k)) = V c main_v4 i
  refine congrArg _ (funext fun a => Fin.ext ?_)
  obtain ⟨-, -, -, -, e0, e1, -⟩ := idx4 t
  match a with
  | ⟨0, _⟩ => show win4_2.index t (0 : Fin 2) * 10944 + 1 * n.val = (i 0).val; omega
  | ⟨1, _⟩ => show win4_2.index t (1 : Fin 2) * 256 + 1 * k.val = (i 1).val; omega

/-! ## The running totals are the full contractions -/

/-- One point's contribution to entry `(r, n)` of the first total (zero past the grid, where nothing is read). -/
def stepG (c : Dev nD) (r : Fin 128) (n : Fin 10944) (m : ℕ) : EReal :=
  if h : m < cfg4.N then blockDot (xblk4 V c ⟨m, h⟩) (gblk4 V c ⟨m, h⟩) r n else 0
/-- One point's contribution to entry `(r, n)` of the second total. -/
def stepU (c : Dev nD) (r : Fin 128) (n : Fin 10944) (m : ℕ) : EReal :=
  if h : m < cfg4.N then blockDot (xblk4 V c ⟨m, h⟩) (ublk4 V c ⟨m, h⟩) r n else 0

/-- After the eight points of row block `i` the first total's entry `(r, n)` is the sum of their eight contributions:
the first point adds its own to zero, each later one to what the point before left. -/
theorem accG_block (c : Dev nD) (i : ℕ) (hi : i < 32) (r : Fin 128) (n : Fin 10944) :
    accG V c (8 * i + 8) (ix2 r n) = ∑ b : Fin 8, stepG V c r n (8 * i + b.val) := by
  have hN : cfg4.N = 256 := N_4
  refine Cert.Sum8.fold8 (fun m => accG V c m (ix2 r n)) (stepG V c r n) i ?_ ?_
  · have h : 8 * i < cfg4.N := by omega
    have e : accG V c (8 * i + 1) = k4_pay3 (k4_pay1 (F := Ideal)) (xblk4 V c ⟨8 * i, h⟩) (gblk4 V c ⟨8 * i, h⟩) :=
      accG_zero_case V c ⟨8 * i, h⟩ (by show 8 * i % 8 = 0; omega)
    show accG V c (8 * i + 1) (ix2 r n) = stepG V c r n (8 * i)
    refine (congrFun e (ix2 r n)).trans ?_
    refine (pay4_3_apply _ _ _ r n).trans ?_
    rw [pay4_1_apply, zero_add]
    unfold stepG
    rw [dif_pos h]
  · intro b hb0 hb8
    have h : 8 * i + b < cfg4.N := by omega
    have e : accG V c (8 * i + b + 1) = k4_pay3 (accG V c (8 * i + b)) (xblk4 V c ⟨8 * i + b, h⟩) (gblk4 V c ⟨8 * i + b, h⟩) :=
      accG_succ_case V c ⟨8 * i + b, h⟩ (by show (8 * i + b) % 8 ≠ 0; omega)
    show accG V c (8 * i + b + 1) (ix2 r n) = accG V c (8 * i + b) (ix2 r n) + stepG V c r n (8 * i + b)
    refine (congrFun e (ix2 r n)).trans ?_
    refine (pay4_3_apply _ _ _ r n).trans ?_
    unfold stepG
    rw [dif_pos h]

/-- The second total likewise. -/
theorem accU_block (c : Dev nD) (i : ℕ) (hi : i < 32) (r : Fin 128) (n : Fin 10944) :
    accU V c (8 * i + 8) (ix2 r n) = ∑ b : Fin 8, stepU V c r n (8 * i + b.val) := by
  have hN : cfg4.N = 256 := N_4
  refine Cert.Sum8.fold8 (fun m => accU V c m (ix2 r n)) (stepU V c r n) i ?_ ?_
  · have h : 8 * i < cfg4.N := by omega
    have e : accU V c (8 * i + 1) = k4_pay4 (k4_pay2 (F := Ideal)) (xblk4 V c ⟨8 * i, h⟩) (ublk4 V c ⟨8 * i, h⟩) :=
      accU_zero_case V c ⟨8 * i, h⟩ (by show 8 * i % 8 = 0; omega)
    show accU V c (8 * i + 1) (ix2 r n) = stepU V c r n (8 * i)
    refine (congrFun e (ix2 r n)).trans ?_
    refine (pay4_4_apply _ _ _ r n).trans ?_
    rw [pay4_2_apply, zero_add]
    unfold stepU
    rw [dif_pos h]
  · intro b hb0 hb8
    have h : 8 * i + b < cfg4.N := by omega
    have e : accU V c (8 * i + b + 1) = k4_pay4 (accU V c (8 * i + b)) (xblk4 V c ⟨8 * i + b, h⟩) (ublk4 V c ⟨8 * i + b, h⟩) :=
      accU_succ_case V c ⟨8 * i + b, h⟩ (by show (8 * i + b) % 8 ≠ 0; omega)
    show accU V c (8 * i + b + 1) (ix2 r n) = accU V c (8 * i + b) (ix2 r n) + stepU V c r n (8 * i + b)
    refine (congrFun e (ix2 r n)).trans ?_
    refine (pay4_4_apply _ _ _ r n).trans ?_
    unfold stepU
    rw [dif_pos h]

/-- The eight contributions of row block `i` are the eight blocks of `256` of the contraction over all `2048`
columns: point `8 i + b` reads columns `256 b … 256 b + 255` of row `128 i + r` and of the weight's row `n`. -/
theorem stepG_sum (c : Dev nD) (i : ℕ) (hi : i < 32) (r : Fin 128) (n : Fin 10944) (R : Fin 4096) (hR : R.val = 128 * i + r.val) :
    ∑ b : Fin 8, stepG V c r n (8 * i + b.val) = ∑ k : Fin 2048, xarr V c (ix2 R k) * wgarr V c (ix2 n k) := by
  have hN : cfg4.N = 256 := N_4
  rw [← Cert.Sum8.sum_blocks (fun k => xarr V c (ix2 R k) * wgarr V c (ix2 n k))]
  refine Finset.sum_congr rfl fun b _ => ?_
  have hb : b.val < 8 := b.isLt
  have h : 8 * i + b.val < cfg4.N := by omega
  unfold stepG
  rw [dif_pos h]
  unfold blockDot
  refine Finset.sum_congr rfl fun j _ => ?_
  have hj : j.val < 256 := j.isLt
  exact congrArg₂ (· * ·)
    (xblk4_apply V c ⟨8 * i + b.val, h⟩ r j (ix2 R ⟨256 * b.val + j.val, by omega⟩)
      (by show R.val = 128 * ((8 * i + b.val) / 8) + r.val; omega)
      (by show 256 * b.val + j.val = 256 * ((8 * i + b.val) % 8) + j.val; omega))
    (gblk4_apply V c ⟨8 * i + b.val, h⟩ n j (ix2 n ⟨256 * b.val + j.val, by omega⟩) rfl
      (by show 256 * b.val + j.val = 256 * ((8 * i + b.val) % 8) + j.val; omega))

theorem stepU_sum (c : Dev nD) (i : ℕ) (hi : i < 32) (r : Fin 128) (n : Fin 10944) (R : Fin 4096) (hR : R.val = 128 * i + r.val) :
    ∑ b : Fin 8, stepU V c r n (8 * i + b.val) = ∑ k : Fin 2048, xarr V c (ix2 R k) * wuarr V c (ix2 n k) := by
  have hN : cfg4.N = 256 := N_4
  rw [← Cert.Sum8.sum_blocks (fun k => xarr V c (ix2 R k) * wuarr V c (ix2 n k))]
  refine Finset.sum_congr rfl fun b _ => ?_
  have hb : b.val < 8 := b.isLt
  have h : 8 * i + b.val < cfg4.N := by omega
  unfold stepU
  rw [dif_pos h]
  unfold blockDot
  refine Finset.sum_congr rfl fun j _ => ?_
  have hj : j.val < 256 := j.isLt
  exact congrArg₂ (· * ·)
    (xblk4_apply V c ⟨8 * i + b.val, h⟩ r j (ix2 R ⟨256 * b.val + j.val, by omega⟩)
      (by show R.val = 128 * ((8 * i + b.val) / 8) + r.val; omega)
      (by show 256 * b.val + j.val = 256 * ((8 * i + b.val) % 8) + j.val; omega))
    (ublk4_apply V c ⟨8 * i + b.val, h⟩ n j (ix2 n ⟨256 * b.val + j.val, by omega⟩) rfl
      (by show 256 * b.val + j.val = 256 * ((8 * i + b.val) % 8) + j.val; omega))

/-! ## What a row block's last point writes back, and the whole array -/

/-- The gated pair of products of the normalised rows with the two weight matrices: what the result array ends holding. -/
abbrev G4 (c : Dev nD) : Cert.Spec.Arr2 4096 10944 :=
  Cert.Spec.gate (Cert.Spec.mulT (V c main_v11) (V c main_v3)) (Cert.Spec.mulT (V c main_v11) (V c main_v4))

/-- At the last point `t = 8 i + 7` of a row block the first total is the full product at the rows of that block. -/
theorem accG_last (c : Dev nD) (t : Fin cfg4.N) (h7 : t.val % 8 = 7) (r : Fin 128) (n : Fin 10944) (J : S4096x10944.Idx)
    (h0 : (J 0).val = 128 * (t.val / 8) + r.val) (h1 : (J 1).val = n.val) :
    accG V c (t.val + 1) (ix2 r n) = Cert.Spec.mulT (V c main_v11) (V c main_v3) J := by
  have hN : cfg4.N = 256 := N_4
  have ht : t.val < 256 := hN ▸ t.isLt
  obtain ⟨R, N, rfl⟩ : ∃ (R : Fin 4096) (N : Fin 10944), J = ix2 R N := ⟨J 0, J 1, eq_ix2 J⟩
  obtain rfl : N = n := Fin.ext h1
  rw [show t.val + 1 = 8 * (t.val / 8) + 8 by omega]
  exact (accG_block V c (t.val / 8) (by omega) r N).trans (stepG_sum V c (t.val / 8) (by omega) r N R h0)

/-- And the second total likewise. -/
theorem accU_last (c : Dev nD) (t : Fin cfg4.N) (h7 : t.val % 8 = 7) (r : Fin 128) (n : Fin 10944) (J : S4096x10944.Idx)
    (h0 : (J 0).val = 128 * (t.val / 8) + r.val) (h1 : (J 1).val = n.val) :
    accU V c (t.val + 1) (ix2 r n) = Cert.Spec.mulT (V c main_v11) (V c main_v4) J := by
  have hN : cfg4.N = 256 := N_4
  have ht : t.val < 256 := hN ▸ t.isLt
  obtain ⟨R, N, rfl⟩ : ∃ (R : Fin 4096) (N : Fin 10944), J = ix2 R N := ⟨J 0, J 1, eq_ix2 J⟩
  obtain rfl : N = n := Fin.ext h1
  rw [show t.val + 1 = 8 * (t.val / 8) + 8 by omega]
  exact (accU_block V c (t.val / 8) (by omega) r N).trans (stepU_sum V c (t.val / 8) (by omega) r N R h0)

/-- The one store of the result's buffer, entry by entry. -/
theorem out4_3_apply (g u : FVec Ideal S128x10944 .f32) (j : S128x10944.Idx) :
    (out4_3 (F := Ideal) g u j : EReal) = (g j : EReal) * Ideal.logistic (g j) * (u j : EReal) := by
  unfold out4_3
  rw [View.canon_unit_zero hz4]
  rfl

/-- WHAT A FLUSHING POINT WRITES BACK is its block of the gated product: rows `128 i … 128 i + 127`, all columns. -/
theorem flushed4_3 (c : Dev nD) (t : Fin cfg4.N) (hf : (cfg4.win 3).flush t = true) :
    (dat4 V c).flushed 3 t = ((cfg4.win 3).blk t).view.read (Elt Ideal) (G4 V c) := by
  have h7 : t.val % 8 = 7 := (flush4_3 t).mp hf
  show (cfg4.win 3).cut (grid4.coords t) ((dat4 V c).after 3 t) = _
  rw [after4_3]
  refine funext fun (j : S128x10944.Idx) => ?_
  obtain ⟨r, n, rfl⟩ : ∃ (r : Fin 128) (n : Fin 10944), j = ix2 r n := ⟨j 0, j 1, eq_ix2 j⟩
  show out4_3 (accG V c (t.val + 1)) (accU V c (t.val + 1)) (ix2 r n) = G4 V c (((cfg4.win 3).blk t).view.emb (ix2 r n))
  obtain ⟨-, -, -, -, -, -, e0, e1⟩ := idx4 t
  have h0 : ((((cfg4.win 3).blk t).view.emb (ix2 r n) : S4096x10944.Idx) 0).val = 128 * (t.val / 8) + r.val := by
    show win4_3.index t (0 : Fin 2) * 128 + 1 * r.val = _; omega
  have h1 : ((((cfg4.win 3).blk t).view.emb (ix2 r n) : S4096x10944.Idx) 1).val = n.val := by
    show win4_3.index t (1 : Fin 2) * 10944 + 1 * n.val = _; omega
  rw [out4_3_apply, accG_last V c t h7 r n _ h0 h1, accU_last V c t h7 r n _ h0 h1]
  rfl

/-- An index of the result array is in point `t`'s block iff each coordinate is in the block's range on its axis. -/
theorem mem_blk4_3 (t : Fin cfg4.N) (i : S4096x10944.Idx) :
    i ∈ ((cfg4.win 3).blk t).view.set ↔ ∀ a : Fin 2, win4_3.index t a * S128x10944.size a ≤ (i a).val ∧ (i a).val < win4_3.index t a * S128x10944.size a + S128x10944.size a := by
  show i ∈ ((View.whole main_v12).slice (win4_3.rect t)).set ↔ _
  rw [View.set_slice_whole, Rect.mem_set_unit]
  exact Iff.rfl

/-- Every entry `(R, n)` of the result is written back, by the last point `8 (R / 128) + 7` of its row block. -/
theorem cover4_3 (i : S4096x10944.Idx) :
    ∃ t : Fin cfg4.N, (cfg4.win 3).flush t = true ∧ i ∈ ((cfg4.win 3).blk t).view.set := by
  have hN : cfg4.N = 256 := N_4
  have hi0 : (i 0).val < 4096 := (i 0).isLt
  have hi1 : (i 1).val < 10944 := (i 1).isLt
  refine ⟨⟨8 * ((i 0).val / 128) + 7, by omega⟩, (flush4_3 _).mpr (by show (8 * ((i 0).val / 128) + 7) % 8 = 7; omega), ?_⟩
  rw [mem_blk4_3]
  obtain ⟨-, -, -, -, -, -, e0, e1⟩ := idx4 ⟨8 * ((i 0).val / 128) + 7, by omega⟩
  intro a
  match a with
  | ⟨0, _⟩ =>
    show win4_3.index _ (0 : Fin 2) * 128 ≤ (i 0).val ∧ (i 0).val < win4_3.index _ (0 : Fin 2) * 128 + 128
    rw [e0]
    show (8 * ((i 0).val / 128) + 7) / 8 * 128 ≤ (i 0).val ∧ (i 0).val < (8 * ((i 0).val / 128) + 7) / 8 * 128 + 128
    omega
  | ⟨1, _⟩ =>
    show win4_3.index _ (1 : Fin 2) * 10944 ≤ (i 1).val ∧ (i 1).val < win4_3.index _ (1 : Fin 2) * 10944 + 10944
    rw [e1]
    omega

/-- THE RESULT ARRAY after the call: the gated pair of products, at every entry. -/
theorem value4 (c : Dev nD) : ∀ j, (dat4 (F := Ideal) V c).arrAt 3 cfg4.N j
    = Cert.Spec.gate (Cert.Spec.mulT (V c main_v11) (V c main_v3)) (Cert.Spec.mulT (V c main_v11) (V c main_v4)) j :=
  fun j => congrFun ((dat4 V c).arrAt_eq_of_cover 3 (G4 V c) (flushed4_3 V c) cover4_3) j

end Cert.KernelIdeal.Val

end
-- ==== Proof.KI.Value5.lean ====
import proofs.«163206_j1571958030520_1_alg».proof.Proof.KI.Region5
import proofs.«163206_j1571958030520_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Rgn
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! # The value of the last projection: every entry of the result is a row of the activations against a row of the
down weights, summed over the whole inner axis, plus the same entry of the hidden rows.

Entry (r, n) of the result is written at the grid point (r / 256, n / 256), from row `r % 256` of the activations'
block `r / 256`, row `n % 256` of the weights' block `n / 256` and entry (r % 256, n % 256) of the residual's block. -/

/-! ## The product inside one block, at an entry -/

/-- Axis 0 of the left factor's index is the output's row; -/
theorem lhs5_0 (i : S256x256.Idx) (q : dot_S256x10944_S256x10944_S256x256_1_1_0_0_n_n.contr.Idx) :
    (dot_S256x10944_S256x10944_S256x256_1_1_0_0_n_n.lhsIdx i q 0).val = (i 0).val := by
  unfold DotDims.lhsIdx
  rw [dif_neg (show ¬(0 : Fin S256x10944.rank) ∈ dot_S256x10944_S256x10944_S256x256_1_1_0_0_n_n.lhsBatch by decide), dif_pos (show (0 : Fin S256x10944.rank) ∈ dot_S256x10944_S256x10944_S256x256_1_1_0_0_n_n.lhsNonContracting by decide)]
  rfl
/-- axis 1 is the summation index. -/
theorem lhs5_1 (i : S256x256.Idx) (q : dot_S256x10944_S256x10944_S256x256_1_1_0_0_n_n.contr.Idx) :
    (dot_S256x10944_S256x10944_S256x256_1_1_0_0_n_n.lhsIdx i q 1).val = (q ⟨0, by decide⟩).val :=
  dot_S256x10944_S256x10944_S256x256_1_1_0_0_n_n.lhsIdx_val_of_single rfl i q
/-- Axis 0 of the right factor's index is the output's column; -/
theorem rhs5_0 (i : S256x256.Idx) (q : dot_S256x10944_S256x10944_S256x256_1_1_0_0_n_n.contr.Idx) :
    (dot_S256x10944_S256x10944_S256x256_1_1_0_0_n_n.rhsIdx i q 0).val = (i 1).val := by
  unfold DotDims.rhsIdx
  rw [dif_neg (show ¬(0 : Fin S256x10944.rank) ∈ dot_S256x10944_S256x10944_S256x256_1_1_0_0_n_n.rhsBatch by decide), dif_pos (show (0 : Fin S256x10944.rank) ∈ dot_S256x10944_S256x10944_S256x256_1_1_0_0_n_n.rhsNonContracting by decide)]
  rfl
/-- axis 1 is the summation index. -/
theorem rhs5_1 (i : S256x256.Idx) (q : dot_S256x10944_S256x10944_S256x256_1_1_0_0_n_n.contr.Idx) :
    (dot_S256x10944_S256x10944_S256x256_1_1_0_0_n_n.rhsIdx i q 1).val = (q ⟨0, by decide⟩).val :=
  dot_S256x10944_S256x10944_S256x256_1_1_0_0_n_n.rhsIdx_val_of_single rfl i q

/-- The product of two blocks into a zero accumulator, at the entry (p, q): row p of the one against row q of the other. -/
theorem matmul5_apply (x0 x1 : FVec Ideal S256x10944 .bf16) (p q : Fin 256) :
    FloatOps.matmul dot_S256x10944_S256x10944_S256x256_1_1_0_0_n_n none x0 x1 (constant S256x256 .f32 0x00000000#32) (ix2 p q)
      = ∑ k : Fin 10944, x0 (ix2 p k) * x1 (ix2 q k) := by
  rw [Ideal.matmul_constant_zero_apply, ← Equiv.sum_comp (ValueIdx.contrEquiv1 dot_S256x10944_S256x10944_S256x256_1_1_0_0_n_n 10944 rfl rfl).symm]
  refine Finset.sum_congr rfl fun k _ => ?_
  have hk := ValueIdx.contrEquiv1_symm_val dot_S256x10944_S256x10944_S256x256_1_1_0_0_n_n 10944 rfl rfl k
  have el : dot_S256x10944_S256x10944_S256x256_1_1_0_0_n_n.lhsIdx (ix2 p q) ((ValueIdx.contrEquiv1 dot_S256x10944_S256x10944_S256x256_1_1_0_0_n_n 10944 rfl rfl).symm k) = ix2 p k := funext fun a => Fin.ext (by
    match a with
    | ⟨0, _⟩ => exact lhs5_0 _ _
    | ⟨1, _⟩ => exact (lhs5_1 _ _).trans hk)
  have er : dot_S256x10944_S256x10944_S256x256_1_1_0_0_n_n.rhsIdx (ix2 p q) ((ValueIdx.contrEquiv1 dot_S256x10944_S256x10944_S256x256_1_1_0_0_n_n 10944 rfl rfl).symm k) = ix2 q k := funext fun a => Fin.ext (by
    match a with
    | ⟨0, _⟩ => exact rhs5_0 _ _
    | ⟨1, _⟩ => exact (rhs5_1 _ _).trans hk)
  rw [el, er]

/-- What the body stores, at the entry (p, q): that sum plus the residual's entry. The casts between equal shapes are
    the identity. -/
theorem pay5_apply (x0 x1 : FVec Ideal S256x10944 .bf16) (x2 : FVec Ideal S256x256 .f32) (p q : Fin 256) :
    k5_pay1 (F := Ideal) x0 x1 x2 (ix2 p q) = (∑ k : Fin 10944, x0 (ix2 p k) * x1 (ix2 q k)) + x2 (ix2 p q) := by
  unfold k5_pay1
  simp only [shapeCast_self]
  exact congrArg (· + x2 (ix2 p q)) (matmul5_apply x0 x1 p q)

/-! ## One entry of a block against the whole arrays -/

/-- The result as one function of the three arrays. -/
abbrev G5 (A : S4096x10944.Idx → EReal) (B : S2048x10944.Idx → EReal) (R : S4096x2048.Idx → EReal) : S4096x2048.Idx → EReal :=
  fun j => Cert.Spec.mulT A B j + R j

/-- If row p of the first block is row `z 0` of `A`, row q of the second is row `z 1` of `B`, and the residual's entry
    (p, q) is `R z`, then the stored entry (p, q) is the result at `z`. -/
theorem entry5 (A : S4096x10944.Idx → EReal) (B : S2048x10944.Idx → EReal) (R : S4096x2048.Idx → EReal)
    (x0 x1 : FVec Ideal S256x10944 .bf16) (x2 : FVec Ideal S256x256 .f32) (p q : Fin 256) (z : S4096x2048.Idx)
    (h0 : ∀ k : Fin 10944, x0 (ix2 p k) = A (ix2 (z 0) k))
    (h1 : ∀ k : Fin 10944, x1 (ix2 q k) = B (ix2 (z 1) k))
    (h2 : x2 (ix2 p q) = R z) :
    k5_pay1 (F := Ideal) x0 x1 x2 (ix2 p q) = G5 A B R z := by
  refine (pay5_apply x0 x1 x2 p q).trans ?_
  show _ = (∑ k : Fin 10944, A (ix2 (z 0) k) * B (ix2 (z 1) k)) + R z
  rw [h2]
  exact congrArg (· + R z) (Finset.sum_congr rfl fun k _ => by rw [h0 k, h1 k])

/-! ## The blocks' places in the arrays -/

theorem hz5 : (![0, 0] : Fin 2 → Nat) = fun _ => 0 := funext fun a => by fin_cases a <;> rfl

/-- The block indices at a grid point, decided over the grid: the activations' block is the output's row block, the
    weights' block is the output's column block, the residual's block is the output's; the contracted axis is whole. -/
theorem idx_facts5 : ∀ t : Fin cfg5.N, win5_0.index t (0 : Fin 2) = win5_3.index t (0 : Fin 2)
    ∧ win5_0.index t (1 : Fin 2) = 0
    ∧ win5_1.index t (0 : Fin 2) = win5_3.index t (1 : Fin 2)
    ∧ win5_1.index t (1 : Fin 2) = 0
    ∧ win5_2.index t (0 : Fin 2) = win5_3.index t (0 : Fin 2)
    ∧ win5_2.index t (1 : Fin 2) = win5_3.index t (1 : Fin 2)
    ∧ win5_3.index t (0 : Fin 2) ≤ 15 ∧ win5_3.index t (1 : Fin 2) ≤ 7 :=
  (by decide +kernel : ∀ t : Fin grid5.N, _)

/-- Every output block is some point's. -/
theorem idx_onto5 : ∀ (q0 : Fin 16) (q1 : Fin 8), ∃ t : Fin cfg5.N, win5_3.index t = ![q0.val, q1.val] :=
  (by decide +kernel : ∀ (q0 : Fin 16) (q1 : Fin 8), ∃ t : Fin grid5.N, win5_3.index t = ![q0.val, q1.val])

/-! ## What a point writes back -/

/-- The point `t` writes back block `t` of the result. -/
theorem flushed5_eq (c : Dev nD) (t : Fin cfg5.N) :
    (dat5 V c).flushed 3 t = ((cfg5.win 3).blk t).view.read (Elt Ideal) (G5 (V c main_v12) (V c main_v5) (V c main_v9)) := by
  show (cfg5.win 3).cut (grid5.coords t) ((dat5 V c).after 3 t) = _
  rw [after5_3]
  unfold out5_3
  rw [View.canon_unit_zero hz5]
  simp only [View.ld_unit_zero (S := S256x10944) hz5, View.ld_unit_zero (S := S256x256) hz5]
  obtain ⟨e0, e1, e2, e3, e4, e5, e6, e7⟩ := idx_facts5 t
  funext y
  obtain ⟨p, q, rfl⟩ : ∃ (p q : Fin 256), y = ix2 p q := ⟨y 0, y 1, eq_ix2 y⟩
  refine entry5 (V c main_v12) (V c main_v5) (V c main_v9) (iblk5 V c 0 t) (iblk5 V c 1 t) (iblk5 V c 2 t) p q
    (((cfg5.win 3).blk t).view.emb (ix2 p q)) (fun k => ?_) (fun k => ?_) ?_
  · show V c main_v12 (((cfg5.win 0).blk t).view.emb (ix2 p k)) = _
    refine congrArg (V c main_v12) ?_
    funext a; apply Fin.ext
    match a with
    | ⟨0, _⟩ => show win5_0.index t (0 : Fin 2) * 256 + 1 * p.val = win5_3.index t (0 : Fin 2) * 256 + 1 * p.val; omega
    | ⟨1, _⟩ => show win5_0.index t (1 : Fin 2) * 10944 + 1 * k.val = k.val; omega
  · show V c main_v5 (((cfg5.win 1).blk t).view.emb (ix2 q k)) = _
    refine congrArg (V c main_v5) ?_
    funext a; apply Fin.ext
    match a with
    | ⟨0, _⟩ => show win5_1.index t (0 : Fin 2) * 256 + 1 * q.val = win5_3.index t (1 : Fin 2) * 256 + 1 * q.val; omega
    | ⟨1, _⟩ => show win5_1.index t (1 : Fin 2) * 10944 + 1 * k.val = k.val; omega
  · show V c main_v9 (((cfg5.win 2).blk t).view.emb (ix2 p q)) = _
    refine congrArg (V c main_v9) ?_
    funext a; apply Fin.ext
    match a with
    | ⟨0, _⟩ => show win5_2.index t (0 : Fin 2) * 256 + 1 * p.val = win5_3.index t (0 : Fin 2) * 256 + 1 * p.val; omega
    | ⟨1, _⟩ => show win5_2.index t (1 : Fin 2) * 256 + 1 * q.val = win5_3.index t (1 : Fin 2) * 256 + 1 * q.val; omega

/-! ## The blocks cover the array -/

/-- An index of the array is in the point `t`'s block iff each coordinate is in the block's range on its axis. -/
theorem mem_blk5 (t : Fin cfg5.N) (i : S4096x2048.Idx) :
    i ∈ ((cfg5.win 3).blk t).view.set ↔ ∀ a : Fin 2, win5_3.index t a * S256x256.size a ≤ (i a).val ∧ (i a).val < win5_3.index t a * S256x256.size a + S256x256.size a := by
  show i ∈ ((View.whole main_v13).slice (win5_3.rect t)).set ↔ _
  rw [View.set_slice_whole, Rect.mem_set_unit]
  exact Iff.rfl

/-- The entry (r, n) is in the block of the point whose block indices are (r / 256, n / 256). -/
theorem cover5 (i : S4096x2048.Idx) :
    ∃ t : Fin cfg5.N, (cfg5.win 3).flush t = true ∧ i ∈ ((cfg5.win 3).blk t).view.set := by
  have hi0 : (i 0).val < 4096 := (i 0).isLt
  have hi1 : (i 1).val < 2048 := (i 1).isLt
  obtain ⟨t, ht⟩ := idx_onto5 ⟨(i 0).val / 256, by omega⟩ ⟨(i 1).val / 256, by omega⟩
  have q0 : win5_3.index t (0 : Fin 2) = (i 0).val / 256 := congrFun ht 0
  have q1 : win5_3.index t (1 : Fin 2) = (i 1).val / 256 := congrFun ht 1
  refine ⟨t, flush5_3 t, ?_⟩
  rw [mem_blk5]
  intro a
  match a with
  | ⟨0, _⟩ => show win5_3.index t (0 : Fin 2) * 256 ≤ (i 0).val ∧ (i 0).val < win5_3.index t (0 : Fin 2) * 256 + 256; omega
  | ⟨1, _⟩ => show win5_3.index t (1 : Fin 2) * 256 ≤ (i 1).val ∧ (i 1).val < win5_3.index t (1 : Fin 2) * 256 + 256; omega

/-! ## The array after the region -/

/-- The result array after the last point: the product of the activations with the transposed down weights, plus the
    hidden rows. -/
theorem value5 (c : Dev nD) : ∀ j, (dat5 (F := Ideal) V c).arrAt 3 cfg5.N j
    = (fun j => Cert.Spec.mulT (V c main_v12) (V c main_v5) j + V c main_v9 j) j :=
  fun j => congrFun ((dat5 (F := Ideal) V c).arrAt_eq_of_cover 3 (G5 (V c main_v12) (V c main_v5) (V c main_v9))
    (fun t _ => flushed5_eq V c t) cover5) j

end Cert.KernelIdeal.Val

end
-- ==== Proof.KI.Final.lean ====
import proofs.«163206_j1571958030520_1_alg».proof.Proof.KI.Run
import proofs.«163206_j1571958030520_1_alg».proof.Proof.KI.Value0
import proofs.«163206_j1571958030520_1_alg».proof.Proof.KI.Value1
import proofs.«163206_j1571958030520_1_alg».proof.Proof.KI.Value2
import proofs.«163206_j1571958030520_1_alg».proof.Proof.KI.Value3
import proofs.«163206_j1571958030520_1_alg».proof.Proof.KI.Value4
import proofs.«163206_j1571958030520_1_alg».proof.Proof.KI.Value5
import proofs.«163206_j1571958030520_1_alg».proof.Proof.Spec
import Idealize.ShloMosaic.Lib.Pipeline.Value
import Idealize.ShloMosaic.Lib.ValueIdx
import Idealize.ShloMosaic.Lib.ValueLayout
import Idealize.ShloMosaic.Lib.StableHlo.Run

/-!
The idealized kernel's result as one function of its arguments.

Read over the extended reals, each region's output array is a specification function of the arrays it is entered
with: the normalised rows, a product with a transposed weight, such a product plus a residual, the gated pair of
products. Followed through the fold of the run, the result buffer holds the whole block of the first argument's
rows, the two weight vectors as rows and the five weight matrices, reshaped to three axes. The kernel adds each
residual on the right of the product where the specification adds it on the left: commutativity of the sum is
the only law used, and it holds for every extended real, so no finiteness is needed here.
-/

set_option maxRecDepth 16384

noncomputable section

namespace Cert.KernelIdeal.Rgn

open Cert.KernelIdeal Cert.KernelIdeal.Gen Cert.KernelIdeal.Val
open Idealize.ShloMosaic Idealize.ShloMosaic.TcCoe
open Idealize.SL.Sem

/-! ## The kernel's result, as the block's function of the arguments -/

section Final

open Idealize.ShloMosaic.ValueIdx

variable (m : (ℓ : Loc nD τ sig) → Buf (Elt Ideal) ℓ) (c : Dev nD)

/-- The token rows: the first argument read as a matrix of 4096 rows. -/
abbrev rowsOf : Cert.Spec.Arr2 4096 2048 := shapeCast S4096x2048 (m ((c : Thread nD τ).loc main_arg0)) shapeCasts_S2x2048x2048_S4096x2048
/-- The two weight vectors as one-row matrices, as the program reshapes them. -/
abbrev wrow1 : Cert.Spec.Arr2 1 2048 := shapeCast S1x2048 (m ((c : Thread nD τ).loc main_arg2)) shapeCasts_S2048_S1x2048
abbrev wrow2 : Cert.Spec.Arr2 1 2048 := shapeCast S1x2048 (m ((c : Thread nD τ).loc main_arg3)) shapeCasts_S2048_S1x2048
/-- The five weight matrices. -/
abbrev wq : Cert.Spec.Arr2 2048 2048 := m ((c : Thread nD τ).loc main_arg4)
abbrev wo : Cert.Spec.Arr2 2048 2048 := m ((c : Thread nD τ).loc main_arg5)
abbrev wg : Cert.Spec.Arr2 10944 2048 := m ((c : Thread nD τ).loc main_arg6)
abbrev wu : Cert.Spec.Arr2 10944 2048 := m ((c : Thread nD τ).loc main_arg7)
abbrev wd : Cert.Spec.Arr2 2048 10944 := m ((c : Thread nD τ).loc main_arg8)

/-- A vector reshaped to one row is that vector as a one-row matrix. -/
theorem reshape_row (a : (⟨1, ![2048]⟩ : Shape).Idx → EReal) (h : (⟨1, ![2048]⟩ : Shape).ShapeCasts ⟨2, ![1, 2048]⟩) :
    shapeCast ⟨2, ![1, 2048]⟩ a h = Cert.Spec.row a := by
  funext j
  obtain ⟨u, i, rfl⟩ : ∃ (u : Fin 1) (i : Fin 2048), j = ix2 u i := ⟨j 0, j 1, eq_ix2 j⟩
  exact shapeCast_a_1a_apply a h u i

/-- The last sum in the order the kernel adds is the block. -/
theorem block_of_sum (x : Cert.Spec.Arr2 4096 2048) (w₁ w₂ : Cert.Spec.Arr2 1 2048) (Wq Wo : Cert.Spec.Arr2 2048 2048)
    (Wg Wu : Cert.Spec.Arr2 10944 2048) (Wd : Cert.Spec.Arr2 2048 10944) :
    (fun j => Cert.Spec.mulT (Cert.Spec.act (Cert.Spec.hidden x w₁ Wq Wo) w₂ Wg Wu) Wd j + Cert.Spec.hidden x w₁ Wq Wo j)
      = Cert.Spec.block x w₁ w₂ Wq Wo Wg Wu Wd := funext fun j => add_comm _ _

/-! ### What the host stretches write -/

theorem W1_v0 : W1 m c (Proc.devRef .tc main_v0) = rowsOf m c := by
  show StableHlo.after hostOps0 (fun b => m (c, b)) (Proc.devRef .tc main_v0) = _; after_results; rfl
theorem W1_v6 : W1 m c (Proc.devRef .tc main_v6) = wrow1 m c := by
  show StableHlo.after hostOps0 (fun b => m (c, b)) (Proc.devRef .tc main_v6) = _; after_results; rfl
theorem W1_v1 : W1 m c (Proc.devRef .tc main_v1) = wq m c := by
  show StableHlo.after hostOps0 (fun b => m (c, b)) (Proc.devRef .tc main_v1) = _; after_results; rfl
theorem W1_v2 : W1 m c (Proc.devRef .tc main_v2) = wo m c := by
  show StableHlo.after hostOps0 (fun b => m (c, b)) (Proc.devRef .tc main_v2) = _; after_results; rfl
theorem W1_v3 : W1 m c (Proc.devRef .tc main_v3) = wg m c := by
  show StableHlo.after hostOps0 (fun b => m (c, b)) (Proc.devRef .tc main_v3) = _; after_results; rfl
theorem W1_v4 : W1 m c (Proc.devRef .tc main_v4) = wu m c := by
  show StableHlo.after hostOps0 (fun b => m (c, b)) (Proc.devRef .tc main_v4) = _; after_results; rfl
theorem W1_v5 : W1 m c (Proc.devRef .tc main_v5) = wd m c := by
  show StableHlo.after hostOps0 (fun b => m (c, b)) (Proc.devRef .tc main_v5) = _; after_results; rfl

/-! ### Region by region -/

/-- After region 0: the rows normalised with the first weight row. -/
theorem W2_v7 : W2 m c (Proc.devRef .tc main_v7) = Cert.Spec.rms (rowsOf m c) (wrow1 m c) := by
  refine (W2_arr m c 2).trans (funext fun j => ?_)
  rw [value0 (U1 m) c j, show U1 m c main_v0 = rowsOf m c from W1_v0 m c, show U1 m c main_v6 = wrow1 m c from W1_v6 m c]

/-- After region 1: the query projection. -/
theorem W3_v8 : W3 m c (Proc.devRef .tc main_v8) = Cert.Spec.mulT (Cert.Spec.rms (rowsOf m c) (wrow1 m c)) (wq m c) := by
  refine (W3_arr m c 2).trans (funext fun j => ?_)
  rw [value1 (U2 m) c j, show U2 m c main_v7 = _ from W2_v7 m c,
    show U2 m c main_v1 = wq m c from (W2_keep m c main_v1 (by decide)).trans (W1_v1 m c)]

/-- After region 2: the output projection plus the rows (the sum in the order the kernel adds). -/
theorem W4_v9 : W4 m c (Proc.devRef .tc main_v9)
    = fun j => Cert.Spec.mulT (Cert.Spec.mulT (Cert.Spec.rms (rowsOf m c) (wrow1 m c)) (wq m c)) (wo m c) j + rowsOf m c j := by
  refine (W4_arr m c 3).trans (funext fun j => ?_)
  rw [value2 (U3 m) c j, show U3 m c main_v8 = _ from W3_v8 m c,
    show U3 m c main_v2 = wo m c from (W3_keep m c main_v2 (by decide)).trans ((W2_keep m c main_v2 (by decide)).trans (W1_v2 m c)),
    show U3 m c main_v0 = rowsOf m c from (W3_keep m c main_v0 (by decide)).trans ((W2_keep m c main_v0 (by decide)).trans (W1_v0 m c))]

/-- The same as the specification writes it. -/
theorem W4_v9_hidden : W4 m c (Proc.devRef .tc main_v9) = Cert.Spec.hidden (rowsOf m c) (wrow1 m c) (wq m c) (wo m c) :=
  (W4_v9 m c).trans (funext fun j => add_comm _ _)

/-- The second weight row, written by the second stretch from an argument no region touched. -/
theorem W5_v10 : W5 m c (Proc.devRef .tc main_v10) = wrow2 m c := by
  show StableHlo.after hostOps3 (W4 m c) (Proc.devRef .tc main_v10) = _
  after_results
  rw [show W4 m c (Proc.devRef .tc main_arg3) = m ((c : Thread nD τ).loc main_arg3) from
    (W4_keep m c main_arg3 (by decide)).trans ((W3_keep m c main_arg3 (by decide)).trans ((W2_keep m c main_arg3 (by decide)).trans (W1_keep m c main_arg3 (by decide))))]
  rfl

/-- After region 3: the hidden rows normalised with the second weight row. -/
theorem W6_v11 : W6 m c (Proc.devRef .tc main_v11)
    = Cert.Spec.rms (Cert.Spec.hidden (rowsOf m c) (wrow1 m c) (wq m c) (wo m c)) (wrow2 m c) := by
  refine (W6_arr m c 2).trans (funext fun j => ?_)
  rw [value3 (U5 m) c j, show U5 m c main_v9 = _ from (W5_keep m c main_v9 (by decide)).trans (W4_v9_hidden m c),
    show U5 m c main_v10 = wrow2 m c from W5_v10 m c]

/-- After region 4: the gated pair of projections. -/
theorem W7_v12 : W7 m c (Proc.devRef .tc main_v12)
    = Cert.Spec.act (Cert.Spec.hidden (rowsOf m c) (wrow1 m c) (wq m c) (wo m c)) (wrow2 m c) (wg m c) (wu m c) := by
  refine (W7_arr m c 3).trans (funext fun j => ?_)
  rw [value4 (U6 m) c j, show U6 m c main_v11 = _ from W6_v11 m c,
    show U6 m c main_v3 = wg m c from (W6_keep m c main_v3 (by decide)).trans ((W5_keep m c main_v3 (by decide)).trans ((W4_keep m c main_v3 (by decide)).trans
      ((W3_keep m c main_v3 (by decide)).trans ((W2_keep m c main_v3 (by decide)).trans (W1_v3 m c))))),
    show U6 m c main_v4 = wu m c from (W6_keep m c main_v4 (by decide)).trans ((W5_keep m c main_v4 (by decide)).trans ((W4_keep m c main_v4 (by decide)).trans
      ((W3_keep m c main_v4 (by decide)).trans ((W2_keep m c main_v4 (by decide)).trans (W1_v4 m c)))))]
  rfl

/-- After region 5: the whole block. -/
theorem W8_v13 : W8 m c (Proc.devRef .tc main_v13)
    = Cert.Spec.block (rowsOf m c) (wrow1 m c) (wrow2 m c) (wq m c) (wo m c) (wg m c) (wu m c) (wd m c) := by
  refine (W8_arr m c 3).trans (funext fun j => ?_)
  rw [value5 (U7 m) c j, show U7 m c main_v12 = _ from W7_v12 m c,
    show U7 m c main_v5 = wd m c from (W7_keep m c main_v5 (by decide)).trans ((W6_keep m c main_v5 (by decide)).trans ((W5_keep m c main_v5 (by decide)).trans
      ((W4_keep m c main_v5 (by decide)).trans ((W3_keep m c main_v5 (by decide)).trans ((W2_keep m c main_v5 (by decide)).trans (W1_v5 m c)))))),
    show U7 m c main_v9 = _ from (W7_keep m c main_v9 (by decide)).trans ((W6_keep m c main_v9 (by decide)).trans ((W5_keep m c main_v9 (by decide)).trans (W4_v9_hidden m c)))]
  exact congrFun (block_of_sum _ _ _ _ _ _ _ _) j

/-- The result buffer: the block reshaped to three axes, the weight rows read as the specification's one-row matrices. -/
theorem result_eq : W9 m c (Proc.devRef .tc main_v14)
    = shapeCast S2x2048x2048 (Cert.Spec.block (rowsOf m c) (Cert.Spec.row (m ((c : Thread nD τ).loc main_arg2))) (Cert.Spec.row (m ((c : Thread nD τ).loc main_arg3)))
        (wq m c) (wo m c) (wg m c) (wu m c) (wd m c)) shapeCasts_S4096x2048_S2x2048x2048 := by
  show StableHlo.after hostOps6 (W8 m c) (Proc.devRef .tc main_v14) = _
  after_results
  rw [W8_v13 m c, show wrow1 m c = _ from reshape_row _ _, show wrow2 m c = _ from reshape_row _ _]
  rfl

end Final

end Cert.KernelIdeal.Rgn

end
-- ==== Proof.RefValue.lean ====
import proofs.«163206_j1571958030520_1_alg».proof.Defs
import proofs.«163206_j1571958030520_1_alg».proof.Proof.Gen.ReferenceIdeal.Read
import proofs.«163206_j1571958030520_1_alg».proof.Proof.Gen.Pre_finite_inputs
import proofs.«163206_j1571958030520_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

/-!
The reference program's result is the decoder block of the specification.

The reference works on the token rows `x` (the input seen as a `4096 × 2048` matrix) in ten steps: the
row normalisation of `x` by the first weight row, the two projections `· Wqᵀ` and `· Woᵀ`, the sum
`h = x + …`, the row normalisation of `h` by the second weight row, the two projections `· Wgᵀ` and
`· Wuᵀ`, the gate `g · σ(g) · u`, the projection `· Wdᵀ` and the sum `h + …`. Each step is identified here
with the specification's function of the SAME name applied to the previous step's array, which stays a
variable; the steps are then composed. Every identification is entry by entry and uses only what the
operations are on the extended reals:

* a row's sum of squares starts from the zero word, which is `0`, and `0 + s = s`;
* the mean square's column `[4096] → [4096, 1] → [4096, 2048]` reads, at entry `(r, c)`, the sum of row `r`;
* the weight row `[2048] → [1, 2048] → [4096, 2048]` reads, at entry `(r, c)`, the weight's entry `c`;
* a contraction of the last axes reads, at entry `(r, n)`, the sum over `k` of `A (r, k) · B (n, k)`;
* `1 / (1 + exp (−g))`, with `1` the word of one, is the logistic function of `g` by its definition.

The two float words of the normalisation (the row length and the small number) are the same words on
both sides and are never evaluated. The first and the last change of shape stay as they are printed.
-/

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo
open Idealize.ShloMosaic.ValueIdx Cert.Spec

/-! ## Where each layout step reads -/

/-- First normalisation: entry `(p, q)` of the broadcast column reads row `p`'s sum, whose `k`-th term sits at `(p, k)`. -/
theorem sumIdx₁ (p : Fin 4096) (q k : Fin 2048) :
    idx_main_v2 (idx_main_v3 (idx_main_v9 (ix2 p q))) k = ix2 p k :=
  funext fun a => Fin.ext (by match a with | ⟨0, _⟩ => rfl | ⟨1, _⟩ => rfl)

/-- First normalisation: entry `(p, q)` of the broadcast weight row reads the weight's entry `q`. -/
theorem weightIdx₁ (p : Fin 4096) (q : Fin 2048) : idx_main_v11 (idx_main_v12 (ix2 p q)) = ix1 q :=
  funext fun a => Fin.ext (by match a with | ⟨0, _⟩ => rfl)

/-- Second normalisation: entry `(p, q)` of the broadcast column reads row `p`'s sum, whose `k`-th term sits at `(p, k)`. -/
theorem sumIdx₂ (p : Fin 4096) (q k : Fin 2048) :
    idx_main_v18 (idx_main_v19 (idx_main_v25 (ix2 p q))) k = ix2 p k :=
  funext fun a => Fin.ext (by match a with | ⟨0, _⟩ => rfl | ⟨1, _⟩ => rfl)

/-- Second normalisation: entry `(p, q)` of the broadcast weight row reads the weight's entry `q`. -/
theorem weightIdx₂ (p : Fin 4096) (q : Fin 2048) : idx_main_v27 (idx_main_v28 (ix2 p q)) = ix1 q :=
  funext fun a => Fin.ext (by match a with | ⟨0, _⟩ => rfl)

/-- `· Wqᵀ` at `(p, q)`: the left factor's `k`-th term is at `(p, k)`. -/
theorem leftIdx_q (p : Fin 4096) (q k : Fin 2048) : lidx_main_v14 (ix2 p q) k = ix2 p k :=
  funext fun a => Fin.ext (by match a with | ⟨0, _⟩ => rfl | ⟨1, _⟩ => rfl)
/-- `· Wqᵀ` at `(p, q)`: the right factor's `k`-th term is at `(q, k)`. -/
theorem rightIdx_q (p : Fin 4096) (q k : Fin 2048) : ridx_main_v14 (ix2 p q) k = ix2 q k :=
  funext fun a => Fin.ext (by match a with | ⟨0, _⟩ => rfl | ⟨1, _⟩ => rfl)

/-- `· Woᵀ` at `(p, q)`: the left factor's `k`-th term is at `(p, k)`. -/
theorem leftIdx_o (p : Fin 4096) (q k : Fin 2048) : lidx_main_v15 (ix2 p q) k = ix2 p k :=
  funext fun a => Fin.ext (by match a with | ⟨0, _⟩ => rfl | ⟨1, _⟩ => rfl)
/-- `· Woᵀ` at `(p, q)`: the right factor's `k`-th term is at `(q, k)`. -/
theorem rightIdx_o (p : Fin 4096) (q k : Fin 2048) : ridx_main_v15 (ix2 p q) k = ix2 q k :=
  funext fun a => Fin.ext (by match a with | ⟨0, _⟩ => rfl | ⟨1, _⟩ => rfl)

/-- `· Wgᵀ` at `(p, q)`: the left factor's `k`-th term is at `(p, k)`. -/
theorem leftIdx_g (p : Fin 4096) (q : Fin 10944) (k : Fin 2048) : lidx_main_v30 (ix2 p q) k = ix2 p k :=
  funext fun a => Fin.ext (by match a with | ⟨0, _⟩ => rfl | ⟨1, _⟩ => rfl)
/-- `· Wgᵀ` at `(p, q)`: the right factor's `k`-th term is at `(q, k)`. -/
theorem rightIdx_g (p : Fin 4096) (q : Fin 10944) (k : Fin 2048) : ridx_main_v30 (ix2 p q) k = ix2 q k :=
  funext fun a => Fin.ext (by match a with | ⟨0, _⟩ => rfl | ⟨1, _⟩ => rfl)

/-- `· Wuᵀ` at `(p, q)`: the left factor's `k`-th term is at `(p, k)`. -/
theorem leftIdx_u (p : Fin 4096) (q : Fin 10944) (k : Fin 2048) : lidx_main_v32 (ix2 p q) k = ix2 p k :=
  funext fun a => Fin.ext (by match a with | ⟨0, _⟩ => rfl | ⟨1, _⟩ => rfl)
/-- `· Wuᵀ` at `(p, q)`: the right factor's `k`-th term is at `(q, k)`. -/
theorem rightIdx_u (p : Fin 4096) (q : Fin 10944) (k : Fin 2048) : ridx_main_v32 (ix2 p q) k = ix2 q k :=
  funext fun a => Fin.ext (by match a with | ⟨0, _⟩ => rfl | ⟨1, _⟩ => rfl)

/-- `· Wdᵀ` at `(p, q)`: the left factor's `k`-th term is at `(p, k)`. -/
theorem leftIdx_d (p : Fin 4096) (q : Fin 2048) (k : Fin 10944) : lidx_main_v34 (ix2 p q) k = ix2 p k :=
  funext fun a => Fin.ext (by match a with | ⟨0, _⟩ => rfl | ⟨1, _⟩ => rfl)
/-- `· Wdᵀ` at `(p, q)`: the right factor's `k`-th term is at `(q, k)`. -/
theorem rightIdx_d (p : Fin 4096) (q : Fin 2048) (k : Fin 10944) : ridx_main_v34 (ix2 p q) k = ix2 q k :=
  funext fun a => Fin.ext (by match a with | ⟨0, _⟩ => rfl | ⟨1, _⟩ => rfl)

/-- The word of one is the extended real `1`. -/
theorem one_word : Ideal.ofBits .f32 0x3F800000#32 = 1 := by
  simp [Ideal.ofBits, Ideal.ieee, -EReal.coe_mul]; norm_num

section
variable (a0 : FVec Ideal S2x2048x2048 .f32) (a2 a3 : FVec Ideal S2048 .f32) (a4 a5 : FVec Ideal S2048x2048 .f32)
  (a6 a7 : FVec Ideal S10944x2048 .f32) (a8 : FVec Ideal S2048x10944 .f32)

/-! ## The first half: `h = x + ((rms x w₁) · Wqᵀ) · Woᵀ` -/

/-- The first normalisation is `rms` of the token rows and the first weight row. -/
theorem norm₁ : val_main_v13 (F := Ideal) a0 a2 = rms (val_main_v0 (F := Ideal) a0) (row a2) := by
  funext j
  obtain ⟨p, q, rfl⟩ : ∃ (p : Fin 4096) (q : Fin 2048), j = ix2 p q := ⟨j 0, j 1, eq_ix2 j⟩
  rw [val_main_v13_apply, val_main_v10_apply, val_main_v9_apply, val_main_v8_apply, val_main_v7_apply,
    val_main_v5_apply, val_main_v3_apply, val_main_v2_apply, val_main_v4_apply, val_main_v6_apply,
    val_main_cst_apply, val_main_cst_0_apply, val_main_cst_1_apply, val_main_v12_apply, val_main_v11_apply]
  simp only [val_main_v1_apply, sumIdx₁, weightIdx₁, Ideal.mulf_def, Ideal.addf_def, Ideal.hostDivf_def,
    Ideal.hostUnary_rsqrt_def, Ideal.ofBits_def, Ideal.ofBits_zero_f32, zero_add]
  rfl

/-- The projection by `Wq` contracts the last axes. -/
theorem proj_q : val_main_v14 (F := Ideal) a0 a2 a4 = mulT (val_main_v13 (F := Ideal) a0 a2) a4 := by
  funext j
  obtain ⟨p, q, rfl⟩ : ∃ (p : Fin 4096) (q : Fin 2048), j = ix2 p q := ⟨j 0, j 1, eq_ix2 j⟩
  rw [val_main_v14_apply]
  refine Finset.sum_congr rfl fun k _ => ?_
  rw [leftIdx_q, rightIdx_q]

/-- The projection by `Wo` contracts the last axes. -/
theorem proj_o : val_main_v15 (F := Ideal) a0 a2 a4 a5 = mulT (val_main_v14 (F := Ideal) a0 a2 a4) a5 := by
  funext j
  obtain ⟨p, q, rfl⟩ : ∃ (p : Fin 4096) (q : Fin 2048), j = ix2 p q := ⟨j 0, j 1, eq_ix2 j⟩
  rw [val_main_v15_apply]
  refine Finset.sum_congr rfl fun k _ => ?_
  rw [leftIdx_o, rightIdx_o]

/-- The first half of the block is `hidden`. -/
theorem ref_hidden :
    val_main_v16 (F := Ideal) a0 a2 a4 a5 = hidden (val_main_v0 (F := Ideal) a0) (row a2) a4 a5 := by
  funext j
  rw [val_main_v16_apply, proj_o, proj_q, norm₁]
  rfl

/-! ## The second half: `h + (gate ((rms h w₂) · Wgᵀ) ((rms h w₂) · Wuᵀ)) · Wdᵀ` -/

/-- The second normalisation is `rms` of the first half's result and the second weight row. -/
theorem norm₂ :
    val_main_v29 (F := Ideal) a0 a2 a3 a4 a5 = rms (val_main_v16 (F := Ideal) a0 a2 a4 a5) (row a3) := by
  funext j
  obtain ⟨p, q, rfl⟩ : ∃ (p : Fin 4096) (q : Fin 2048), j = ix2 p q := ⟨j 0, j 1, eq_ix2 j⟩
  rw [val_main_v29_apply, val_main_v26_apply, val_main_v25_apply, val_main_v24_apply, val_main_v23_apply,
    val_main_v21_apply, val_main_v19_apply, val_main_v18_apply, val_main_v20_apply, val_main_v22_apply,
    val_main_cst_2_apply, val_main_cst_3_apply, val_main_cst_4_apply, val_main_v28_apply, val_main_v27_apply]
  simp only [val_main_v17_apply, sumIdx₂, weightIdx₂, Ideal.mulf_def, Ideal.addf_def, Ideal.hostDivf_def,
    Ideal.hostUnary_rsqrt_def, Ideal.ofBits_def, Ideal.ofBits_zero_f32, zero_add]
  rfl

/-- The projection by `Wg` contracts the last axes. -/
theorem proj_g :
    val_main_v30 (F := Ideal) a0 a2 a3 a4 a5 a6 = mulT (val_main_v29 (F := Ideal) a0 a2 a3 a4 a5) a6 := by
  funext j
  obtain ⟨p, q, rfl⟩ : ∃ (p : Fin 4096) (q : Fin 10944), j = ix2 p q := ⟨j 0, j 1, eq_ix2 j⟩
  rw [val_main_v30_apply]
  refine Finset.sum_congr rfl fun k _ => ?_
  rw [leftIdx_g, rightIdx_g]

/-- The projection by `Wu` contracts the last axes. -/
theorem proj_u :
    val_main_v32 (F := Ideal) a0 a2 a3 a4 a5 a7 = mulT (val_main_v29 (F := Ideal) a0 a2 a3 a4 a5) a7 := by
  funext j
  obtain ⟨p, q, rfl⟩ : ∃ (p : Fin 4096) (q : Fin 10944), j = ix2 p q := ⟨j 0, j 1, eq_ix2 j⟩
  rw [val_main_v32_apply]
  refine Finset.sum_congr rfl fun k _ => ?_
  rw [leftIdx_u, rightIdx_u]

/-- `g · (1 / (1 + exp (−g)))` is `g · σ(g)`, entry by entry. -/
theorem silu_apply (j : S4096x10944.Idx) :
    val_main_v31 (F := Ideal) a0 a2 a3 a4 a5 a6 j
      = val_main_v30 (F := Ideal) a0 a2 a3 a4 a5 a6 j * Ideal.logistic (val_main_v30 (F := Ideal) a0 a2 a3 a4 a5 a6 j) := by
  rw [val_main_v31_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.addf_def, Ideal.hostDivf_def, Ideal.hostUnary_exp_def, Ideal.hostNegf_def,
    Ideal.negf_def, Ideal.ofBits_def, one_word]
  rfl

/-- The gated product is `gate` of the two projections. -/
theorem ref_gate :
    val_main_v33 (F := Ideal) a0 a2 a3 a4 a5 a6 a7
      = gate (val_main_v30 (F := Ideal) a0 a2 a3 a4 a5 a6) (val_main_v32 (F := Ideal) a0 a2 a3 a4 a5 a7) := by
  funext j
  rw [val_main_v33_apply, silu_apply, Ideal.mulf_def]
  rfl

/-- The projection by `Wd` contracts the last axes. -/
theorem proj_d :
    val_main_v34 (F := Ideal) a0 a2 a3 a4 a5 a6 a7 a8
      = mulT (val_main_v33 (F := Ideal) a0 a2 a3 a4 a5 a6 a7) a8 := by
  funext j
  obtain ⟨p, q, rfl⟩ : ∃ (p : Fin 4096) (q : Fin 2048), j = ix2 p q := ⟨j 0, j 1, eq_ix2 j⟩
  rw [val_main_v34_apply]
  refine Finset.sum_congr rfl fun k _ => ?_
  rw [leftIdx_d, rightIdx_d]

/-- What the gated layer feeds to the last projection is `act` of the first half's result. -/
theorem ref_act :
    val_main_v33 (F := Ideal) a0 a2 a3 a4 a5 a6 a7
      = act (val_main_v16 (F := Ideal) a0 a2 a4 a5) (row a3) a6 a7 := by
  rw [ref_gate, proj_g, proj_u, norm₂]
  rfl

/-! ## The whole block -/

/-- The reference's array before its last change of shape is the specification's block of the token rows. -/
theorem ref_block :
    val_main_v35 (F := Ideal) a0 a2 a3 a4 a5 a6 a7 a8
      = block (shapeCast S4096x2048 a0 shapeCasts_S2x2048x2048_S4096x2048) (row a2) (row a3) a4 a5 a6 a7 a8 := by
  funext j
  rw [val_main_v35_apply, proj_d, ref_act, ref_hidden]
  rfl

/-- The reference's result is the block, seen again as `2 × 2048 × 2048`. -/
theorem ref_result :
    val_main_v36 (F := Ideal) a0 a2 a3 a4 a5 a6 a7 a8
      = shapeCast S2x2048x2048
          (block (shapeCast S4096x2048 a0 shapeCasts_S2x2048x2048_S4096x2048) (row a2) (row a3) a4 a5 a6 a7 a8)
          shapeCasts_S4096x2048_S2x2048x2048 := by
  unfold val_main_v36
  rw [ref_block]

end

/-- The same, for the term the reference's run leaves in its result buffer, over any memory. -/
theorem ref_result_run (m : (ℓ : Loc nD τ sig) → Buf (Elt Ideal) ℓ) (c : Dev nD) :
    res_main_v36 (F := Ideal) m c
      = shapeCast S2x2048x2048
          (block (shapeCast S4096x2048 (m ((c.tc : Thread nD τ).loc main_arg0)) shapeCasts_S2x2048x2048_S4096x2048)
            (row (m ((c.tc : Thread nD τ).loc main_arg2))) (row (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)))
          shapeCasts_S4096x2048_S2x2048x2048 :=
  (val_main_v36_eq (F := Ideal) m c).trans (ref_result _ _ _ _ _ _ _ _)

/-- The reference terminates from every memory with its arguments unchanged. -/
theorem frame_ri :
    @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.ReferenceIdeal.RefValue

end
-- ==== Proof.lean ====
import proofs.«163206_j1571958030520_1_alg».proof.Defs
import proofs.«163206_j1571958030520_1_alg».proof.Proof.Gen.Kernel
import proofs.«163206_j1571958030520_1_alg».proof.Proof.Gen.KernelIdeal
import proofs.«163206_j1571958030520_1_alg».proof.Proof.Gen.ReferenceIdeal
import proofs.«163206_j1571958030520_1_alg».proof.Proof.Gen.Pre_finite_inputs
import proofs.«163206_j1571958030520_1_alg».proof.Proof.K.Run
import proofs.«163206_j1571958030520_1_alg».proof.Proof.KI.Final
import proofs.«163206_j1571958030520_1_alg».proof.Proof.RefValue
import Idealize.ShloMosaic.Adequacy
import Idealize.ShloMosaic.Init

/-!
One decoder block, as six kernel launches, against the same block written with whole-array operations.

The kernel normalises the 4096 token rows (each row times the reciprocal square root of its mean square plus a small
number, times a weight row), projects them twice and adds the rows back, normalises again, forms the gated pair of
projections — each accumulated over eight blocks of 256 of the contracted axis — and projects once more, adding the
hidden rows back. Over the extended reals every change of float format is the identity, a product accumulated from
zero is the plain sum of products, and a sum taken in eight blocks is the whole sum (addition is associative and
commutative there, infinities included), so each launch computes the specification's function of what it is handed,
and the composition is the specification's block. The reference computes the same block, its logistic function
spelt as one over one plus the exponential of the negation, which is the logistic function by definition, and its
residual sums in the other order. Both results are that block reshaped to three axes; the frames are the runs with
the result forgotten. The ideal pass rewrote no operation, so there is nothing to preserve.
-/

noncomputable section

namespace Cert.Proof

open Idealize.ShloMosaic Idealize.SL.Sem

/-- The word-level kernel runs to the end and leaves its arguments as launched. -/
theorem frame_k : Cert.frame_Kernel := fun m ρ _ =>
  (θ_run Cert.Kernel.defs _ _).mono (fun _ h c => (h c).2) (Cert.Kernel.Rgn.run_main (F := Bits) m ρ)

/-- So does the idealized kernel. -/
theorem frame_ki : Cert.frame_KernelIdeal := fun m ρ _ =>
  (θ_run Cert.KernelIdeal.defs _ _).mono (fun _ h c => (h c).2) (Cert.KernelIdeal.Rgn.run_main (F := Ideal) m ρ)

/-- From memories agreeing on the arguments both idealized programs end with the block of those arguments, reshaped
    to three axes, in their result buffers. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Rgn.result_eq m c), (h c).2⟩)
    (Cert.KernelIdeal.Rgn.run_main (F := Ideal) m ρ), ?_⟩
  refine (θ_run Cert.ReferenceIdeal.defs _ _).mono (fun _ h c => ⟨?_, (h c).2⟩)
    (Cert.ReferenceIdeal.Value.run (F := Ideal) m' ρ')
  obtain ⟨h0, -, h2, h3, h4, h5, h6, h7, h8⟩ := hagree c
  rw [(h c).1, Cert.ReferenceIdeal.RefValue.ref_result_run, h0, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
